-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x2048 : Shape := ⟨3, ![2, 2048, 2048]⟩
abbrev S2048x16384 : Shape := ⟨2, ![2048, 16384]⟩
abbrev S16384 : Shape := ⟨1, ![16384]⟩
abbrev S8192x2048 : Shape := ⟨2, ![8192, 2048]⟩
abbrev S2048 : Shape := ⟨1, ![2048]⟩
abbrev S_ : Shape := ⟨0, ![]⟩

class Facts : Prop where
  bcast_S_S2x2048x2048 : S_.BroadcastsInDim S2x2048x2048 (![] : Fin 0 → Fin S2x2048x2048.rank)
  reducesTo_S2x2048x2048_S_d0_1_2 : S2x2048x2048.ReducesTo [0, 1, 2] S_
  h_S_ : 0 < S_.numel
  bcast_S_S2048x16384 : S_.BroadcastsInDim S2048x16384 (![] : Fin 0 → Fin S2048x16384.rank)
  reducesTo_S2048x16384_S_d0_1 : S2048x16384.ReducesTo [0, 1] S_
  bcast_S_S16384 : S_.BroadcastsInDim S16384 (![] : Fin 0 → Fin S16384.rank)
  reducesTo_S16384_S_d0 : S16384.ReducesTo [0] S_
  bcast_S_S8192x2048 : S_.BroadcastsInDim S8192x2048 (![] : Fin 0 → Fin S8192x2048.rank)
  reducesTo_S8192x2048_S_d0_1 : S8192x2048.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S2048 .f32) (main_v13 : IVec S_ 1) (main_v16 : IVec S8192x2048 1) : IVec S_ 1 :=
  let main_c_5 : IVec S_ 1 := constantI S_ 1 1#1
  let main_v17 : IVec S_ 1 := (fun x v => Host.reduce IntOp.andi x v reducesTo_S8192x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  main_v23

def fn {F : FTy → Type} [FloatOps F] (main_arg0 : FVec F S2x2048x2048 .f32) (main_arg1 : FVec F S2048x16384 .f32) (main_arg2 : FVec F S16384 .f32) (main_arg3 : FVec F S8192x2048 .f32) (main_arg4 : FVec F S2048 .f32) : IVec S_ 1 :=
  let main_v0 : FVec F S2x2048x2048 .f32 := Host.absf main_arg0
  let main_cst : FVec F S_ .f32 := constant S_ .f32 0x7F800000#32
  let main_v1 : FVec F S2x2048x2048 .f32 := broadcastInDim S2x2048x2048 ![] bcast_S_S2x2048x2048 main_cst
  let main_v2 : IVec S2x2048x2048 1 := cmpf .olt main_v0 main_v1
  let main_c : IVec S_ 1 := constantI S_ 1 1#1
  let main_v3 : IVec S_ 1 := (fun x v => Host.reduce IntOp.andi x v reducesTo_S2x2048x2048_S_d0_1_2 h_S_) main_v2 main_c
  let main_v4 : FVec F S2048x16384 .f32 := Host.absf main_arg1
  let main_cst_0 : FVec F S_ .f32 := constant S_ .f32 0x7F800000#32
  let main_v5 : FVec F S2048x16384 .f32 := broadcastInDim S2048x16384 ![] bcast_S_S2048x16384 main_cst_0
  let main_v6 : IVec S2048x16384 1 := cmpf .olt main_v4 main_v5
  let main_c_1 : IVec S_ 1 := constantI S_ 1 1#1
  let main_v7 : IVec S_ 1 := (fun x v => Host.reduce IntOp.andi x v reducesTo_S2048x16384_S_d0_1 h_S_) main_v6 main_c_1
  let main_v8 : IVec S_ 1 := andi main_v3 main_v7
  let main_v9 : FVec F S16384 .f32 := Host.absf main_arg2
  let main_cst_2 : FVec F S_ .f32 := constant S_ .f32 0x7F800000#32
  let main_v10 : FVec F S16384 .f32 := broadcastInDim S16384 ![] bcast_S_S16384 main_cst_2
  let main_v11 : IVec S16384 1 := cmpf .olt main_v9 main_v10
  let main_c_3 : IVec S_ 1 := constantI S_ 1 1#1
  let main_v12 : IVec S_ 1 := (fun x v => Host.reduce IntOp.andi x v reducesTo_S16384_S_d0 h_S_) main_v11 main_c_3
  let main_v13 : IVec S_ 1 := andi main_v8 main_v12
  let main_v14 : FVec F S8192x2048 .f32 := Host.absf main_arg3
  let main_cst_4 : FVec F S_ .f32 := constant S_ .f32 0x7F800000#32
  let main_v15 : FVec F S8192x2048 .f32 := broadcastInDim S8192x2048 ![] bcast_S_S8192x2048 main_cst_4
  let main_v16 : IVec S8192x2048 1 := cmpf .olt main_v14 main_v15
  fn_part1 (F := F) main_arg4 main_v13 main_v16
-- ==== Kernel.lean ====
abbrev S2x2048x2048 : Shape := ⟨3, ![2, 2048, 2048]⟩
abbrev S2048x16384 : Shape := ⟨2, ![2048, 16384]⟩
abbrev S16384 : Shape := ⟨1, ![16384]⟩
abbrev S8192x2048 : Shape := ⟨2, ![8192, 2048]⟩
abbrev S2048 : Shape := ⟨1, ![2048]⟩
abbrev S4096x2048 : Shape := ⟨2, ![4096, 2048]⟩
abbrev S1x16384 : Shape := ⟨2, ![1, 16384]⟩
abbrev S1x2048 : Shape := ⟨2, ![1, 2048]⟩
abbrev S512x2048 : Shape := ⟨2, ![512, 2048]⟩
abbrev S2048x512 : Shape := ⟨2, ![2048, 512]⟩
abbrev S1x512 : Shape := ⟨2, ![1, 512]⟩
abbrev S512x512 : Shape := ⟨2, ![512, 512]⟩

abbrev nBuf : Space → Nat
  | .hbm => 13
  | .vmem => 16
  | .smem => 0
  | _ => 0

abbrev bufTy : (tb : Table) → Fin (tcTables nBuf tb) → BufTy
  | .hbm, ⟨0, _⟩ => ⟨S2x2048x2048, .f32⟩
  | .hbm, ⟨1, _⟩ => ⟨S2048x16384, .f32⟩
  | .hbm, ⟨2, _⟩ => ⟨S16384, .f32⟩
  | .hbm, ⟨3, _⟩ => ⟨S8192x2048, .f32⟩
  | .hbm, ⟨4, _⟩ => ⟨S2048, .f32⟩
  | .hbm, ⟨5, _⟩ => ⟨S4096x2048, .f32⟩
  | .hbm, ⟨6, _⟩ => ⟨S4096x2048, .bf16⟩
  | .hbm, ⟨7, _⟩ => ⟨S2048x16384, .bf16⟩
  | .hbm, ⟨8, _⟩ => ⟨S8192x2048, .bf16⟩
  | .hbm, ⟨9, _⟩ => ⟨S1x16384, .f32⟩
  | .hbm, ⟨10, _⟩ => ⟨S1x2048, .f32⟩
  | .hbm, ⟨11, _⟩ => ⟨S4096x2048, .f32⟩
  | .hbm, ⟨12, _⟩ => ⟨S2x2048x2048, .f32⟩
  | .local _ .vmem, ⟨0, _⟩ => ⟨S512x2048, .bf16⟩
  | .local _ .vmem, ⟨1, _⟩ => ⟨S512x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S512x2048, .bf16⟩
  | .local _ .vmem, ⟨11, _⟩ => ⟨S512x2048, .bf16⟩
  | .local _ .vmem, ⟨12, _⟩ => ⟨S1x2048, .f32⟩
  | .local _ .vmem, ⟨13, _⟩ => ⟨S512x2048, .f32⟩
  | .local _ .vmem, ⟨14, _⟩ => ⟨S512x2048, .f32⟩
  | .local _ .vmem, ⟨15, _⟩ => ⟨S512x2048, .f32⟩
  | _, _ => ⟨S2x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v31 : BitVec 1 := Scalar.cmpi .eq arg1 c15_i32
  let v32 : BitVec 32 := Scalar.extui v31
  let c0_i32_18 : BitVec 32 := 0#32
  let v33 : BitVec 1 := Scalar.cmpi .ne v32 c0_i32_18
  v33

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  shapeCasts_S2x2048x2048_S4096x2048 : S2x2048x2048.ShapeCasts S4096x2048
  bitsLt_bf16_f32 : FTy.bits .bf16 < FTy.bits .f32
  shapeCasts_S16384_S1x16384 : S16384.ShapeCasts S1x16384
  shapeCasts_S2048_S1x2048 : S2048.ShapeCasts S1x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  shapeCasts_S4096x2048_S2x2048x2048 : S4096x2048.ShapeCasts S2x2048x2048
  dot_S512x2048_S2048x512_S512x512_1_0_0_1_n_n_wf : DotDims.WF S512x2048 S2048x512 S512x512 [1] [0] [0] [1] [] []
  dot_S512x512_S512x2048_S512x2048_1_0_0_1_n_n_wf : DotDims.WF S512x512 S512x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x2048.size a
  hwx0_0 : ∀ i : grid0.Coords, EltTy.bits .bf16 = 32 ∨ (Rect.block (s := S4096x2048) S512x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S2048x16384.size a
  hwx0_1 : ∀ i : grid0.Coords, EltTy.bits .bf16 = 32 ∨ (Rect.block (s := S2048x16384) S2048x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x512.size a ≤ S2048x16384.size a
  hwx0_2 : ∀ i : grid0.Coords, EltTy.bits .bf16 = 32 ∨ (Rect.block (s := S2048x16384) S2048x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x16384.size a
  hwx0_3 : ∀ i : grid0.Coords, EltTy.bits .f32 = 32 ∨ (Rect.block (s := S1x16384) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x16384.size a
  hwx0_4 : ∀ i : grid0.Coords, EltTy.bits .f32 = 32 ∨ (Rect.block (s := S1x16384) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x2048.size a ≤ S8192x2048.size a
  hwx0_5 : ∀ i : grid0.Coords, EltTy.bits .bf16 = 32 ∨ (Rect.block (s := S8192x2048) S512x2048.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x2048.size a ≤ S1x2048.size a
  hwx0_6 : ∀ i : grid0.Coords, EltTy.bits .f32 = 32 ∨ (Rect.block (s := S1x2048) S1x2048.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x2048.size a ≤ S4096x2048.size a
  hwx0_7 : ∀ i : grid0.Coords, EltTy.bits .f32 = 32 ∨ (Rect.block (s := S4096x2048) S512x2048.size (cc0_transform_7 i) (hinb0_7 i)).WholeWords (EltTy.packing .f32)

variable [Facts₀]

def dot_S512x2048_S2048x512_S512x512_1_0_0_1_n_n : DotDims S512x2048 S2048x512 S512x512 where
  lhsContracting := [1]
  rhsContracting := [0]
  lhsNonContracting := [0]
  rhsNonContracting := [1]
  lhsBatch := []
  rhsBatch := []
  wf := dot_S512x2048_S2048x512_S512x512_1_0_0_1_n_n_wf
def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf

abbrev win0_0 : Pipeline.Window sig grid0 :=
  Pipeline.Window.ofSpec (Memref.whole main_v1) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2048x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3) S512x2048.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S512x2048.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S2x2048x2048 : Shape := ⟨3, ![2, 2048, 2048]⟩
abbrev S2048x16384 : Shape := ⟨2, ![2048, 16384]⟩
abbrev S16384 : Shape := ⟨1, ![16384]⟩
abbrev S8192x2048 : Shape := ⟨2, ![8192, 2048]⟩
abbrev S2048 : Shape := ⟨1, ![2048]⟩
abbrev S2x2048x16384 : Shape := ⟨3, ![2, 2048, 16384]⟩
abbrev S1x1x16384 : Shape := ⟨3, ![1, 1, 16384]⟩
abbrev S2x2048x8192 : Shape := ⟨3, ![2, 2048, 8192]⟩
abbrev S_ : Shape := ⟨0, ![]⟩
abbrev S1x1x2048 : Shape := ⟨3, ![1, 1, 2048]⟩

abbrev nBuf : Space → Nat
  | .hbm => 25
  | .vmem => 0
  | .smem => 0
  | _ => 0

abbrev bufTy : (tb : Table) → Fin (tcTables nBuf tb) → BufTy
  | .hbm, ⟨0, _⟩ => ⟨S2x2048x2048, .f32⟩
  | .hbm, ⟨1, _⟩ => ⟨S2048x16384, .f32⟩
  | .hbm, ⟨2, _⟩ => ⟨S16384, .f32⟩
  | .hbm, ⟨3, _⟩ => ⟨S8192x2048, .f32⟩
  | .hbm, ⟨4, _⟩ => ⟨S2048, .f32⟩
  | .hbm, ⟨5, _⟩ => ⟨S2x2048x16384, .f32⟩
  | .hbm, ⟨6, _⟩ => ⟨S1x1x16384, .f32⟩
  | .hbm, ⟨7, _⟩ => ⟨S2x2048x16384, .f32⟩
  | .hbm, ⟨8, _⟩ => ⟨S2x2048x16384, .f32⟩
  | .hbm, ⟨9, _⟩ => ⟨S2x2048x8192, .f32⟩
  | .hbm, ⟨10, _⟩ => ⟨S2x2048x8192, .f32⟩
  | .hbm, ⟨11, _⟩ => ⟨S2x2048x8192, .f32⟩
  | .hbm, ⟨12, _⟩ => ⟨S2x2048x8192, .f32⟩
  | .hbm, ⟨13, _⟩ => ⟨S_, .f32⟩
  | .hbm, ⟨14, _⟩ => ⟨S2x2048x8192, .f32⟩
  | .hbm, ⟨15, _⟩ => ⟨S2x2048x8192, .f32⟩
  | .hbm, ⟨16, _⟩ => ⟨S_, .f32⟩
  | .hbm, ⟨17, _⟩ => ⟨S2x2048x8192, .f32⟩
  | .hbm, ⟨18, _⟩ => ⟨S2x2048x8192, .f32⟩
  | .hbm, ⟨19, _⟩ => ⟨S2x2048x8192, .f32⟩
  | .hbm, ⟨20, _⟩ => ⟨S2x2048x8192, .f32⟩
  | .hbm, ⟨21, _⟩ => ⟨S2x2048x2048, .f32⟩
  | .hbm, ⟨22, _⟩ => ⟨S1x1x2048, .f32⟩
  | .hbm, ⟨23, _⟩ => ⟨S2x2048x2048, .f32⟩
  | .hbm, ⟨24, _⟩ => ⟨S2x2048x2048, .f32⟩
  | _, _ => ⟨S2x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩

abbrev nD : Nat := 1
abbrev τ : Topo := Topo.v7x

variable {F : FTy → Type} [FloatOps F]

class Facts₀ : Prop where
  bcast_S16384_S1x1x16384_2 : S16384.BroadcastsInDim S1x1x16384 (![2] : Fin 1 → Fin S1x1x16384.rank)
  bcast_S1x1x16384_S2x2048x16384_0_1_2 : S1x1x16384.BroadcastsInDim S2x2048x16384 (![0, 1, 2] : Fin 3 → Fin S2x2048x16384.rank)
  slices_S2x2048x16384_S2x2048x8192_0_0_0 : S2x2048x16384.Slices ![0, 0, 0] S2x2048x8192
  slices_S2x2048x16384_S2x2048x8192_0_0_8192 : S2x2048x16384.Slices ![0, 0, 8192] S2x2048x8192
  bcast_S_S2x2048x8192 : S_.BroadcastsInDim S2x2048x8192 (![] : Fin 0 → Fin S2x2048x8192.rank)
  bcast_S2048_S1x1x2048_2 : S2048.BroadcastsInDim S1x1x2048 (![2] : Fin 1 → Fin S1x1x2048.rank)
  bcast_S1x1x2048_S2x2048x2048_0_1_2 : S1x1x2048.BroadcastsInDim S2x2048x2048 (![0, 1, 2] : Fin 3 → Fin S2x2048x2048.rank)
  dot_S2x2048x2048_S2048x16384_S2x2048x16384_2_0_01_1_n_n_wf : DotDims.WF S2x2048x2048 S2048x16384 S2x2048x16384 [2] [0] [0, 1] [1] [] []
  dot_S2x2048x8192_S8192x2048_S2x2048x2048_2_0_01_1_n_n_wf : DotDims.WF S2x2048x8192 S8192x2048 S2x2048x2048 [2] [0] [0, 1] [1] [] []

variable [Facts₀]

def dot_S2x2048x2048_S2048x16384_S2x2048x16384_2_0_01_1_n_n : DotDims S2x2048x2048 S2048x16384 S2x2048x16384 where
  lhsContracting := [2]
  rhsContracting := [0]
  lhsNonContracting := [0, 1]
  rhsNonContracting := [1]
  lhsBatch := []
  rhsBatch := []
  wf := dot_S2x2048x2048_S2048x16384_S2x2048x16384_2_0_01_1_n_n_wf
def dot_S2x2048x8192_S8192x2048_S2x2048x2048_2_0_01_1_n_n : DotDims S2x2048x8192 S8192x2048 S2x2048x2048 where
  lhsContracting := [2]
  rhsContracting := [0]
  lhsNonContracting := [0, 1]
  rhsNonContracting := [1]
  lhsBatch := []
  rhsBatch := []
  wf := dot_S2x2048x8192_S8192x2048_S2x2048x2048_2_0_01_1_n_n_wf

class Facts : Prop extends Facts₀ where

variable [Facts]
-- ==== Proof.KB.Common.lean ====
/-
  The frame of the SwiGLU kernel, its shared part, at any instance `F`.

  The pallas_call runs on the grid (m, i) ∈ 8 × 16, a point `t` being `(t / 16, t % 16)`. At each point the body
  adds one block's contribution to an accumulator it keeps in a VMEM scratch: the accumulator is zeroed at `i = 0`,
  grows at every `i`, and is written to the output block (with the bias row added) only at `i = 15`. So there are
  three kinds of point: the FIRST step of a row block (`i = 0`: the zero is stored, then the update), a MIDDLE step
  (`0 < i < 15`: the update only) and the LAST step (`i = 15`: the update, then the store of the output block). The
  output window is idle, and not written back, at every point that is not a last step.

  Here: the arrays as the region finds them (after the host casts and reshapes of @main), @main reduced to the region
  followed by the final reshape, the windows' blocks, the two conditions in closed form over the 128 points, the idle
  and write-back table of the output window, and what each input window's staging buffer holds when the body is
  called — its block, fetched at that point or not.
-/
import proofs.«164051_j29515015258325_1_alg».proof.Proof.Gen.Kernel.Launch
import proofs.«164051_j29515015258325_1_alg».proof.Proof.Gen.Kernel.Skeleton
import proofs.«164051_j29515015258325_1_alg».proof.Proof.Gen.Kernel.Points
import Idealize.ShloMosaic.Lib.Pipeline.FrameBody
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch memory after the six host lines (the reshape of
    x to 4096 × 2048, the three casts, the two bias reshapes). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

theorem hostOps1_fresh : (hostOps1 : List (HloOp τ sig (Elt F))).Forall fun op => op.fresh = ∅ := by
  simp only [List.Forall]; repeat' constructor

/-- @main is the six host lines, the region, and the reshape of the result: it reduces to the region continued by
    that reshape, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The two conditions of the body, over the grid -/

/-- `i = 0`: the step that zeroes the accumulator. -/
abbrev condFirst (i : grid0.Coords) : Prop :=
  (Scalar.cmpi .ne (Scalar.extui (Scalar.cmpi .eq (BitVec.ofNat 32 (i 1).val) 0#32)) 0#32) = 1#1
theorem condFirst_iff : ∀ t : Fin cfg0.N, condFirst (grid0.coords t) ↔ t.val % 16 = 0 :=
  (by decide +kernel : ∀ t : Fin grid0.N, condFirst (grid0.coords t) ↔ t.val % 16 = 0)

/-- `i = 15`: the step that stores the output block. -/
abbrev condLast (i : grid0.Coords) : Prop := k0_cond2 i = 1#1
theorem condLast_iff : ∀ t : Fin cfg0.N, condLast (grid0.coords t) ↔ t.val % 16 = 15 :=
  (by decide +kernel : ∀ t : Fin grid0.N, condLast (grid0.coords t) ↔ t.val % 16 = 15)

/-! ## Where the windows are idle -/

theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel
theorem live_3 : ∀ t : Fin cfg0.N, cfg0.idle 3 (grid0.coords t) = false := by decide +kernel
theorem live_4 : ∀ t : Fin cfg0.N, cfg0.idle 4 (grid0.coords t) = false := by decide +kernel
theorem live_5 : ∀ t : Fin cfg0.N, cfg0.idle 5 (grid0.coords t) = false := by decide +kernel
theorem live_6 : ∀ t : Fin cfg0.N, cfg0.idle 6 (grid0.coords t) = false := by decide +kernel
/-- Away from a last step the output window is idle (nothing is stored into it) -/
theorem idle_7 : ∀ t : Fin cfg0.N, ¬condLast (grid0.coords t) → cfg0.idle 7 (grid0.coords t) = true := by decide +kernel
/-- and its block is not written back; -/
theorem noFlush_7 : ∀ t : Fin cfg0.N, ¬condLast (grid0.coords t) → (cfg0.win 7).flush t = false := by decide +kernel
/-- at a last step it is live. -/
theorem live_7 : ∀ t : Fin cfg0.N, condLast (grid0.coords t) → cfg0.idle 7 (grid0.coords t) = false := by decide +kernel

/-! ## The memrefs the body is called with -/

abbrev ms_0 (t : Fin cfg0.N) : Memref sig .tc .vmem S512x2048 .bf16 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S2048x512 .bf16 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S2048x512 .bf16 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S1x512 .f32 := win0_3.stage (cfg0.slots t 3)
abbrev hs_3 (t : Fin cfg0.N) : (ms_3 t).IsWhole := hstage0_3 ((cfg0.slots t 3).cast nbuf0_3)
abbrev ms_4 (t : Fin cfg0.N) : Memref sig .tc .vmem S1x512 .f32 := win0_4.stage (cfg0.slots t 4)
abbrev hs_4 (t : Fin cfg0.N) : (ms_4 t).IsWhole := hstage0_4 ((cfg0.slots t 4).cast nbuf0_4)
abbrev ms_5 (t : Fin cfg0.N) : Memref sig .tc .vmem S512x2048 .bf16 := win0_5.stage (cfg0.slots t 5)
abbrev hs_5 (t : Fin cfg0.N) : (ms_5 t).IsWhole := hstage0_5 ((cfg0.slots t 5).cast nbuf0_5)
abbrev ms_6 (t : Fin cfg0.N) : Memref sig .tc .vmem S1x2048 .f32 := win0_6.stage (cfg0.slots t 6)
abbrev hs_6 (t : Fin cfg0.N) : (ms_6 t).IsWhole := hstage0_6 ((cfg0.slots t 6).cast nbuf0_6)
abbrev ms_7 (t : Fin cfg0.N) : Memref sig .tc .vmem S512x2048 .f32 := win0_7.stage (cfg0.slots t 7)
abbrev hs_7 (t : Fin cfg0.N) : (ms_7 t).IsWhole := hstage0_7 ((cfg0.slots t 7).cast nbuf0_7)
/-- The accumulator: a whole scoped buffer of the kernel's own. -/
abbrev accM : Memref sig .tc .vmem S512x2048 .f32 := Memref.whole cc0_scratch0
/-- One staging buffer of the output window and the accumulator as views, through which contents are stated. -/
abbrev outV : View sig .tc .vmem S512x2048 .f32 := (Memref.whole cc0_stg7_0 : Memref sig .tc .vmem S512x2048 .f32).view
abbrev accV : View sig .tc .vmem S512x2048 .f32 := accM.view

/-- The class invariant with the accumulator as a memref owned at some contents. -/
theorem PhiA_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

/-! ## What the body finds in each input window's buffer -/

section Before
variable {c : Dev nD} (dat : Dat τ (Elt F) Unit ℕ (UR sig nD τ) ℕ cfg0 c)

theorem before_0_of (hA : dat.A 0 = V m c (Pipeline.arrRef spec0 0)) (hafter : ∀ t, dat.after 0 t = iblk m c 0 t) (t : Fin cfg0.N) (d) :
    dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of (hA : dat.A 1 = V m c (Pipeline.arrRef spec0 1)) (hafter : ∀ t, dat.after 1 t = iblk m c 1 t) (t : Fin cfg0.N) (d) :
    dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of (hA : dat.A 2 = V m c (Pipeline.arrRef spec0 2)) (hafter : ∀ t, dat.after 2 t = iblk m c 2 t) (t : Fin cfg0.N) (d) :
    dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of (hA : dat.A 3 = V m c (Pipeline.arrRef spec0 3)) (hafter : ∀ t, dat.after 3 t = iblk m c 3 t) (t : Fin cfg0.N) (d) :
    dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of (hA : dat.A 4 = V m c (Pipeline.arrRef spec0 4)) (hafter : ∀ t, dat.after 4 t = iblk m c 4 t) (t : Fin cfg0.N) (d) :
    dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_5_of (hA : dat.A 5 = V m c (Pipeline.arrRef spec0 5)) (hafter : ∀ t, dat.after 5 t = iblk m c 5 t) (t : Fin cfg0.N) (d) :
    dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_6_of (hA : dat.A 6 = V m c (Pipeline.arrRef spec0 6)) (hafter : ∀ t, dat.after 6 t = iblk m c 6 t) (t : Fin cfg0.N) (d) :
    dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
end Before

end Cert.Kernel.Hand

end
-- ==== Proof.KB.RunFirst.lean ====
/-
  The body at a FIRST step (i = 0, not the last): on whole staging memrefs holding the seven input blocks, the output
  buffer at any contents (handed back untouched) and the accumulator at any contents, the body runs and leaves the
  inputs as they were and the accumulator with the pieces its two stores wrote — the zero, then the first block's
  contribution added to the zero read back.
-/
import proofs.«164051_j29515015258325_1_alg».proof.Proof.KB.Common

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: closing the definition walks it past the default budget)
set_option maxHeartbeats 1000000 in
/-- The pieces the accumulator ends with at a first step, with the body's triple. -/
noncomputable def runFirst (c : Dev nD) (i : grid0.Coords) (arg2 : Memref sig .tc .vmem S512x2048 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S1x512 .f32) (harg5 : arg5.IsWhole) (arg6 : Memref sig .tc .vmem S1x512 .f32) (harg6 : arg6.IsWhole) (arg7 : Memref sig .tc .vmem S512x2048 .bf16) (harg7 : arg7.IsWhole) (arg8 : Memref sig .tc .vmem S1x2048 .f32) (harg8 : arg8.IsWhole) (arg9 : Memref sig .tc .vmem S512x2048 .f32) (harg9 : arg9.IsWhole) (arg10 : Memref sig .tc .vmem S512x2048 .f32) (harg10 : arg10.IsWhole) (hc0 : condFirst i) (hc1 : ¬condLast i)
    (x0 : Vec F S512x2048 .bf16) (x1 : Vec F S2048x512 .bf16) (x2 : Vec F S2048x512 .bf16) (x3 : Vec F S1x512 .f32) (x4 : Vec F S1x512 .f32) (x5 : Vec F S512x2048 .bf16) (x6 : Vec F S1x2048 .f32) :
    { LS : List (View.Piece (Elt F) S512x2048 .f32) //
      ∀ (xo : Vec F S512x2048 .f32) (xs : Vec F S512x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xo ∗ owns (c : Thread nD τ) arg10 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xo ∗ (∃ f, arg10.view.loc (c : Thread nD τ) ↦[arg10.view.set]{fullShare} arg10.view.writes (Elt F) f LS)) -∗ K ⟨⟩))
          ⊢ wp frame (wpE (defs₀ (F := F)) Variants.none c none) E (cc0__swiglu_kernel i arg2 harg2 arg3 harg3 arg4 harg4 arg5 harg5 arg6 harg6 arg7 harg7 arg8 harg8 arg9 harg9 arg10 harg10) K } :=
  by
  refine ⟨?_, fun xo xs E K => ?run⟩
  case run =>
    -- the printed body is its sequence of loads and stores over the named payloads
    simp only [cc0__swiglu_kernel_eq_skeleton]; unfold cc0__swiglu_kernel_skel
    unfold owns
    -- the accumulator's raw contents stay arbitrary (its read fact is dropped): the zero store covers it
    -- before anything kept is read from it, so the pieces it ends with speak of neither `xs` nor `xo`
    iintro ⟨⟨%rx, %ex, Hx⟩, ⟨%rg, %eg, Hg⟩, ⟨%ru, %eu, Hu⟩, ⟨%rbg, %ebg, Hbg⟩, ⟨%rbu, %ebu, Hbu⟩, ⟨%rd, %ed, Hd⟩, ⟨%rbd, %ebd, Hbd⟩, ⟨%rout, %eout, Hout⟩, ⟨%racc, -, Hacc⟩, Hk⟩
    -- a whole memref's raw contents are fixed by what it reads: each input's is the raw form of its block
    obtain rfl := harg2.eq_unread ex; obtain rfl := harg3.eq_unread eg; obtain rfl := harg4.eq_unread eu
    obtain rfl := harg5.eq_unread ebg; obtain rfl := harg6.eq_unread ebu; obtain rfl := harg7.eq_unread ed
    obtain rfl := harg8.eq_unread ebd
    obtain rfl := harg9.eq_unread eout
    -- i = 0 takes the zeroing branch, i ≠ 15 skips the output store
    sl_exec (disch := first | exact hc0 | exact hc1)
    sl_step
    iapply Hk
    -- the seven inputs were only read: each goes back at the block it came with
    isplitl [Hx]
    · iexists _; isplitr; · ipureintro; exact harg2.read_unread _
      iexact Hx
    isplitl [Hg]
    · iexists _; isplitr; · ipureintro; exact harg3.read_unread _
      iexact Hg
    isplitl [Hu]
    · iexists _; isplitr; · ipureintro; exact harg4.read_unread _
      iexact Hu
    isplitl [Hbg]
    · iexists _; isplitr; · ipureintro; exact harg5.read_unread _
      iexact Hbg
    isplitl [Hbu]
    · iexists _; isplitr; · ipureintro; exact harg6.read_unread _
      iexact Hbu
    isplitl [Hd]
    · iexists _; isplitr; · ipureintro; exact harg7.read_unread _
      iexact Hd
    isplitl [Hbd]
    · iexists _; isplitr; · ipureintro; exact harg8.read_unread _
      iexact Hbd
    -- the output buffer was not stored into: it goes back at `xo`
    isplitl [Hout]
    · iexists _; isplitr; · ipureintro; exact harg9.read_unread _
      iexact Hout
    -- the accumulator: the zero piece, then above it the block's contribution added to the zero read back
    iexists _; iexact Hacc

end Cert.Kernel.Hand

end
-- ==== Proof.KB.RunMid.lean ====
/-
  The body at a MIDDLE step (0 < i < 15): the accumulator, handed over at what the step before left, ends with the
  one piece of the update; the output buffer is handed back untouched.
-/
import proofs.«164051_j29515015258325_1_alg».proof.Proof.KB.RunFirst

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: closing the definition walks it past the default budget)
set_option maxHeartbeats 1000000 in
/-- The pieces the accumulator ends with at a middle step, over what it held (`xs`), with the body's triple. -/
noncomputable def runMid (c : Dev nD) (i : grid0.Coords) (arg2 : Memref sig .tc .vmem S512x2048 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S1x512 .f32) (harg5 : arg5.IsWhole) (arg6 : Memref sig .tc .vmem S1x512 .f32) (harg6 : arg6.IsWhole) (arg7 : Memref sig .tc .vmem S512x2048 .bf16) (harg7 : arg7.IsWhole) (arg8 : Memref sig .tc .vmem S1x2048 .f32) (harg8 : arg8.IsWhole) (arg9 : Memref sig .tc .vmem S512x2048 .f32) (harg9 : arg9.IsWhole) (arg10 : Memref sig .tc .vmem S512x2048 .f32) (harg10 : arg10.IsWhole) (hc0 : ¬condFirst i) (hc1 : ¬condLast i)
    (x0 : Vec F S512x2048 .bf16) (x1 : Vec F S2048x512 .bf16) (x2 : Vec F S2048x512 .bf16) (x3 : Vec F S1x512 .f32) (x4 : Vec F S1x512 .f32) (x5 : Vec F S512x2048 .bf16) (x6 : Vec F S1x2048 .f32) (xs : Vec F S512x2048 .f32) :
    { LS : List (View.Piece (Elt F) S512x2048 .f32) //
      ∀ (xo : Vec F S512x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xo ∗ owns (c : Thread nD τ) arg10 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xo ∗ (∃ f, arg10.view.loc (c : Thread nD τ) ↦[arg10.view.set]{fullShare} arg10.view.writes (Elt F) f LS)) -∗ K ⟨⟩))
          ⊢ wp frame (wpE (defs₀ (F := F)) Variants.none c none) E (cc0__swiglu_kernel i arg2 harg2 arg3 harg3 arg4 harg4 arg5 harg5 arg6 harg6 arg7 harg7 arg8 harg8 arg9 harg9 arg10 harg10) K } :=
  by
  refine ⟨?_, fun xo E K => ?run⟩
  case run =>
    -- the printed body is its sequence of loads and stores over the named payloads
    simp only [cc0__swiglu_kernel_eq_skeleton]; unfold cc0__swiglu_kernel_skel
    unfold owns
    iintro ⟨⟨%rx, %ex, Hx⟩, ⟨%rg, %eg, Hg⟩, ⟨%ru, %eu, Hu⟩, ⟨%rbg, %ebg, Hbg⟩, ⟨%rbu, %ebu, Hbu⟩, ⟨%rd, %ed, Hd⟩, ⟨%rbd, %ebd, Hbd⟩, ⟨%rout, %eout, Hout⟩, ⟨%racc, %eacc, Hacc⟩, Hk⟩
    -- a whole memref's raw contents are fixed by what it reads: each input's is the raw form of its block
    obtain rfl := harg2.eq_unread ex; obtain rfl := harg3.eq_unread eg; obtain rfl := harg4.eq_unread eu
    obtain rfl := harg5.eq_unread ebg; obtain rfl := harg6.eq_unread ebu; obtain rfl := harg7.eq_unread ed
    obtain rfl := harg8.eq_unread ebd
    -- so are the output buffer's (at `xo`) and the accumulator's (at `xs`, what the step before left)
    obtain rfl := harg9.eq_unread eout; obtain rfl := harg10.eq_unread eacc
    -- 0 < i < 15: neither the zeroing branch nor the output store
    sl_exec (disch := first | exact hc0 | exact hc1)
    sl_step
    iapply Hk
    -- the seven inputs were only read: each goes back at the block it came with
    isplitl [Hx]
    · iexists _; isplitr; · ipureintro; exact harg2.read_unread _
      iexact Hx
    isplitl [Hg]
    · iexists _; isplitr; · ipureintro; exact harg3.read_unread _
      iexact Hg
    isplitl [Hu]
    · iexists _; isplitr; · ipureintro; exact harg4.read_unread _
      iexact Hu
    isplitl [Hbg]
    · iexists _; isplitr; · ipureintro; exact harg5.read_unread _
      iexact Hbg
    isplitl [Hbu]
    · iexists _; isplitr; · ipureintro; exact harg6.read_unread _
      iexact Hbu
    isplitl [Hd]
    · iexists _; isplitr; · ipureintro; exact harg7.read_unread _
      iexact Hd
    isplitl [Hbd]
    · iexists _; isplitr; · ipureintro; exact harg8.read_unread _
      iexact Hbd
    -- the output buffer was not stored into: it goes back at `xo`
    isplitl [Hout]
    · iexists _; isplitr; · ipureintro; exact harg9.read_unread _
      iexact Hout
    -- the accumulator: one piece over `xs`, the block's contribution added to `xs` read whole
    iexists _; iexact Hacc

end Cert.Kernel.Hand

end
-- ==== Proof.KB.RunLast.lean ====
/-
  The body at a LAST step (i = 15): the update of the accumulator, then the store of the output block — the
  accumulator read back plus the bias row broadcast down the rows. The output buffer is taken at any contents and ends
  with the piece of that store.
-/
import proofs.«164051_j29515015258325_1_alg».proof.Proof.KB.RunMid

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: closing the definition walks it past the default budget)
set_option maxHeartbeats 1000000 in
/-- The pieces the output buffer and the accumulator end with at a last step, with the body's triple. -/
noncomputable def runLast (c : Dev nD) (i : grid0.Coords) (arg2 : Memref sig .tc .vmem S512x2048 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S1x512 .f32) (harg5 : arg5.IsWhole) (arg6 : Memref sig .tc .vmem S1x512 .f32) (harg6 : arg6.IsWhole) (arg7 : Memref sig .tc .vmem S512x2048 .bf16) (harg7 : arg7.IsWhole) (arg8 : Memref sig .tc .vmem S1x2048 .f32) (harg8 : arg8.IsWhole) (arg9 : Memref sig .tc .vmem S512x2048 .f32) (harg9 : arg9.IsWhole) (arg10 : Memref sig .tc .vmem S512x2048 .f32) (harg10 : arg10.IsWhole) (hc0 : ¬condFirst i) (hc1 : condLast i)
    (x0 : Vec F S512x2048 .bf16) (x1 : Vec F S2048x512 .bf16) (x2 : Vec F S2048x512 .bf16) (x3 : Vec F S1x512 .f32) (x4 : Vec F S1x512 .f32) (x5 : Vec F S512x2048 .bf16) (x6 : Vec F S1x2048 .f32) (xs : Vec F S512x2048 .f32) :
    Σ' (LO : List (View.Piece (Elt F) S512x2048 .f32)), { LS : List (View.Piece (Elt F) S512x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f LO) ∗ (∃ f, arg10.view.loc (c : Thread nD τ) ↦[arg10.view.set]{fullShare} arg10.view.writes (Elt F) f LS)) -∗ K ⟨⟩))
          ⊢ wp frame (wpE (defs₀ (F := F)) Variants.none c none) E (cc0__swiglu_kernel i arg2 harg2 arg3 harg3 arg4 harg4 arg5 harg5 arg6 harg6 arg7 harg7 arg8 harg8 arg9 harg9 arg10 harg10) K } :=
  by
  refine ⟨?_, ?_, fun E K => ?run⟩
  case run =>
    -- the printed body is its sequence of loads and stores over the named payloads
    simp only [cc0__swiglu_kernel_eq_skeleton]; unfold cc0__swiglu_kernel_skel
    unfold owns
    -- the output buffer comes at some contents `d`, of which nothing is kept: its one store covers it
    iintro ⟨⟨%rx, %ex, Hx⟩, ⟨%rg, %eg, Hg⟩, ⟨%ru, %eu, Hu⟩, ⟨%rbg, %ebg, Hbg⟩, ⟨%rbu, %ebu, Hbu⟩, ⟨%rd, %ed, Hd⟩, ⟨%rbd, %ebd, Hbd⟩, ⟨%d, %rout, -, Hout⟩, ⟨%racc, %eacc, Hacc⟩, Hk⟩
    -- a whole memref's raw contents are fixed by what it reads: each input's is the raw form of its block
    obtain rfl := harg2.eq_unread ex; obtain rfl := harg3.eq_unread eg; obtain rfl := harg4.eq_unread eu
    obtain rfl := harg5.eq_unread ebg; obtain rfl := harg6.eq_unread ebu; obtain rfl := harg7.eq_unread ed
    obtain rfl := harg8.eq_unread ebd
    obtain rfl := harg10.eq_unread eacc
    -- i = 15 (so i ≠ 0): no zeroing, the update, then the output store
    sl_exec (disch := first | exact hc0 | exact hc1)
    sl_step
    iapply Hk
    -- the seven inputs were only read: each goes back at the block it came with
    isplitl [Hx]
    · iexists _; isplitr; · ipureintro; exact harg2.read_unread _
      iexact Hx
    isplitl [Hg]
    · iexists _; isplitr; · ipureintro; exact harg3.read_unread _
      iexact Hg
    isplitl [Hu]
    · iexists _; isplitr; · ipureintro; exact harg4.read_unread _
      iexact Hu
    isplitl [Hbg]
    · iexists _; isplitr; · ipureintro; exact harg5.read_unread _
      iexact Hbg
    isplitl [Hbu]
    · iexists _; isplitr; · ipureintro; exact harg6.read_unread _
      iexact Hbu
    isplitl [Hd]
    · iexists _; isplitr; · ipureintro; exact harg7.read_unread _
      iexact Hd
    isplitl [Hbd]
    · iexists _; isplitr; · ipureintro; exact harg8.read_unread _
      iexact Hbd
    -- the output buffer: one piece, the updated accumulator read back plus the bias row down the rows
    isplitl [Hout]
    · iexists _; iexact Hout
    -- the accumulator: one piece over `xs`, the block's contribution added to `xs` read whole
    iexists _; iexact Hacc

end Cert.Kernel.Hand

end
-- ==== Proof.KB.Launch.lean ====
/-
  The launch: @main's run from the body obligation, for a pallas_call that hands ONE array to TWO windows.

  The cast weight matrix (2048 × 16384) is the array of window 1 (its column blocks 0..15: the gate half) and of window
  2 (column blocks 16..31: the up half); the reshaped bias row (1 × 16384) is the array of windows 3 and 4 in the same
  way. Both pairs are inputs, only read. So the region holds each of those two arrays as two halves of the full share,
  one per window, and every other array whole; at the region's exit the halves are still there at the arrays' entry
  contents. After the region @main reshapes the result array (window 7's, held whole) into the returned tensor, which
  reads that one array and writes a buffer no window stages.
-/
import proofs.«164051_j29515015258325_1_alg».proof.Proof.KB.Common

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The share each window holds of its array: the two windows on the weight matrix hold its two halves, the two on the
    bias row likewise, every other window its array whole. -/
def shareOf : Fin 8 → PosShare TreeShare
  | ⟨0, _⟩ => fullShare
  | ⟨1, _⟩ => fullShare.left
  | ⟨2, _⟩ => fullShare.right
  | ⟨3, _⟩ => fullShare.left
  | ⟨4, _⟩ => fullShare.right
  | ⟨5, _⟩ => fullShare
  | ⟨6, _⟩ => fullShare
  | ⟨7, _⟩ => fullShare

/-- The buffers that bypass the region, once it is left and the result array `R` has been reshaped into the returned
    tensor: that tensor at the reshape of `R`, every other one at its region-entry contents. -/
def restAfter (c : Dev nD) (R : Buf (Elt F) ((c.tc : Thread nD τ).loc main_v6)) : sProp 𝕄 :=
  iprop((((c.tc : Thread nD τ).loc main_arg0) ↦{fullShare} V m c main_arg0) ∗ (((c.tc : Thread nD τ).loc main_arg1) ↦{fullShare} V m c main_arg1)
    ∗ (((c.tc : Thread nD τ).loc main_arg2) ↦{fullShare} V m c main_arg2) ∗ (((c.tc : Thread nD τ).loc main_arg3) ↦{fullShare} V m c main_arg3)
    ∗ (((c.tc : Thread nD τ).loc main_arg4) ↦{fullShare} V m c main_arg4) ∗ (((c.tc : Thread nD τ).loc main_v0) ↦{fullShare} V m c main_v0)
    ∗ (((c.tc : Thread nD τ).loc main_v7) ↦{fullShare} (shapeCast S2x2048x2048 R shapeCasts_S4096x2048_S2x2048x2048 : Buf (Elt F) ((c.tc : Thread nD τ).loc main_v7))))

/-! ## The arguments are written by no host line -/

theorem V_main_arg0 (c : Dev nD) : V m c main_arg0 = m ((c.tc : Thread nD τ).loc main_arg0) := rfl
theorem V_main_arg1 (c : Dev nD) : V m c main_arg1 = m ((c.tc : Thread nD τ).loc main_arg1) := rfl
theorem V_main_arg2 (c : Dev nD) : V m c main_arg2 = m ((c.tc : Thread nD τ).loc main_arg2) := rfl
theorem V_main_arg3 (c : Dev nD) : V m c main_arg3 = m ((c.tc : Thread nD τ).loc main_arg3) := rfl
theorem V_main_arg4 (c : Dev nD) : V m c main_arg4 = m ((c.tc : Thread nD τ).loc main_arg4) := rfl

/-! ## The arrays as the region is entered -/

section Entry
variable (c : Dev nD) (dat : Dat τ (Elt F) Unit ℕ (UR sig nD τ) ℕ cfg0 c)

/-- Every window holds its array at `shareOf`: an input at the share the proof data name, the output whole. -/
theorem share_eq (hq : ∀ w, dat.q w = shareOf w) : ∀ w : Fin 8, dat.share w = shareOf w
  | 0 => (if_neg (by decide)).trans (hq 0)
  | 1 => (if_neg (by decide)).trans (hq 1)
  | 2 => (if_neg (by decide)).trans (hq 2)
  | 3 => (if_neg (by decide)).trans (hq 3)
  | 4 => (if_neg (by decide)).trans (hq 4)
  | 5 => (if_neg (by decide)).trans (hq 5)
  | 6 => (if_neg (by decide)).trans (hq 6)
  | 7 => if_pos (by decide)
  | ⟨_ + 8, h⟩ => absurd h (Nat.not_lt.2 (Nat.le_add_left _ _))

/-- The six distinct buffers behind the eight windows' arrays, one by one. -/
theorem arrBufs_eq (Vv : (b : Ref sig .tc) → Buf (Elt F) ((c.tc : Thread nD τ).loc b)) :
    (Pipeline.arrBufs spec0 c Vv : sProp 𝕄)
      = iprop((((c.tc : Thread nD τ).loc main_v1) ↦{fullShare} Vv main_v1) ∗ (((c.tc : Thread nD τ).loc main_v2) ↦{fullShare} Vv main_v2)
          ∗ (((c.tc : Thread nD τ).loc main_v4) ↦{fullShare} Vv main_v4) ∗ (((c.tc : Thread nD τ).loc main_v3) ↦{fullShare} Vv main_v3)
          ∗ (((c.tc : Thread nD τ).loc main_v5) ↦{fullShare} Vv main_v5) ∗ (((c.tc : Thread nD τ).loc main_v6) ↦{fullShare} Vv main_v6)) := by
  unfold Pipeline.arrBufs
  exact bigSep_eq_bigSepL_of_eq [main_v1, main_v2, main_v4, main_v3, main_v5, main_v6] (by decide) (by decide) _

/-- The six buffers behind the eight windows, each whole at its entry contents, are the windows' arrays at entry: the
    weight matrix and the bias row are each halved between their two windows. -/
theorem arrays_entry (hq : ∀ w, dat.q w = shareOf w) (hA : ∀ w, dat.A w = V m c (Pipeline.arrRef spec0 w)) :
    (Pipeline.arrBufs spec0 c (V m c) : sProp 𝕄) ⊢ dat.arrays (dat.arrAt · 0) := by
  have hΦ : dat.arrays (dat.arrAt · 0) = bigSep Finset.univ fun w : Fin 8 =>
      (((c.tc : Thread nD τ).loc (Pipeline.arrRef spec0 w)) ↦{shareOf w} V m c (Pipeline.arrRef spec0 w) : sProp 𝕄) := by
    unfold Dat.arrays
    refine bigSep_congr fun w _ => ?_
    show (_ ↦[_]{_} dat.A w) = _
    rw [(arr_whole0 w).set_eq_univ, share_eq c dat hq w, hA w]
  rw [hΦ, bigSep_W0, arrBufs_eq]
  iintro ⟨H1, H2, H4, H3, H5, H6⟩
  ihave H2 := (pointsTo_share (PosShare.mem_left_op_right fullShare)).1 $$ H2
  icases H2 with ⟨H2l, H2r⟩
  ihave H4 := (pointsTo_share (PosShare.mem_left_op_right fullShare)).1 $$ H4
  icases H4 with ⟨H4l, H4r⟩
  isplitl [H1]; · iexact H1
  isplitl [H2l]; · iexact H2l
  isplitl [H2r]; · iexact H2r
  isplitl [H4l]; · iexact H4l
  isplitl [H4r]; · iexact H4r
  isplitl [H3]; · iexact H3
  isplitl [H5]; · iexact H5
  iexact H6

end Entry

/-! ## The reshape of the result array after the region -/

/-- After the final reshape the returned tensor holds the result array's elements at its own shape, -/
theorem after_reshape_v7 (W : Valuation τ sig (Elt F)) :
    StableHlo.after (hostOps1 (F := F)) W (Proc.devRef .tc main_v7)
      = (shapeCast S2x2048x2048 (W (Proc.devRef .tc main_v6)) shapeCasts_S4096x2048_S2x2048x2048 : (Proc.devRef (τ := τ) .tc main_v7).ty.Contents (Elt F)) := by
  dsimp only [hostOps1]; after_results; rfl

/-- and the result array what it held. -/
theorem after_reshape_v6 (W : Valuation τ sig (Elt F)) :
    StableHlo.after (hostOps1 (F := F)) W (Proc.devRef .tc main_v6) = W (Proc.devRef .tc main_v6) := by
  dsimp only [hostOps1]; after_results

/-- The result array and the returned tensor, held whole at a valuation, one by one. -/
theorem held_v6_v7 (c : Dev nD) (W : Valuation τ sig (Elt F)) :
    (StableHlo.held (c.tc : Thread nD τ) {Proc.devRef .tc main_v6, Proc.devRef .tc main_v7} W : sProp 𝕄)
      = iprop((((c.tc : Thread nD τ).loc main_v6) ↦{fullShare} W (Proc.devRef .tc main_v6)) ∗ (((c.tc : Thread nD τ).loc main_v7) ↦{fullShare} W (Proc.devRef .tc main_v7))) := by
  unfold StableHlo.held
  rw [bigSep_insert (by rw [Finset.mem_singleton]; exact StableHlo.devRef_ne_of_ne (by decide)), bigSep_singleton]
  rfl

section Exit
variable (c : Dev nD) (dat : Dat τ (Elt F) Unit ℕ (UR sig nD τ) ℕ cfg0 c)

/-- The output window's array, held as the proof data hold it, is the result buffer whole at the full share. -/
theorem arr7_eq (R : Buf (Elt F) ((cfg0.win 7).arr.view.loc (c.tc : Thread nD τ))) :
    ((cfg0.win 7).arr.view.loc (c.tc : Thread nD τ) ↦[(cfg0.win 7).arr.view.set]{dat.share 7} R : sProp 𝕄)
      = (((c.tc : Thread nD τ).loc main_v6) ↦{fullShare} R) := by
  rw [(arr_whole0 7).set_eq_univ, show dat.share 7 = fullShare from if_pos (by decide)]

set_option backward.isDefEq.respectTransparency.types false in
/-- THE LINE AFTER THE REGION: from the region's exit — the windows' arrays as the proof data leave them, the bypassing
    buffers at their entry contents — the reshape of the result array runs, reading that array (held whole: the output
    window's) and writing the returned tensor (a bypassing buffer), and hands back the arrays untouched and the bypassing
    buffers with the returned tensor at the reshape. -/
theorem tail_reshape (Q' : PUnit → sProp 𝕄) :
    iprop((iprop(dat.arrays (dat.arrAt · cfg0.N) ∗ restAfter m c (dat.arrAt 7 cfg0.N)) -∗ Q' ⟨⟩)
        ∗ boundary (c.tc : Thread nD τ) ∗ dat.arrays (dat.arrAt · cfg0.N)
        ∗ Pipeline.unscopedRestP (Ix := Unit) (Name := ℕ) (U := UR sig nD τ) (Lvl := ℕ) Pipeline.Prefetch.none spec0 c (V m c))
      ⊢ wp frame (wpE (Pipeline.defs (fun p => (cfgs p).toPCfg (Val := Elt F)) defs₀) (Variants.lift Variants.none) (c.tc : Thread nD τ) none) Set.univ
          (Pipeline.chain [StableHlo.seq hostOps1]) Q' := by
  classical
  -- the contents at the region's exit: the result array at what the proof data compute, every other buffer as at entry
  let W : Valuation τ sig (Elt F) := Function.update (V0 m c) (Proc.devRef .tc main_v6) (dat.arrAt 7 cfg0.N)
  have hW6 : W (Proc.devRef .tc main_v6) = dat.arrAt 7 cfg0.N := Function.update_self ..
  have hW7 : W (Proc.devRef .tc main_v7) = V m c main_v7 :=
    Function.update_of_ne (StableHlo.devRef_ne_of_ne (by decide)) ..
  unfold Dat.arrays restAfter
  rw [bigSep_W0, Pipeline.unscopedRestP_none, unscopedRest0_eq, arr7_eq, Pipeline.chain_cons]
  iintro ⟨Hk, Hb, ⟨A0, A1, A2, A3, A4, A5, A6, A7⟩, ⟨R0, R1, R2, R3, R4, Rv0, R7⟩⟩
  iapply (StableHlo.wp_seq (Variants.lift Variants.none) none Set.univ c {Proc.devRef .tc main_v6, Proc.devRef .tc main_v7} _ hostOps1
    (fun op hop => by rw [List.mem_singleton.mp hop]; exact subset_refl _) (fun op hop => by rw [List.mem_singleton.mp hop]; rfl) W) $$ [Hb A7 R7]
  · rw [held_v6_v7, hW6, hW7]
    isplitl [Hb]; · iexact Hb
    isplitl [A7]; · iexact A7
    iexact R7
  rw [held_v6_v7, after_reshape_v6, after_reshape_v7, hW6, Pipeline.chain_nil, wp_pure]
  iintro ⟨-, A7, R7⟩
  imodintro
  iapply Hk
  isplitl [A0 A1 A2 A3 A4 A5 A6 A7]
  · isplitl [A0]; · iexact A0
    isplitl [A1]; · iexact A1
    isplitl [A2]; · iexact A2
    isplitl [A3]; · iexact A3
    isplitl [A4]; · iexact A4
    isplitl [A5]; · iexact A5
    isplitl [A6]; · iexact A6
    iexact A7
  · isplitl [R0]; · iexact R0
    isplitl [R1]; · iexact R1
    isplitl [R2]; · iexact R2
    isplitl [R3]; · iexact R3
    isplitl [R4]; · iexact R4
    isplitl [Rv0]; · iexact Rv0
    iexact R7

end Exit

set_option backward.isDefEq.respectTransparency.types false in
/-- THE RUN, for any proof data of the one pipeline whose arrays are the region-entry contents, whose input shares are
    `shareOf`, which owe nothing, whose invariant is entered from the class invariant and returns to it, and which meet
    the body obligation: every weakly fair execution of @main terminates, with every window's array at what the proof
    data compute, the returned tensor the reshape of the result array, and the five arguments at their launch
    contents. -/
theorem run_shared (dats : (p : Fin 1) → (c : Dev nD) → Dat τ (Elt F) Unit ℕ (UR sig nD τ) ℕ (cfgs p) c)
    (hq : ∀ c w, (dats 0 c).q w = shareOf w)
    (hA : ∀ c w, (dats 0 c).A w = V m c (Pipeline.arrRef spec0 w))
    (howed : ∀ c t, (dats 0 c).owed t = 0)
    (hbody : ∀ c, Pipeline.BodyObligationLoose (dats 0 c) (defs₀ (F := F)) Variants.none () Set.univ)
    (hin : ∀ c, Pipeline.ΦA spec0 c ⊢ (dats 0 c).Φ 0)
    (hout : ∀ c, (dats 0 c).Φ (Fin.last cfg0.N) ⊢ Pipeline.ΦA spec0 c) :
    θ_run (defs (F := F)) (onTc (τ := τ) (main (F := F))) ⟨m, fun _ => 0, ρ⟩ (fun r => ∀ c : Dev nD,
      (∀ w : Fin 8, r.2.mem ((spec0 w).arr.view.loc (c.tc : Thread nD τ)) = (dats 0 c).arrAt w cfg0.N)
      ∧ r.2.mem ((c.tc : Thread nD τ).loc main_v7) = shapeCast S2x2048x2048 ((dats 0 c).arrAt 7 cfg0.N) shapeCasts_S4096x2048_S2x2048x2048
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  classical
  exact Pipeline.θ_run_region_pf_tail (fun p => (cfgs p).toPCfg) (fun p => (cfgs p).toPCfg_adm) dats () cellOf_inj 0 winFacts₀0
    (Pipeline.OwnSemFacts.none spec0) (Pipeline.PreFacts.none _) emb₁ defs₀ Variants.none m ρ main
    (fun _ => Pipeline.chain [StableHlo.seq hostOps1]) hbody block_pos0 arr_whole0 stage_whole0 howed
    (G := fun _ => iprop(emp)) (u₀ := initOf (Pipeline.cells cfgs cellOf_inj) (Pipeline.launchToks cfgs cellOf_inj))
    (hu₀ := (by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro))
    (V := V m) (hmain := hmain m Variants.none)
    (hsplit := (fun c => arrays_entry m c (dats 0 c) (hq c) (hA c)))
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => restAfter m c ((dats 0 c).arrAt 7 cfg0.N))
    (hX := (fun c => by
      iintro ⟨HU, -, -, -, Hp, -⟩; imodintro
      isplitl [Hp]; · iexists _; iexact Hp
      iexact HU))
    (hin := (fun c => (show _ ⊢ Pipeline.ΦA spec0 c by
      unfold Pipeline.ΦA; iintro ⟨Hp, -, Hr⟩
      isplitl [Hr] <;> iassumption).trans (hin c)))
    (hout := (fun c => (hout c).trans (by
      rw [Pipeline.ownSems0_none]; unfold Pipeline.ΦA
      iintro ⟨Hr, Hp⟩
      isplitl [Hp]; · iexact Hp
      isplitr; · iempintro
      iexact Hr)))
    (htail := (fun c Q' => tail_reshape m c (dats 0 c) Q'))
    (QY := fun c s => s.mem ((c.tc : Thread nD τ).loc main_v7) = shapeCast S2x2048x2048 ((dats 0 c).arrAt 7 cfg0.N) shapeCasts_S4096x2048_S2x2048x2048
      ∧ s.mem ((c.tc : Thread nD τ).loc main_arg0) = V m c main_arg0
      ∧ s.mem ((c.tc : Thread nD τ).loc main_arg1) = V m c main_arg1
      ∧ s.mem ((c.tc : Thread nD τ).loc main_arg2) = V m c main_arg2
      ∧ s.mem ((c.tc : Thread nD τ).loc main_arg3) = V m c main_arg3
      ∧ s.mem ((c.tc : Thread nD τ).loc main_arg4) = V m c main_arg4)
    (hY := (fun c s' => by
      unfold restAfter
      iintro ⟨-, ⟨H0, H1, H2, H3, H4, Hv0, H7⟩, HSI⟩
      icombine HSI H0 gives %h0
      icombine HSI H1 gives %h1
      icombine HSI H2 gives %h2
      icombine HSI H3 gives %h3
      icombine HSI H4 gives %h4
      icombine HSI H7 gives %h7
      imodintro
      isplitr
      · ipureintro
        exact ⟨Buf.eq_of_forall_mem_univ h7, Buf.eq_of_forall_mem_univ h0, Buf.eq_of_forall_mem_univ h1, Buf.eq_of_forall_mem_univ h2,
          Buf.eq_of_forall_mem_univ h3, Buf.eq_of_forall_mem_univ h4⟩
      · iexact HSI))
    (hQ := (fun s h c => ⟨(h c).1, (h c).2.2.1, (h c).2.2.2.1.trans (V_main_arg0 m c), (h c).2.2.2.2.1.trans (V_main_arg1 m c),
      (h c).2.2.2.2.2.1.trans (V_main_arg2 m c), (h c).2.2.2.2.2.2.1.trans (V_main_arg3 m c), (h c).2.2.2.2.2.2.2.trans (V_main_arg4 m c)⟩))

end Cert.Kernel.Hand

end
-- ==== Proof.KB.Data.lean ====
/-
  The proof data of the pipeline and its body obligation.

  What the accumulator holds after point `n` (`accAt`) is defined by recursion on the point: a first step (n % 16 = 0)
  starts it afresh from the point's blocks; a middle or last step updates what the point before left. The output buffer
  matters only after a last step (n % 16 = 15), where it holds the accumulator plus the bias row (`outAt`). The region
  invariant before point `n > 0` is the accumulator at `accAt (n - 1)`; before point 0 it is the class invariant (the
  accumulator at anything). Each input window's buffer holds its block; window 7 is idle away from last steps.
-/
import proofs.«164051_j29515015258325_1_alg».proof.Proof.KB.RunLast
import proofs.«164051_j29515015258325_1_alg».proof.Proof.KB.Launch
import Idealize.ShloMosaic.Lib.Ring

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each kind of step leaves: the found pieces read back -/

/-- A first step's accumulator: its pieces read back (the zero store covers the buffer, so the junk beneath is never seen). -/
def accFirst (c : Dev nD) (i : grid0.Coords) (arg2 : Memref sig .tc .vmem S512x2048 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S1x512 .f32) (harg5 : arg5.IsWhole) (arg6 : Memref sig .tc .vmem S1x512 .f32) (harg6 : arg6.IsWhole) (arg7 : Memref sig .tc .vmem S512x2048 .bf16) (harg7 : arg7.IsWhole) (arg8 : Memref sig .tc .vmem S1x2048 .f32) (harg8 : arg8.IsWhole) (arg9 : Memref sig .tc .vmem S512x2048 .f32) (harg9 : arg9.IsWhole) (arg10 : Memref sig .tc .vmem S512x2048 .f32) (harg10 : arg10.IsWhole) (hc0 : condFirst i) (hc1 : ¬condLast i) (x0 : Vec F S512x2048 .bf16) (x1 : Vec F S2048x512 .bf16) (x2 : Vec F S2048x512 .bf16) (x3 : Vec F S1x512 .f32) (x4 : Vec F S1x512 .f32) (x5 : Vec F S512x2048 .bf16) (x6 : Vec F S1x2048 .f32) : Vec F S512x2048 .f32 :=
  accV.read (Elt F) (accV.writes (Elt F) accV.junk (runFirst c i arg2 harg2 arg3 harg3 arg4 harg4 arg5 harg5 arg6 harg6 arg7 harg7 arg8 harg8 arg9 harg9 arg10 harg10 hc0 hc1 x0 x1 x2 x3 x4 x5 x6).1)
theorem accFirst_cover (c : Dev nD) (i : grid0.Coords) (arg2 : Memref sig .tc .vmem S512x2048 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S1x512 .f32) (harg5 : arg5.IsWhole) (arg6 : Memref sig .tc .vmem S1x512 .f32) (harg6 : arg6.IsWhole) (arg7 : Memref sig .tc .vmem S512x2048 .bf16) (harg7 : arg7.IsWhole) (arg8 : Memref sig .tc .vmem S1x2048 .f32) (harg8 : arg8.IsWhole) (arg9 : Memref sig .tc .vmem S512x2048 .f32) (harg9 : arg9.IsWhole) (arg10 : Memref sig .tc .vmem S512x2048 .f32) (harg10 : arg10.IsWhole) (hc0 : condFirst i) (hc1 : ¬condLast i) (x0 : Vec F S512x2048 .bf16) (x1 : Vec F S2048x512 .bf16) (x2 : Vec F S2048x512 .bf16) (x3 : Vec F S1x512 .f32) (x4 : Vec F S1x512 .f32) (x5 : Vec F S512x2048 .bf16) (x6 : Vec F S1x2048 .f32) (y : S512x2048.Idx) :
    ∃ pc ∈ (runFirst c i arg2 harg2 arg3 harg3 arg4 harg4 arg5 harg5 arg6 harg6 arg7 harg7 arg8 harg8 arg9 harg9 arg10 harg10 hc0 hc1 x0 x1 x2 x3 x4 x5 x6).1, y ∈ pc.1.set :=
  View.cover_of_tiledL (runFirst c i arg2 harg2 arg3 harg3 arg4 harg4 arg5 harg5 arg6 harg6 arg7 harg7 arg8 harg8 arg9 harg9 arg10 harg10 hc0 hc1 x0 x1 x2 x3 x4 x5 x6).1 S512x2048.size (by sl_kernel_rfl) y

/-- A middle step's accumulator, over what it held. -/
def accMid (c : Dev nD) (i : grid0.Coords) (arg2 : Memref sig .tc .vmem S512x2048 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S1x512 .f32) (harg5 : arg5.IsWhole) (arg6 : Memref sig .tc .vmem S1x512 .f32) (harg6 : arg6.IsWhole) (arg7 : Memref sig .tc .vmem S512x2048 .bf16) (harg7 : arg7.IsWhole) (arg8 : Memref sig .tc .vmem S1x2048 .f32) (harg8 : arg8.IsWhole) (arg9 : Memref sig .tc .vmem S512x2048 .f32) (harg9 : arg9.IsWhole) (arg10 : Memref sig .tc .vmem S512x2048 .f32) (harg10 : arg10.IsWhole) (hc0 : ¬condFirst i) (hc1 : ¬condLast i) (x0 : Vec F S512x2048 .bf16) (x1 : Vec F S2048x512 .bf16) (x2 : Vec F S2048x512 .bf16) (x3 : Vec F S1x512 .f32) (x4 : Vec F S1x512 .f32) (x5 : Vec F S512x2048 .bf16) (x6 : Vec F S1x2048 .f32) (xs : Vec F S512x2048 .f32) : Vec F S512x2048 .f32 :=
  accV.read (Elt F) (accV.writes (Elt F) accV.junk (runMid c i arg2 harg2 arg3 harg3 arg4 harg4 arg5 harg5 arg6 harg6 arg7 harg7 arg8 harg8 arg9 harg9 arg10 harg10 hc0 hc1 x0 x1 x2 x3 x4 x5 x6 xs).1)
theorem accMid_cover (c : Dev nD) (i : grid0.Coords) (arg2 : Memref sig .tc .vmem S512x2048 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S1x512 .f32) (harg5 : arg5.IsWhole) (arg6 : Memref sig .tc .vmem S1x512 .f32) (harg6 : arg6.IsWhole) (arg7 : Memref sig .tc .vmem S512x2048 .bf16) (harg7 : arg7.IsWhole) (arg8 : Memref sig .tc .vmem S1x2048 .f32) (harg8 : arg8.IsWhole) (arg9 : Memref sig .tc .vmem S512x2048 .f32) (harg9 : arg9.IsWhole) (arg10 : Memref sig .tc .vmem S512x2048 .f32) (harg10 : arg10.IsWhole) (hc0 : ¬condFirst i) (hc1 : ¬condLast i) (x0 : Vec F S512x2048 .bf16) (x1 : Vec F S2048x512 .bf16) (x2 : Vec F S2048x512 .bf16) (x3 : Vec F S1x512 .f32) (x4 : Vec F S1x512 .f32) (x5 : Vec F S512x2048 .bf16) (x6 : Vec F S1x2048 .f32) (xs : Vec F S512x2048 .f32) (y : S512x2048.Idx) :
    ∃ pc ∈ (runMid c i arg2 harg2 arg3 harg3 arg4 harg4 arg5 harg5 arg6 harg6 arg7 harg7 arg8 harg8 arg9 harg9 arg10 harg10 hc0 hc1 x0 x1 x2 x3 x4 x5 x6 xs).1, y ∈ pc.1.set :=
  View.cover_of_tiledL (runMid c i arg2 harg2 arg3 harg3 arg4 harg4 arg5 harg5 arg6 harg6 arg7 harg7 arg8 harg8 arg9 harg9 arg10 harg10 hc0 hc1 x0 x1 x2 x3 x4 x5 x6 xs).1 S512x2048.size (by sl_kernel_rfl) y

/-- A last step's accumulator and output buffer, over what the accumulator held. -/
def accLast (c : Dev nD) (i : grid0.Coords) (arg2 : Memref sig .tc .vmem S512x2048 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S1x512 .f32) (harg5 : arg5.IsWhole) (arg6 : Memref sig .tc .vmem S1x512 .f32) (harg6 : arg6.IsWhole) (arg7 : Memref sig .tc .vmem S512x2048 .bf16) (harg7 : arg7.IsWhole) (arg8 : Memref sig .tc .vmem S1x2048 .f32) (harg8 : arg8.IsWhole) (arg9 : Memref sig .tc .vmem S512x2048 .f32) (harg9 : arg9.IsWhole) (arg10 : Memref sig .tc .vmem S512x2048 .f32) (harg10 : arg10.IsWhole) (hc0 : ¬condFirst i) (hc1 : condLast i) (x0 : Vec F S512x2048 .bf16) (x1 : Vec F S2048x512 .bf16) (x2 : Vec F S2048x512 .bf16) (x3 : Vec F S1x512 .f32) (x4 : Vec F S1x512 .f32) (x5 : Vec F S512x2048 .bf16) (x6 : Vec F S1x2048 .f32) (xs : Vec F S512x2048 .f32) : Vec F S512x2048 .f32 :=
  accV.read (Elt F) (accV.writes (Elt F) accV.junk (runLast c i arg2 harg2 arg3 harg3 arg4 harg4 arg5 harg5 arg6 harg6 arg7 harg7 arg8 harg8 arg9 harg9 arg10 harg10 hc0 hc1 x0 x1 x2 x3 x4 x5 x6 xs).2.1)
theorem accLast_cover (c : Dev nD) (i : grid0.Coords) (arg2 : Memref sig .tc .vmem S512x2048 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S1x512 .f32) (harg5 : arg5.IsWhole) (arg6 : Memref sig .tc .vmem S1x512 .f32) (harg6 : arg6.IsWhole) (arg7 : Memref sig .tc .vmem S512x2048 .bf16) (harg7 : arg7.IsWhole) (arg8 : Memref sig .tc .vmem S1x2048 .f32) (harg8 : arg8.IsWhole) (arg9 : Memref sig .tc .vmem S512x2048 .f32) (harg9 : arg9.IsWhole) (arg10 : Memref sig .tc .vmem S512x2048 .f32) (harg10 : arg10.IsWhole) (hc0 : ¬condFirst i) (hc1 : condLast i) (x0 : Vec F S512x2048 .bf16) (x1 : Vec F S2048x512 .bf16) (x2 : Vec F S2048x512 .bf16) (x3 : Vec F S1x512 .f32) (x4 : Vec F S1x512 .f32) (x5 : Vec F S512x2048 .bf16) (x6 : Vec F S1x2048 .f32) (xs : Vec F S512x2048 .f32) (y : S512x2048.Idx) :
    ∃ pc ∈ (runLast c i arg2 harg2 arg3 harg3 arg4 harg4 arg5 harg5 arg6 harg6 arg7 harg7 arg8 harg8 arg9 harg9 arg10 harg10 hc0 hc1 x0 x1 x2 x3 x4 x5 x6 xs).2.1, y ∈ pc.1.set :=
  View.cover_of_tiledL (runLast c i arg2 harg2 arg3 harg3 arg4 harg4 arg5 harg5 arg6 harg6 arg7 harg7 arg8 harg8 arg9 harg9 arg10 harg10 hc0 hc1 x0 x1 x2 x3 x4 x5 x6 xs).2.1 S512x2048.size (by sl_kernel_rfl) y
def outLast (c : Dev nD) (i : grid0.Coords) (arg2 : Memref sig .tc .vmem S512x2048 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S1x512 .f32) (harg5 : arg5.IsWhole) (arg6 : Memref sig .tc .vmem S1x512 .f32) (harg6 : arg6.IsWhole) (arg7 : Memref sig .tc .vmem S512x2048 .bf16) (harg7 : arg7.IsWhole) (arg8 : Memref sig .tc .vmem S1x2048 .f32) (harg8 : arg8.IsWhole) (arg9 : Memref sig .tc .vmem S512x2048 .f32) (harg9 : arg9.IsWhole) (arg10 : Memref sig .tc .vmem S512x2048 .f32) (harg10 : arg10.IsWhole) (hc0 : ¬condFirst i) (hc1 : condLast i) (x0 : Vec F S512x2048 .bf16) (x1 : Vec F S2048x512 .bf16) (x2 : Vec F S2048x512 .bf16) (x3 : Vec F S1x512 .f32) (x4 : Vec F S1x512 .f32) (x5 : Vec F S512x2048 .bf16) (x6 : Vec F S1x2048 .f32) (xs : Vec F S512x2048 .f32) : Vec F S512x2048 .f32 :=
  outV.read (Elt F) (outV.writes (Elt F) outV.junk (runLast c i arg2 harg2 arg3 harg3 arg4 harg4 arg5 harg5 arg6 harg6 arg7 harg7 arg8 harg8 arg9 harg9 arg10 harg10 hc0 hc1 x0 x1 x2 x3 x4 x5 x6 xs).1)
theorem outLast_cover (c : Dev nD) (i : grid0.Coords) (arg2 : Memref sig .tc .vmem S512x2048 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S1x512 .f32) (harg5 : arg5.IsWhole) (arg6 : Memref sig .tc .vmem S1x512 .f32) (harg6 : arg6.IsWhole) (arg7 : Memref sig .tc .vmem S512x2048 .bf16) (harg7 : arg7.IsWhole) (arg8 : Memref sig .tc .vmem S1x2048 .f32) (harg8 : arg8.IsWhole) (arg9 : Memref sig .tc .vmem S512x2048 .f32) (harg9 : arg9.IsWhole) (arg10 : Memref sig .tc .vmem S512x2048 .f32) (harg10 : arg10.IsWhole) (hc0 : ¬condFirst i) (hc1 : condLast i) (x0 : Vec F S512x2048 .bf16) (x1 : Vec F S2048x512 .bf16) (x2 : Vec F S2048x512 .bf16) (x3 : Vec F S1x512 .f32) (x4 : Vec F S1x512 .f32) (x5 : Vec F S512x2048 .bf16) (x6 : Vec F S1x2048 .f32) (xs : Vec F S512x2048 .f32) (y : S512x2048.Idx) :
    ∃ pc ∈ (runLast c i arg2 harg2 arg3 harg3 arg4 harg4 arg5 harg5 arg6 harg6 arg7 harg7 arg8 harg8 arg9 harg9 arg10 harg10 hc0 hc1 x0 x1 x2 x3 x4 x5 x6 xs).1, y ∈ pc.1.set :=
  View.cover_of_tiledL (runLast c i arg2 harg2 arg3 harg3 arg4 harg4 arg5 harg5 arg6 harg6 arg7 harg7 arg8 harg8 arg9 harg9 arg10 harg10 hc0 hc1 x0 x1 x2 x3 x4 x5 x6 xs).1 S512x2048.size (by sl_kernel_rfl) y

/-! ## The accumulator and the output buffer, point by point -/

/-- The accumulator after point `n`. -/
def accAt (c : Dev nD) : (n : ℕ) → n < cfg0.N → Vec F S512x2048 .f32
  | 0, hn => accFirst c (grid0.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) (ms_4 ⟨0, hn⟩) (hs_4 ⟨0, hn⟩) (ms_5 ⟨0, hn⟩) (hs_5 ⟨0, hn⟩) (ms_6 ⟨0, hn⟩) (hs_6 ⟨0, hn⟩) (ms_7 ⟨0, hn⟩) (hs_7 ⟨0, hn⟩) accM (Memref.isWhole_whole _) ((condFirst_iff ⟨0, hn⟩).mpr (Nat.zero_mod _)) (fun h => by have h' := (condLast_iff ⟨0, hn⟩).mp h; dsimp only at h'; omega) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩)
  | n + 1, hn =>
    if h0 : (n + 1) % 16 = 0 then
      accFirst c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) accM (Memref.isWhole_whole _) ((condFirst_iff ⟨n + 1, hn⟩).mpr h0) (fun h => by have h' := (condLast_iff ⟨n + 1, hn⟩).mp h; dsimp only at h'; omega) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩)
    else if h1 : (n + 1) % 16 = 15 then
      accLast c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) accM (Memref.isWhole_whole _) (fun h => h0 ((condFirst_iff ⟨n + 1, hn⟩).mp h)) ((condLast_iff ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (accAt c n (Nat.lt_of_succ_lt hn))
    else
      accMid c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) accM (Memref.isWhole_whole _) (fun h => h0 ((condFirst_iff ⟨n + 1, hn⟩).mp h)) (fun h => h1 ((condLast_iff ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (accAt c n (Nat.lt_of_succ_lt hn))

/-- The accumulator the point before `t` left (for `t` not the first point). -/
abbrev accPrev (c : Dev nD) (t : Fin cfg0.N) : Vec F S512x2048 .f32 :=
  accAt m c (t.val - 1) (Nat.lt_of_le_of_lt (Nat.sub_le _ _) t.isLt)

theorem accAt_first (c : Dev nD) (t : Fin cfg0.N) (h0 : t.val % 16 = 0) :
    accAt m c t.val t.isLt = accFirst c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) accM (Memref.isWhole_whole _) ((condFirst_iff t).mpr h0) (fun h => absurd ((condLast_iff t).mp h) (by omega)) (iblk m c 0 t) (iblk m c 1 t) (iblk m c 2 t) (iblk m c 3 t) (iblk m c 4 t) (iblk m c 5 t) (iblk m c 6 t) := by
  obtain ⟨n, hn⟩ := t
  cases n with
  | zero => exact rfl
  | succ n => exact (dif_pos h0).trans rfl
theorem accAt_mid (c : Dev nD) (t : Fin cfg0.N) (h0 : ¬t.val % 16 = 0) (h1 : ¬t.val % 16 = 15) :
    accAt m c t.val t.isLt = accMid c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) accM (Memref.isWhole_whole _) (fun h => h0 ((condFirst_iff t).mp h)) (fun h => h1 ((condLast_iff t).mp h)) (iblk m c 0 t) (iblk m c 1 t) (iblk m c 2 t) (iblk m c 3 t) (iblk m c 4 t) (iblk m c 5 t) (iblk m c 6 t) (accPrev m c t) := by
  obtain ⟨n, hn⟩ := t
  cases n with
  | zero => exact absurd (Nat.zero_mod 16) h0
  | succ n => exact (dif_neg h0).trans ((dif_neg h1).trans rfl)
theorem accAt_last (c : Dev nD) (t : Fin cfg0.N) (h0 : ¬t.val % 16 = 0) (h1 : t.val % 16 = 15) :
    accAt m c t.val t.isLt = accLast c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) accM (Memref.isWhole_whole _) (fun h => h0 ((condFirst_iff t).mp h)) ((condLast_iff t).mpr h1) (iblk m c 0 t) (iblk m c 1 t) (iblk m c 2 t) (iblk m c 3 t) (iblk m c 4 t) (iblk m c 5 t) (iblk m c 6 t) (accPrev m c t) := by
  obtain ⟨n, hn⟩ := t
  cases n with
  | zero => exact absurd (Nat.zero_mod 16) h0
  | succ n => exact (dif_neg h0).trans ((dif_pos h1).trans rfl)

/-- The output buffer after point `t`: at a last step the accumulator plus the bias row; elsewhere nothing reads it
    (the window is idle and not written back there). -/
def outAt (c : Dev nD) (t : Fin cfg0.N) : Vec F S512x2048 .f32 :=
  if h1 : t.val % 16 = 15 then
    outLast c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) accM (Memref.isWhole_whole _) (fun h => absurd ((condFirst_iff t).mp h) (by omega)) ((condLast_iff t).mpr h1) (iblk m c 0 t) (iblk m c 1 t) (iblk m c 2 t) (iblk m c 3 t) (iblk m c 4 t) (iblk m c 5 t) (iblk m c 6 t) (accPrev m c t)
  else outV.read (Elt F) outV.junk

theorem outAt_last (c : Dev nD) (t : Fin cfg0.N) (h0 : ¬t.val % 16 = 0) (h1 : t.val % 16 = 15) :
    outAt m c t = outLast c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) accM (Memref.isWhole_whole _) (fun h => h0 ((condFirst_iff t).mp h)) ((condLast_iff t).mpr h1) (iblk m c 0 t) (iblk m c 1 t) (iblk m c 2 t) (iblk m c 3 t) (iblk m c 4 t) (iblk m c 5 t) (iblk m c 6 t) (accPrev m c t) := by
  unfold outAt
  exact (dif_pos h1).trans rfl

/-! ## The region invariant -/

/-- Before point `n`: at `n = 0` the class invariant; afterwards the accumulator at what point `n - 1` left, and the
    generator register at some state. -/
def PhiS (c : Dev nD) : (n : ℕ) → n ≤ cfg0.N → sProp 𝕄
  | 0, _ => Pipeline.ΦA spec0 c
  | n + 1, hn => iprop(iprop(owns (c : Thread nD τ) accM fullShare (accAt m c n hn)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) accM fullShare (accAt m c n hn)) ∗ (∃ r, prngReg c r)) := rfl
theorem PhiS_pos (c : Dev nD) (n : ℕ) (h : n ≤ cfg0.N) (hz : n ≠ 0) :
    PhiS m c n h = iprop(iprop(owns (c : Thread nD τ) accM fullShare (accAt m c (n - 1) (by omega))) ∗ (∃ r, prngReg c r)) := by
  cases n with
  | zero => exact absurd rfl hz
  | succ n => rfl

/-! ## The proof data -/

/-- The pipeline's proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outAt m c t
  Φ t := PhiS m c t.val (Nat.le_of_lt_succ t.isLt)
  q w := shareOf w
  owed _ := 0

theorem A_eq (c : Dev nD) (w : Fin cfg0.W) : (dats m 0 c).A w = V m c (Pipeline.arrRef spec0 w) := by
  dsimp only [dats]
theorem q_eq (c : Dev nD) (w : Fin cfg0.W) : (dats m 0 c).q w = shareOf w := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = outAt m c t := by dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d
theorem before_5 (c : Dev nD) (t : Fin cfg0.N) (d) : (dats m 0 c).before 5 t d = iblk m c 5 t :=
  before_5_of m (dats m 0 c) (A_eq m c 5) (after_5 m c) t d
theorem before_6 (c : Dev nD) (t : Fin cfg0.N) (d) : (dats m 0 c).before 6 t d = iblk m c 6 t :=
  before_6_of m (dats m 0 c) (A_eq m c 6) (after_6 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d))
    ∗ (∃ d, owns (c : Thread nD τ) (ms_6 t) fullShare ((dats m 0 c).before 6 t d))
    ∗ (∃ d, owns (c : Thread nD τ) (ms_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 4800000 in
/-- The body at any point: which kind of step it is decides the run; the invariant hands over the accumulator at what the
    point before left (anything at the very first point) and takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  -- every input window's buffer holds its block when the body is called,
  simp only [before_0, before_1, before_2, before_3, before_4, before_5, before_6]
  -- the core owes nothing before or after,
  rw [show (dats m 0 c).owesAt () t.succ = (dats m 0 c).owesAt () t.castSucc from rfl]
  -- the invariant after the point is the accumulator at this point's contents,
  rw [show (dats m 0 c).Φ t.succ = PhiS m c (t.val + 1) t.isLt from rfl, PhiS_succ]
  -- and every input window is live at every point: its buffer is handed back at its block.
  rw [show (dats m 0 c).leavesExact 0 t = owns (c : Thread nD τ) (ms_0 t) fullShare ((dats m 0 c).after 0 t) from by
    unfold Dat.leavesExact; rw [live_0 t], after_0]
  rw [show (dats m 0 c).leavesExact 1 t = owns (c : Thread nD τ) (ms_1 t) fullShare ((dats m 0 c).after 1 t) from by
    unfold Dat.leavesExact; rw [live_1 t], after_1]
  rw [show (dats m 0 c).leavesExact 2 t = owns (c : Thread nD τ) (ms_2 t) fullShare ((dats m 0 c).after 2 t) from by
    unfold Dat.leavesExact; rw [live_2 t], after_2]
  rw [show (dats m 0 c).leavesExact 3 t = owns (c : Thread nD τ) (ms_3 t) fullShare ((dats m 0 c).after 3 t) from by
    unfold Dat.leavesExact; rw [live_3 t], after_3]
  rw [show (dats m 0 c).leavesExact 4 t = owns (c : Thread nD τ) (ms_4 t) fullShare ((dats m 0 c).after 4 t) from by
    unfold Dat.leavesExact; rw [live_4 t], after_4]
  rw [show (dats m 0 c).leavesExact 5 t = owns (c : Thread nD τ) (ms_5 t) fullShare ((dats m 0 c).after 5 t) from by
    unfold Dat.leavesExact; rw [live_5 t], after_5]
  rw [show (dats m 0 c).leavesExact 6 t = owns (c : Thread nD τ) (ms_6 t) fullShare ((dats m 0 c).after 6 t) from by
    unfold Dat.leavesExact; rw [live_6 t], after_6]
  have hN : t.val < 128 := lt_of_lt_of_eq t.isLt (show cfg0.N = 128 from N_0)
  by_cases h0 : t.val % 16 = 0
  · -- A FIRST step: i = 0. The output window is idle; the accumulator is taken at whatever it holds.
    have h1 : ¬t.val % 16 = 15 := by omega
    have hcF : condFirst (grid0.coords t) := (condFirst_iff t).mpr h0
    have hcL : ¬condLast (grid0.coords t) := fun h => h1 ((condLast_iff t).mp h)
    rw [Dat.leavesExact_idle (dats m 0 c) 7 t (idle_7 t hcL) (noFlush_7 t hcL)]
    rw [accAt_first m c t h0]
    unfold accFirst; (try dsimp only)
    by_cases hz : t.val = 0
    · -- the very first point: the class invariant, the accumulator at some contents
      rw [PhiS_castSucc m c t, PhiS_zero m c _ _ hz, PhiA_eq]
      iintro ⟨⟨⟨%xs, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runFirst c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) accM (Memref.isWhole_whole _) hcF hcL (iblk m c 0 t) (iblk m c 1 t) (iblk m c 2 t) (iblk m c 3 t) (iblk m c 4 t) (iblk m c 5 t) (iblk m c 6 t)).2
        ((dats m 0 c).before 7 t d7) xs Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, ⟨%f, HS⟩⟩
      isplitl [HS Hg]
      · isplitl [HS]
        · unfold owns; iexists _; isplitr
          swap; · iexact HS
          ipureintro
          exact View.read_writes_of_cover _ _ _ _ _ (accFirst_cover c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) accM (Memref.isWhole_whole _) hcF hcL (iblk m c 0 t) (iblk m c 1 t) (iblk m c 2 t) (iblk m c 3 t) (iblk m c 4 t) (iblk m c 5 t) (iblk m c 6 t))
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
    · -- the first step of a later row block: the accumulator still at what the row block before left
      rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runFirst c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) accM (Memref.isWhole_whole _) hcF hcL (iblk m c 0 t) (iblk m c 1 t) (iblk m c 2 t) (iblk m c 3 t) (iblk m c 4 t) (iblk m c 5 t) (iblk m c 6 t)).2
        ((dats m 0 c).before 7 t d7) (accPrev m c t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, ⟨%f, HS⟩⟩
      isplitl [HS Hg]
      · isplitl [HS]
        · unfold owns; iexists _; isplitr
          swap; · iexact HS
          ipureintro
          exact View.read_writes_of_cover _ _ _ _ _ (accFirst_cover c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) accM (Memref.isWhole_whole _) hcF hcL (iblk m c 0 t) (iblk m c 1 t) (iblk m c 2 t) (iblk m c 3 t) (iblk m c 4 t) (iblk m c 5 t) (iblk m c 6 t))
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
  · have hz : t.val ≠ 0 := fun h => h0 (by rw [h])
    by_cases h1 : t.val % 16 = 15
    · -- A LAST step: i = 15. The output window is live: its buffer, taken at anything, ends at the stored block.
      have hcF : ¬condFirst (grid0.coords t) := fun h => h0 ((condFirst_iff t).mp h)
      have hcL : condLast (grid0.coords t) := (condLast_iff t).mpr h1
      rw [show (dats m 0 c).leavesExact 7 t = owns (c : Thread nD τ) (ms_7 t) fullShare ((dats m 0 c).after 7 t) from by
        unfold Dat.leavesExact; rw [live_7 t hcL], after_7]
      rw [outAt_last m c t h0 h1, accAt_last m c t h0 h1]
      unfold accLast outLast; (try dsimp only)
      rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runLast c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) accM (Memref.isWhole_whole _) hcF hcL (iblk m c 0 t) (iblk m c 1 t) (iblk m c 2 t) (iblk m c 3 t) (iblk m c 4 t) (iblk m c 5 t) (iblk m c 6 t) (accPrev m c t)).2.2
        Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS]; · iexact HS
      iintro ⟨H0, H1, H2, H3, H4, H5, H6, ⟨%g, H7⟩, ⟨%f, HS⟩⟩
      isplitl [HS Hg]
      · isplitl [HS]
        · unfold owns; iexists _; isplitr
          swap; · iexact HS
          ipureintro
          exact View.read_writes_of_cover _ _ _ _ _ (accLast_cover c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) accM (Memref.isWhole_whole _) hcF hcL (iblk m c 0 t) (iblk m c 1 t) (iblk m c 2 t) (iblk m c 3 t) (iblk m c 4 t) (iblk m c 5 t) (iblk m c 6 t) (accPrev m c t))
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro
      exact View.read_writes_of_cover _ _ _ _ _ (outLast_cover c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) accM (Memref.isWhole_whole _) hcF hcL (iblk m c 0 t) (iblk m c 1 t) (iblk m c 2 t) (iblk m c 3 t) (iblk m c 4 t) (iblk m c 5 t) (iblk m c 6 t) (accPrev m c t))
    · -- A MIDDLE step: 0 < i < 15. The output window is idle; the accumulator is updated over what it held.
      have hcF : ¬condFirst (grid0.coords t) := fun h => h0 ((condFirst_iff t).mp h)
      have hcL : ¬condLast (grid0.coords t) := fun h => h1 ((condLast_iff t).mp h)
      rw [Dat.leavesExact_idle (dats m 0 c) 7 t (idle_7 t hcL) (noFlush_7 t hcL)]
      rw [accAt_mid m c t h0 h1]
      unfold accMid; (try dsimp only)
      rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runMid c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) accM (Memref.isWhole_whole _) hcF hcL (iblk m c 0 t) (iblk m c 1 t) (iblk m c 2 t) (iblk m c 3 t) (iblk m c 4 t) (iblk m c 5 t) (iblk m c 6 t) (accPrev m c t)).2
        ((dats m 0 c).before 7 t d7) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, ⟨%f, HS⟩⟩
      isplitl [HS Hg]
      · isplitl [HS]
        · unfold owns; iexists _; isplitr
          swap; · iexact HS
          ipureintro
          exact View.read_writes_of_cover _ _ _ _ _ (accMid_cover c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) accM (Memref.isWhole_whole _) hcF hcL (iblk m c 0 t) (iblk m c 1 t) (iblk m c 2 t) (iblk m c 3 t) (iblk m c 4 t) (iblk m c 5 t) (iblk m c 6 t) (accPrev m c t))
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  have hN : cfg0.N = 128 := N_0
  rw [show (dats m 0 c).Φ (Fin.last cfg0.N) = PhiS m c (Fin.last cfg0.N).val (Nat.le_of_lt_succ (Fin.last cfg0.N).isLt) from rfl,
    PhiS_pos m c _ _ (by rw [Fin.val_last]; omega), PhiA_eq]
  iintro ⟨HS, Hg⟩
  isplitl [HS]
  · iexists _; iexact HS
  iexact Hg

end Cert.Kernel.Hand

end
-- ==== Proof.KB.Frame.lean ====
/-
  The kernel program's run and its frame, at any instance `F`: the launch applied to the proof data.
-/
import proofs.«164051_j29515015258325_1_alg».proof.Proof.KB.Data

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every weakly fair execution of @main terminates; each window's array ends at what the proof data compute, the
    returned tensor at the reshape of the result array, the arguments at their launch contents. -/
theorem run_main :
    θ_run (defs (F := F)) (onTc (τ := τ) (main (F := F))) ⟨m, fun _ => 0, ρ⟩ (fun r => ∀ c : Dev nD,
      (∀ w : Fin 8, r.2.mem ((spec0 w).arr.view.loc (c.tc : Thread nD τ)) = (dats m 0 c).arrAt w cfg0.N)
      ∧ r.2.mem ((c.tc : Thread nD τ).loc main_v7) = shapeCast S2x2048x2048 ((dats m 0 c).arrAt 7 cfg0.N) shapeCasts_S4096x2048_S2x2048x2048
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  run_shared m ρ (dats m) (q_eq m) (A_eq m) (fun _ _ => rfl) (fun c => (body_obligation m c).loose) (hin m) (hout m)

/-- THE FRAME: the program runs to the end, faults nowhere, and leaves its five arguments unchanged. -/
theorem frame :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run (defs (F := F)) _ _).mono (fun _ h c => (h c).2.2) (run_main m ρ)

end Cert.Kernel.Hand

end
-- ==== Proof.KI.Common.lean ====
/-
  The frame of the SwiGLU kernel, its shared part, at any instance `F`.

  The pallas_call runs on the grid (m, i) ∈ 8 × 16, a point `t` being `(t / 16, t % 16)`. At each point the body
  adds one block's contribution to an accumulator it keeps in a VMEM scratch: the accumulator is zeroed at `i = 0`,
  grows at every `i`, and is written to the output block (with the bias row added) only at `i = 15`. So there are
  three kinds of point: the FIRST step of a row block (`i = 0`: the zero is stored, then the update), a MIDDLE step
  (`0 < i < 15`: the update only) and the LAST step (`i = 15`: the update, then the store of the output block). The
  output window is idle, and not written back, at every point that is not a last step.

  Here: the arrays as the region finds them (after the host casts and reshapes of @main), @main reduced to the region
  followed by the final reshape, the windows' blocks, the two conditions in closed form over the 128 points, the idle
  and write-back table of the output window, and what each input window's staging buffer holds when the body is
  called — its block, fetched at that point or not.
-/
import proofs.«164051_j29515015258325_1_alg».proof.Proof.Gen.KernelIdeal.Launch
import proofs.«164051_j29515015258325_1_alg».proof.Proof.Gen.KernelIdeal.Skeleton
import proofs.«164051_j29515015258325_1_alg».proof.Proof.Gen.KernelIdeal.Points
import Idealize.ShloMosaic.Lib.Pipeline.FrameBody
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch memory after the six host lines (the reshape of
    x to 4096 × 2048, the three casts, the two bias reshapes). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

theorem hostOps1_fresh : (hostOps1 : List (HloOp τ sig (Elt F))).Forall fun op => op.fresh = ∅ := by
  simp only [List.Forall]; repeat' constructor

/-- @main is the six host lines, the region, and the reshape of the result: it reduces to the region continued by
    that reshape, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The two conditions of the body, over the grid -/

/-- `i = 0`: the step that zeroes the accumulator. -/
abbrev condFirst (i : grid0.Coords) : Prop :=
  (Scalar.cmpi .ne (Scalar.extui (Scalar.cmpi .eq (BitVec.ofNat 32 (i 1).val) 0#32)) 0#32) = 1#1
theorem condFirst_iff : ∀ t : Fin cfg0.N, condFirst (grid0.coords t) ↔ t.val % 16 = 0 :=
  (by decide +kernel : ∀ t : Fin grid0.N, condFirst (grid0.coords t) ↔ t.val % 16 = 0)

/-- `i = 15`: the step that stores the output block. -/
abbrev condLast (i : grid0.Coords) : Prop := k0_cond2 i = 1#1
theorem condLast_iff : ∀ t : Fin cfg0.N, condLast (grid0.coords t) ↔ t.val % 16 = 15 :=
  (by decide +kernel : ∀ t : Fin grid0.N, condLast (grid0.coords t) ↔ t.val % 16 = 15)

/-! ## Where the windows are idle -/

theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel
theorem live_3 : ∀ t : Fin cfg0.N, cfg0.idle 3 (grid0.coords t) = false := by decide +kernel
theorem live_4 : ∀ t : Fin cfg0.N, cfg0.idle 4 (grid0.coords t) = false := by decide +kernel
theorem live_5 : ∀ t : Fin cfg0.N, cfg0.idle 5 (grid0.coords t) = false := by decide +kernel
theorem live_6 : ∀ t : Fin cfg0.N, cfg0.idle 6 (grid0.coords t) = false := by decide +kernel
/-- Away from a last step the output window is idle (nothing is stored into it) -/
theorem idle_7 : ∀ t : Fin cfg0.N, ¬condLast (grid0.coords t) → cfg0.idle 7 (grid0.coords t) = true := by decide +kernel
/-- and its block is not written back; -/
theorem noFlush_7 : ∀ t : Fin cfg0.N, ¬condLast (grid0.coords t) → (cfg0.win 7).flush t = false := by decide +kernel
/-- at a last step it is live. -/
theorem live_7 : ∀ t : Fin cfg0.N, condLast (grid0.coords t) → cfg0.idle 7 (grid0.coords t) = false := by decide +kernel

/-! ## The memrefs the body is called with -/

abbrev ms_0 (t : Fin cfg0.N) : Memref sig .tc .vmem S512x2048 .bf16 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S2048x512 .bf16 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S2048x512 .bf16 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S1x512 .f32 := win0_3.stage (cfg0.slots t 3)
abbrev hs_3 (t : Fin cfg0.N) : (ms_3 t).IsWhole := hstage0_3 ((cfg0.slots t 3).cast nbuf0_3)
abbrev ms_4 (t : Fin cfg0.N) : Memref sig .tc .vmem S1x512 .f32 := win0_4.stage (cfg0.slots t 4)
abbrev hs_4 (t : Fin cfg0.N) : (ms_4 t).IsWhole := hstage0_4 ((cfg0.slots t 4).cast nbuf0_4)
abbrev ms_5 (t : Fin cfg0.N) : Memref sig .tc .vmem S512x2048 .bf16 := win0_5.stage (cfg0.slots t 5)
abbrev hs_5 (t : Fin cfg0.N) : (ms_5 t).IsWhole := hstage0_5 ((cfg0.slots t 5).cast nbuf0_5)
abbrev ms_6 (t : Fin cfg0.N) : Memref sig .tc .vmem S1x2048 .f32 := win0_6.stage (cfg0.slots t 6)
abbrev hs_6 (t : Fin cfg0.N) : (ms_6 t).IsWhole := hstage0_6 ((cfg0.slots t 6).cast nbuf0_6)
abbrev ms_7 (t : Fin cfg0.N) : Memref sig .tc .vmem S512x2048 .f32 := win0_7.stage (cfg0.slots t 7)
abbrev hs_7 (t : Fin cfg0.N) : (ms_7 t).IsWhole := hstage0_7 ((cfg0.slots t 7).cast nbuf0_7)
/-- The accumulator: a whole scoped buffer of the kernel's own. -/
abbrev accM : Memref sig .tc .vmem S512x2048 .f32 := Memref.whole cc0_scratch0
/-- One staging buffer of the output window and the accumulator as views, through which contents are stated. -/
abbrev outV : View sig .tc .vmem S512x2048 .f32 := (Memref.whole cc0_stg7_0 : Memref sig .tc .vmem S512x2048 .f32).view
abbrev accV : View sig .tc .vmem S512x2048 .f32 := accM.view

/-- The class invariant with the accumulator as a memref owned at some contents. -/
theorem PhiA_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

/-! ## What the body finds in each input window's buffer -/

section Before
variable {c : Dev nD} (dat : Dat τ (Elt F) Unit ℕ (UR sig nD τ) ℕ cfg0 c)

theorem before_0_of (hA : dat.A 0 = V m c (Pipeline.arrRef spec0 0)) (hafter : ∀ t, dat.after 0 t = iblk m c 0 t) (t : Fin cfg0.N) (d) :
    dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of (hA : dat.A 1 = V m c (Pipeline.arrRef spec0 1)) (hafter : ∀ t, dat.after 1 t = iblk m c 1 t) (t : Fin cfg0.N) (d) :
    dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of (hA : dat.A 2 = V m c (Pipeline.arrRef spec0 2)) (hafter : ∀ t, dat.after 2 t = iblk m c 2 t) (t : Fin cfg0.N) (d) :
    dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of (hA : dat.A 3 = V m c (Pipeline.arrRef spec0 3)) (hafter : ∀ t, dat.after 3 t = iblk m c 3 t) (t : Fin cfg0.N) (d) :
    dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of (hA : dat.A 4 = V m c (Pipeline.arrRef spec0 4)) (hafter : ∀ t, dat.after 4 t = iblk m c 4 t) (t : Fin cfg0.N) (d) :
    dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_5_of (hA : dat.A 5 = V m c (Pipeline.arrRef spec0 5)) (hafter : ∀ t, dat.after 5 t = iblk m c 5 t) (t : Fin cfg0.N) (d) :
    dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_6_of (hA : dat.A 6 = V m c (Pipeline.arrRef spec0 6)) (hafter : ∀ t, dat.after 6 t = iblk m c 6 t) (t : Fin cfg0.N) (d) :
    dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
end Before

end Cert.KernelIdeal.Hand

end
-- ==== Proof.KI.RunFirst.lean ====
/-
  The body at a FIRST step (i = 0, not the last): on whole staging memrefs holding the seven input blocks, the output
  buffer at any contents (handed back untouched) and the accumulator at any contents, the body runs and leaves the
  inputs as they were and the accumulator with the pieces its two stores wrote — the zero, then the first block's
  contribution added to the zero read back.
-/
import proofs.«164051_j29515015258325_1_alg».proof.Proof.KI.Common

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: closing the definition walks it past the default budget)
set_option maxHeartbeats 1000000 in
/-- The pieces the accumulator ends with at a first step, with the body's triple. -/
noncomputable def runFirst (c : Dev nD) (i : grid0.Coords) (arg2 : Memref sig .tc .vmem S512x2048 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S1x512 .f32) (harg5 : arg5.IsWhole) (arg6 : Memref sig .tc .vmem S1x512 .f32) (harg6 : arg6.IsWhole) (arg7 : Memref sig .tc .vmem S512x2048 .bf16) (harg7 : arg7.IsWhole) (arg8 : Memref sig .tc .vmem S1x2048 .f32) (harg8 : arg8.IsWhole) (arg9 : Memref sig .tc .vmem S512x2048 .f32) (harg9 : arg9.IsWhole) (arg10 : Memref sig .tc .vmem S512x2048 .f32) (harg10 : arg10.IsWhole) (hc0 : condFirst i) (hc1 : ¬condLast i)
    (x0 : Vec F S512x2048 .bf16) (x1 : Vec F S2048x512 .bf16) (x2 : Vec F S2048x512 .bf16) (x3 : Vec F S1x512 .f32) (x4 : Vec F S1x512 .f32) (x5 : Vec F S512x2048 .bf16) (x6 : Vec F S1x2048 .f32) :
    { LS : List (View.Piece (Elt F) S512x2048 .f32) //
      ∀ (xo : Vec F S512x2048 .f32) (xs : Vec F S512x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xo ∗ owns (c : Thread nD τ) arg10 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xo ∗ (∃ f, arg10.view.loc (c : Thread nD τ) ↦[arg10.view.set]{fullShare} arg10.view.writes (Elt F) f LS)) -∗ K ⟨⟩))
          ⊢ wp frame (wpE (defs₀ (F := F)) Variants.none c none) E (cc0__swiglu_kernel i arg2 harg2 arg3 harg3 arg4 harg4 arg5 harg5 arg6 harg6 arg7 harg7 arg8 harg8 arg9 harg9 arg10 harg10) K } :=
  by
  refine ⟨?_, fun xo xs E K => ?run⟩
  case run =>
    -- the printed body is its sequence of loads and stores over the named payloads
    simp only [cc0__swiglu_kernel_eq_skeleton]; unfold cc0__swiglu_kernel_skel
    unfold owns
    -- the accumulator's raw contents stay arbitrary (its read fact is dropped): the zero store covers it
    -- before anything kept is read from it, so the pieces it ends with speak of neither `xs` nor `xo`
    iintro ⟨⟨%rx, %ex, Hx⟩, ⟨%rg, %eg, Hg⟩, ⟨%ru, %eu, Hu⟩, ⟨%rbg, %ebg, Hbg⟩, ⟨%rbu, %ebu, Hbu⟩, ⟨%rd, %ed, Hd⟩, ⟨%rbd, %ebd, Hbd⟩, ⟨%rout, %eout, Hout⟩, ⟨%racc, -, Hacc⟩, Hk⟩
    -- a whole memref's raw contents are fixed by what it reads: each input's is the raw form of its block
    obtain rfl := harg2.eq_unread ex; obtain rfl := harg3.eq_unread eg; obtain rfl := harg4.eq_unread eu
    obtain rfl := harg5.eq_unread ebg; obtain rfl := harg6.eq_unread ebu; obtain rfl := harg7.eq_unread ed
    obtain rfl := harg8.eq_unread ebd
    obtain rfl := harg9.eq_unread eout
    -- i = 0 takes the zeroing branch, i ≠ 15 skips the output store
    sl_exec (disch := first | exact hc0 | exact hc1)
    sl_step
    iapply Hk
    -- the seven inputs were only read: each goes back at the block it came with
    isplitl [Hx]
    · iexists _; isplitr; · ipureintro; exact harg2.read_unread _
      iexact Hx
    isplitl [Hg]
    · iexists _; isplitr; · ipureintro; exact harg3.read_unread _
      iexact Hg
    isplitl [Hu]
    · iexists _; isplitr; · ipureintro; exact harg4.read_unread _
      iexact Hu
    isplitl [Hbg]
    · iexists _; isplitr; · ipureintro; exact harg5.read_unread _
      iexact Hbg
    isplitl [Hbu]
    · iexists _; isplitr; · ipureintro; exact harg6.read_unread _
      iexact Hbu
    isplitl [Hd]
    · iexists _; isplitr; · ipureintro; exact harg7.read_unread _
      iexact Hd
    isplitl [Hbd]
    · iexists _; isplitr; · ipureintro; exact harg8.read_unread _
      iexact Hbd
    -- the output buffer was not stored into: it goes back at `xo`
    isplitl [Hout]
    · iexists _; isplitr; · ipureintro; exact harg9.read_unread _
      iexact Hout
    -- the accumulator: the zero piece, then above it the block's contribution added to the zero read back
    iexists _; iexact Hacc

end Cert.KernelIdeal.Hand

end
-- ==== Proof.KI.RunMid.lean ====
/-
  The body at a MIDDLE step (0 < i < 15): the accumulator, handed over at what the step before left, ends with the
  one piece of the update; the output buffer is handed back untouched.
-/
import proofs.«164051_j29515015258325_1_alg».proof.Proof.KI.RunFirst

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: closing the definition walks it past the default budget)
set_option maxHeartbeats 1000000 in
/-- The pieces the accumulator ends with at a middle step, over what it held (`xs`), with the body's triple. -/
noncomputable def runMid (c : Dev nD) (i : grid0.Coords) (arg2 : Memref sig .tc .vmem S512x2048 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S1x512 .f32) (harg5 : arg5.IsWhole) (arg6 : Memref sig .tc .vmem S1x512 .f32) (harg6 : arg6.IsWhole) (arg7 : Memref sig .tc .vmem S512x2048 .bf16) (harg7 : arg7.IsWhole) (arg8 : Memref sig .tc .vmem S1x2048 .f32) (harg8 : arg8.IsWhole) (arg9 : Memref sig .tc .vmem S512x2048 .f32) (harg9 : arg9.IsWhole) (arg10 : Memref sig .tc .vmem S512x2048 .f32) (harg10 : arg10.IsWhole) (hc0 : ¬condFirst i) (hc1 : ¬condLast i)
    (x0 : Vec F S512x2048 .bf16) (x1 : Vec F S2048x512 .bf16) (x2 : Vec F S2048x512 .bf16) (x3 : Vec F S1x512 .f32) (x4 : Vec F S1x512 .f32) (x5 : Vec F S512x2048 .bf16) (x6 : Vec F S1x2048 .f32) (xs : Vec F S512x2048 .f32) :
    { LS : List (View.Piece (Elt F) S512x2048 .f32) //
      ∀ (xo : Vec F S512x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xo ∗ owns (c : Thread nD τ) arg10 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xo ∗ (∃ f, arg10.view.loc (c : Thread nD τ) ↦[arg10.view.set]{fullShare} arg10.view.writes (Elt F) f LS)) -∗ K ⟨⟩))
          ⊢ wp frame (wpE (defs₀ (F := F)) Variants.none c none) E (cc0__swiglu_kernel i arg2 harg2 arg3 harg3 arg4 harg4 arg5 harg5 arg6 harg6 arg7 harg7 arg8 harg8 arg9 harg9 arg10 harg10) K } :=
  by
  refine ⟨?_, fun xo E K => ?run⟩
  case run =>
    -- the printed body is its sequence of loads and stores over the named payloads
    simp only [cc0__swiglu_kernel_eq_skeleton]; unfold cc0__swiglu_kernel_skel
    unfold owns
    iintro ⟨⟨%rx, %ex, Hx⟩, ⟨%rg, %eg, Hg⟩, ⟨%ru, %eu, Hu⟩, ⟨%rbg, %ebg, Hbg⟩, ⟨%rbu, %ebu, Hbu⟩, ⟨%rd, %ed, Hd⟩, ⟨%rbd, %ebd, Hbd⟩, ⟨%rout, %eout, Hout⟩, ⟨%racc, %eacc, Hacc⟩, Hk⟩
    -- a whole memref's raw contents are fixed by what it reads: each input's is the raw form of its block
    obtain rfl := harg2.eq_unread ex; obtain rfl := harg3.eq_unread eg; obtain rfl := harg4.eq_unread eu
    obtain rfl := harg5.eq_unread ebg; obtain rfl := harg6.eq_unread ebu; obtain rfl := harg7.eq_unread ed
    obtain rfl := harg8.eq_unread ebd
    -- so are the output buffer's (at `xo`) and the accumulator's (at `xs`, what the step before left)
    obtain rfl := harg9.eq_unread eout; obtain rfl := harg10.eq_unread eacc
    -- 0 < i < 15: neither the zeroing branch nor the output store
    sl_exec (disch := first | exact hc0 | exact hc1)
    sl_step
    iapply Hk
    -- the seven inputs were only read: each goes back at the block it came with
    isplitl [Hx]
    · iexists _; isplitr; · ipureintro; exact harg2.read_unread _
      iexact Hx
    isplitl [Hg]
    · iexists _; isplitr; · ipureintro; exact harg3.read_unread _
      iexact Hg
    isplitl [Hu]
    · iexists _; isplitr; · ipureintro; exact harg4.read_unread _
      iexact Hu
    isplitl [Hbg]
    · iexists _; isplitr; · ipureintro; exact harg5.read_unread _
      iexact Hbg
    isplitl [Hbu]
    · iexists _; isplitr; · ipureintro; exact harg6.read_unread _
      iexact Hbu
    isplitl [Hd]
    · iexists _; isplitr; · ipureintro; exact harg7.read_unread _
      iexact Hd
    isplitl [Hbd]
    · iexists _; isplitr; · ipureintro; exact harg8.read_unread _
      iexact Hbd
    -- the output buffer was not stored into: it goes back at `xo`
    isplitl [Hout]
    · iexists _; isplitr; · ipureintro; exact harg9.read_unread _
      iexact Hout
    -- the accumulator: one piece over `xs`, the block's contribution added to `xs` read whole
    iexists _; iexact Hacc

end Cert.KernelIdeal.Hand

end
-- ==== Proof.KI.RunLast.lean ====
/-
  The body at a LAST step (i = 15): the update of the accumulator, then the store of the output block — the
  accumulator read back plus the bias row broadcast down the rows. The output buffer is taken at any contents and ends
  with the piece of that store.
-/
import proofs.«164051_j29515015258325_1_alg».proof.Proof.KI.RunMid

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: closing the definition walks it past the default budget)
set_option maxHeartbeats 1000000 in
/-- The pieces the output buffer and the accumulator end with at a last step, with the body's triple. -/
noncomputable def runLast (c : Dev nD) (i : grid0.Coords) (arg2 : Memref sig .tc .vmem S512x2048 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S1x512 .f32) (harg5 : arg5.IsWhole) (arg6 : Memref sig .tc .vmem S1x512 .f32) (harg6 : arg6.IsWhole) (arg7 : Memref sig .tc .vmem S512x2048 .bf16) (harg7 : arg7.IsWhole) (arg8 : Memref sig .tc .vmem S1x2048 .f32) (harg8 : arg8.IsWhole) (arg9 : Memref sig .tc .vmem S512x2048 .f32) (harg9 : arg9.IsWhole) (arg10 : Memref sig .tc .vmem S512x2048 .f32) (harg10 : arg10.IsWhole) (hc0 : ¬condFirst i) (hc1 : condLast i)
    (x0 : Vec F S512x2048 .bf16) (x1 : Vec F S2048x512 .bf16) (x2 : Vec F S2048x512 .bf16) (x3 : Vec F S1x512 .f32) (x4 : Vec F S1x512 .f32) (x5 : Vec F S512x2048 .bf16) (x6 : Vec F S1x2048 .f32) (xs : Vec F S512x2048 .f32) :
    Σ' (LO : List (View.Piece (Elt F) S512x2048 .f32)), { LS : List (View.Piece (Elt F) S512x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f LO) ∗ (∃ f, arg10.view.loc (c : Thread nD τ) ↦[arg10.view.set]{fullShare} arg10.view.writes (Elt F) f LS)) -∗ K ⟨⟩))
          ⊢ wp frame (wpE (defs₀ (F := F)) Variants.none c none) E (cc0__swiglu_kernel i arg2 harg2 arg3 harg3 arg4 harg4 arg5 harg5 arg6 harg6 arg7 harg7 arg8 harg8 arg9 harg9 arg10 harg10) K } :=
  by
  refine ⟨?_, ?_, fun E K => ?run⟩
  case run =>
    -- the printed body is its sequence of loads and stores over the named payloads
    simp only [cc0__swiglu_kernel_eq_skeleton]; unfold cc0__swiglu_kernel_skel
    unfold owns
    -- the output buffer comes at some contents `d`, of which nothing is kept: its one store covers it
    iintro ⟨⟨%rx, %ex, Hx⟩, ⟨%rg, %eg, Hg⟩, ⟨%ru, %eu, Hu⟩, ⟨%rbg, %ebg, Hbg⟩, ⟨%rbu, %ebu, Hbu⟩, ⟨%rd, %ed, Hd⟩, ⟨%rbd, %ebd, Hbd⟩, ⟨%d, %rout, -, Hout⟩, ⟨%racc, %eacc, Hacc⟩, Hk⟩
    -- a whole memref's raw contents are fixed by what it reads: each input's is the raw form of its block
    obtain rfl := harg2.eq_unread ex; obtain rfl := harg3.eq_unread eg; obtain rfl := harg4.eq_unread eu
    obtain rfl := harg5.eq_unread ebg; obtain rfl := harg6.eq_unread ebu; obtain rfl := harg7.eq_unread ed
    obtain rfl := harg8.eq_unread ebd
    obtain rfl := harg10.eq_unread eacc
    -- i = 15 (so i ≠ 0): no zeroing, the update, then the output store
    sl_exec (disch := first | exact hc0 | exact hc1)
    sl_step
    iapply Hk
    -- the seven inputs were only read: each goes back at the block it came with
    isplitl [Hx]
    · iexists _; isplitr; · ipureintro; exact harg2.read_unread _
      iexact Hx
    isplitl [Hg]
    · iexists _; isplitr; · ipureintro; exact harg3.read_unread _
      iexact Hg
    isplitl [Hu]
    · iexists _; isplitr; · ipureintro; exact harg4.read_unread _
      iexact Hu
    isplitl [Hbg]
    · iexists _; isplitr; · ipureintro; exact harg5.read_unread _
      iexact Hbg
    isplitl [Hbu]
    · iexists _; isplitr; · ipureintro; exact harg6.read_unread _
      iexact Hbu
    isplitl [Hd]
    · iexists _; isplitr; · ipureintro; exact harg7.read_unread _
      iexact Hd
    isplitl [Hbd]
    · iexists _; isplitr; · ipureintro; exact harg8.read_unread _
      iexact Hbd
    -- the output buffer: one piece, the updated accumulator read back plus the bias row down the rows
    isplitl [Hout]
    · iexists _; iexact Hout
    -- the accumulator: one piece over `xs`, the block's contribution added to `xs` read whole
    iexists _; iexact Hacc

end Cert.KernelIdeal.Hand

end
-- ==== Proof.KI.Launch.lean ====
/-
  The launch: @main's run from the body obligation, for a pallas_call that hands ONE array to TWO windows.

  The cast weight matrix (2048 × 16384) is the array of window 1 (its column blocks 0..15: the gate half) and of window
  2 (column blocks 16..31: the up half); the reshaped bias row (1 × 16384) is the array of windows 3 and 4 in the same
  way. Both pairs are inputs, only read. So the region holds each of those two arrays as two halves of the full share,
  one per window, and every other array whole; at the region's exit the halves are still there at the arrays' entry
  contents. After the region @main reshapes the result array (window 7's, held whole) into the returned tensor, which
  reads that one array and writes a buffer no window stages.
-/
import proofs.«164051_j29515015258325_1_alg».proof.Proof.KI.Common

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The share each window holds of its array: the two windows on the weight matrix hold its two halves, the two on the
    bias row likewise, every other window its array whole. -/
def shareOf : Fin 8 → PosShare TreeShare
  | ⟨0, _⟩ => fullShare
  | ⟨1, _⟩ => fullShare.left
  | ⟨2, _⟩ => fullShare.right
  | ⟨3, _⟩ => fullShare.left
  | ⟨4, _⟩ => fullShare.right
  | ⟨5, _⟩ => fullShare
  | ⟨6, _⟩ => fullShare
  | ⟨7, _⟩ => fullShare

/-- The buffers that bypass the region, once it is left and the result array `R` has been reshaped into the returned
    tensor: that tensor at the reshape of `R`, every other one at its region-entry contents. -/
def restAfter (c : Dev nD) (R : Buf (Elt F) ((c.tc : Thread nD τ).loc main_v6)) : sProp 𝕄 :=
  iprop((((c.tc : Thread nD τ).loc main_arg0) ↦{fullShare} V m c main_arg0) ∗ (((c.tc : Thread nD τ).loc main_arg1) ↦{fullShare} V m c main_arg1)
    ∗ (((c.tc : Thread nD τ).loc main_arg2) ↦{fullShare} V m c main_arg2) ∗ (((c.tc : Thread nD τ).loc main_arg3) ↦{fullShare} V m c main_arg3)
    ∗ (((c.tc : Thread nD τ).loc main_arg4) ↦{fullShare} V m c main_arg4) ∗ (((c.tc : Thread nD τ).loc main_v0) ↦{fullShare} V m c main_v0)
    ∗ (((c.tc : Thread nD τ).loc main_v7) ↦{fullShare} (shapeCast S2x2048x2048 R shapeCasts_S4096x2048_S2x2048x2048 : Buf (Elt F) ((c.tc : Thread nD τ).loc main_v7))))

/-! ## The arguments are written by no host line -/

theorem V_main_arg0 (c : Dev nD) : V m c main_arg0 = m ((c.tc : Thread nD τ).loc main_arg0) := rfl
theorem V_main_arg1 (c : Dev nD) : V m c main_arg1 = m ((c.tc : Thread nD τ).loc main_arg1) := rfl
theorem V_main_arg2 (c : Dev nD) : V m c main_arg2 = m ((c.tc : Thread nD τ).loc main_arg2) := rfl
theorem V_main_arg3 (c : Dev nD) : V m c main_arg3 = m ((c.tc : Thread nD τ).loc main_arg3) := rfl
theorem V_main_arg4 (c : Dev nD) : V m c main_arg4 = m ((c.tc : Thread nD τ).loc main_arg4) := rfl

/-! ## The arrays as the region is entered -/

section Entry
variable (c : Dev nD) (dat : Dat τ (Elt F) Unit ℕ (UR sig nD τ) ℕ cfg0 c)

/-- Every window holds its array at `shareOf`: an input at the share the proof data name, the output whole. -/
theorem share_eq (hq : ∀ w, dat.q w = shareOf w) : ∀ w : Fin 8, dat.share w = shareOf w
  | 0 => (if_neg (by decide)).trans (hq 0)
  | 1 => (if_neg (by decide)).trans (hq 1)
  | 2 => (if_neg (by decide)).trans (hq 2)
  | 3 => (if_neg (by decide)).trans (hq 3)
  | 4 => (if_neg (by decide)).trans (hq 4)
  | 5 => (if_neg (by decide)).trans (hq 5)
  | 6 => (if_neg (by decide)).trans (hq 6)
  | 7 => if_pos (by decide)
  | ⟨_ + 8, h⟩ => absurd h (Nat.not_lt.2 (Nat.le_add_left _ _))

/-- The six distinct buffers behind the eight windows' arrays, one by one. -/
theorem arrBufs_eq (Vv : (b : Ref sig .tc) → Buf (Elt F) ((c.tc : Thread nD τ).loc b)) :
    (Pipeline.arrBufs spec0 c Vv : sProp 𝕄)
      = iprop((((c.tc : Thread nD τ).loc main_v1) ↦{fullShare} Vv main_v1) ∗ (((c.tc : Thread nD τ).loc main_v2) ↦{fullShare} Vv main_v2)
          ∗ (((c.tc : Thread nD τ).loc main_v4) ↦{fullShare} Vv main_v4) ∗ (((c.tc : Thread nD τ).loc main_v3) ↦{fullShare} Vv main_v3)
          ∗ (((c.tc : Thread nD τ).loc main_v5) ↦{fullShare} Vv main_v5) ∗ (((c.tc : Thread nD τ).loc main_v6) ↦{fullShare} Vv main_v6)) := by
  unfold Pipeline.arrBufs
  exact bigSep_eq_bigSepL_of_eq [main_v1, main_v2, main_v4, main_v3, main_v5, main_v6] (by decide) (by decide) _

/-- The six buffers behind the eight windows, each whole at its entry contents, are the windows' arrays at entry: the
    weight matrix and the bias row are each halved between their two windows. -/
theorem arrays_entry (hq : ∀ w, dat.q w = shareOf w) (hA : ∀ w, dat.A w = V m c (Pipeline.arrRef spec0 w)) :
    (Pipeline.arrBufs spec0 c (V m c) : sProp 𝕄) ⊢ dat.arrays (dat.arrAt · 0) := by
  have hΦ : dat.arrays (dat.arrAt · 0) = bigSep Finset.univ fun w : Fin 8 =>
      (((c.tc : Thread nD τ).loc (Pipeline.arrRef spec0 w)) ↦{shareOf w} V m c (Pipeline.arrRef spec0 w) : sProp 𝕄) := by
    unfold Dat.arrays
    refine bigSep_congr fun w _ => ?_
    show (_ ↦[_]{_} dat.A w) = _
    rw [(arr_whole0 w).set_eq_univ, share_eq c dat hq w, hA w]
  rw [hΦ, bigSep_W0, arrBufs_eq]
  iintro ⟨H1, H2, H4, H3, H5, H6⟩
  ihave H2 := (pointsTo_share (PosShare.mem_left_op_right fullShare)).1 $$ H2
  icases H2 with ⟨H2l, H2r⟩
  ihave H4 := (pointsTo_share (PosShare.mem_left_op_right fullShare)).1 $$ H4
  icases H4 with ⟨H4l, H4r⟩
  isplitl [H1]; · iexact H1
  isplitl [H2l]; · iexact H2l
  isplitl [H2r]; · iexact H2r
  isplitl [H4l]; · iexact H4l
  isplitl [H4r]; · iexact H4r
  isplitl [H3]; · iexact H3
  isplitl [H5]; · iexact H5
  iexact H6

end Entry

/-! ## The reshape of the result array after the region -/

/-- After the final reshape the returned tensor holds the result array's elements at its own shape, -/
theorem after_reshape_v7 (W : Valuation τ sig (Elt F)) :
    StableHlo.after (hostOps1 (F := F)) W (Proc.devRef .tc main_v7)
      = (shapeCast S2x2048x2048 (W (Proc.devRef .tc main_v6)) shapeCasts_S4096x2048_S2x2048x2048 : (Proc.devRef (τ := τ) .tc main_v7).ty.Contents (Elt F)) := by
  dsimp only [hostOps1]; after_results; rfl

/-- and the result array what it held. -/
theorem after_reshape_v6 (W : Valuation τ sig (Elt F)) :
    StableHlo.after (hostOps1 (F := F)) W (Proc.devRef .tc main_v6) = W (Proc.devRef .tc main_v6) := by
  dsimp only [hostOps1]; after_results

/-- The result array and the returned tensor, held whole at a valuation, one by one. -/
theorem held_v6_v7 (c : Dev nD) (W : Valuation τ sig (Elt F)) :
    (StableHlo.held (c.tc : Thread nD τ) {Proc.devRef .tc main_v6, Proc.devRef .tc main_v7} W : sProp 𝕄)
      = iprop((((c.tc : Thread nD τ).loc main_v6) ↦{fullShare} W (Proc.devRef .tc main_v6)) ∗ (((c.tc : Thread nD τ).loc main_v7) ↦{fullShare} W (Proc.devRef .tc main_v7))) := by
  unfold StableHlo.held
  rw [bigSep_insert (by rw [Finset.mem_singleton]; exact StableHlo.devRef_ne_of_ne (by decide)), bigSep_singleton]
  rfl

section Exit
variable (c : Dev nD) (dat : Dat τ (Elt F) Unit ℕ (UR sig nD τ) ℕ cfg0 c)

/-- The output window's array, held as the proof data hold it, is the result buffer whole at the full share. -/
theorem arr7_eq (R : Buf (Elt F) ((cfg0.win 7).arr.view.loc (c.tc : Thread nD τ))) :
    ((cfg0.win 7).arr.view.loc (c.tc : Thread nD τ) ↦[(cfg0.win 7).arr.view.set]{dat.share 7} R : sProp 𝕄)
      = (((c.tc : Thread nD τ).loc main_v6) ↦{fullShare} R) := by
  rw [(arr_whole0 7).set_eq_univ, show dat.share 7 = fullShare from if_pos (by decide)]

set_option backward.isDefEq.respectTransparency.types false in
/-- THE LINE AFTER THE REGION: from the region's exit — the windows' arrays as the proof data leave them, the bypassing
    buffers at their entry contents — the reshape of the result array runs, reading that array (held whole: the output
    window's) and writing the returned tensor (a bypassing buffer), and hands back the arrays untouched and the bypassing
    buffers with the returned tensor at the reshape. -/
theorem tail_reshape (Q' : PUnit → sProp 𝕄) :
    iprop((iprop(dat.arrays (dat.arrAt · cfg0.N) ∗ restAfter m c (dat.arrAt 7 cfg0.N)) -∗ Q' ⟨⟩)
        ∗ boundary (c.tc : Thread nD τ) ∗ dat.arrays (dat.arrAt · cfg0.N)
        ∗ Pipeline.unscopedRestP (Ix := Unit) (Name := ℕ) (U := UR sig nD τ) (Lvl := ℕ) Pipeline.Prefetch.none spec0 c (V m c))
      ⊢ wp frame (wpE (Pipeline.defs (fun p => (cfgs p).toPCfg (Val := Elt F)) defs₀) (Variants.lift Variants.none) (c.tc : Thread nD τ) none) Set.univ
          (Pipeline.chain [StableHlo.seq hostOps1]) Q' := by
  classical
  -- the contents at the region's exit: the result array at what the proof data compute, every other buffer as at entry
  let W : Valuation τ sig (Elt F) := Function.update (V0 m c) (Proc.devRef .tc main_v6) (dat.arrAt 7 cfg0.N)
  have hW6 : W (Proc.devRef .tc main_v6) = dat.arrAt 7 cfg0.N := Function.update_self ..
  have hW7 : W (Proc.devRef .tc main_v7) = V m c main_v7 :=
    Function.update_of_ne (StableHlo.devRef_ne_of_ne (by decide)) ..
  unfold Dat.arrays restAfter
  rw [bigSep_W0, Pipeline.unscopedRestP_none, unscopedRest0_eq, arr7_eq, Pipeline.chain_cons]
  iintro ⟨Hk, Hb, ⟨A0, A1, A2, A3, A4, A5, A6, A7⟩, ⟨R0, R1, R2, R3, R4, Rv0, R7⟩⟩
  iapply (StableHlo.wp_seq (Variants.lift Variants.none) none Set.univ c {Proc.devRef .tc main_v6, Proc.devRef .tc main_v7} _ hostOps1
    (fun op hop => by rw [List.mem_singleton.mp hop]; exact subset_refl _) (fun op hop => by rw [List.mem_singleton.mp hop]; rfl) W) $$ [Hb A7 R7]
  · rw [held_v6_v7, hW6, hW7]
    isplitl [Hb]; · iexact Hb
    isplitl [A7]; · iexact A7
    iexact R7
  rw [held_v6_v7, after_reshape_v6, after_reshape_v7, hW6, Pipeline.chain_nil, wp_pure]
  iintro ⟨-, A7, R7⟩
  imodintro
  iapply Hk
  isplitl [A0 A1 A2 A3 A4 A5 A6 A7]
  · isplitl [A0]; · iexact A0
    isplitl [A1]; · iexact A1
    isplitl [A2]; · iexact A2
    isplitl [A3]; · iexact A3
    isplitl [A4]; · iexact A4
    isplitl [A5]; · iexact A5
    isplitl [A6]; · iexact A6
    iexact A7
  · isplitl [R0]; · iexact R0
    isplitl [R1]; · iexact R1
    isplitl [R2]; · iexact R2
    isplitl [R3]; · iexact R3
    isplitl [R4]; · iexact R4
    isplitl [Rv0]; · iexact Rv0
    iexact R7

end Exit

set_option backward.isDefEq.respectTransparency.types false in
/-- THE RUN, for any proof data of the one pipeline whose arrays are the region-entry contents, whose input shares are
    `shareOf`, which owe nothing, whose invariant is entered from the class invariant and returns to it, and which meet
    the body obligation: every weakly fair execution of @main terminates, with every window's array at what the proof
    data compute, the returned tensor the reshape of the result array, and the five arguments at their launch
    contents. -/
theorem run_shared (dats : (p : Fin 1) → (c : Dev nD) → Dat τ (Elt F) Unit ℕ (UR sig nD τ) ℕ (cfgs p) c)
    (hq : ∀ c w, (dats 0 c).q w = shareOf w)
    (hA : ∀ c w, (dats 0 c).A w = V m c (Pipeline.arrRef spec0 w))
    (howed : ∀ c t, (dats 0 c).owed t = 0)
    (hbody : ∀ c, Pipeline.BodyObligationLoose (dats 0 c) (defs₀ (F := F)) Variants.none () Set.univ)
    (hin : ∀ c, Pipeline.ΦA spec0 c ⊢ (dats 0 c).Φ 0)
    (hout : ∀ c, (dats 0 c).Φ (Fin.last cfg0.N) ⊢ Pipeline.ΦA spec0 c) :
    θ_run (defs (F := F)) (onTc (τ := τ) (main (F := F))) ⟨m, fun _ => 0, ρ⟩ (fun r => ∀ c : Dev nD,
      (∀ w : Fin 8, r.2.mem ((spec0 w).arr.view.loc (c.tc : Thread nD τ)) = (dats 0 c).arrAt w cfg0.N)
      ∧ r.2.mem ((c.tc : Thread nD τ).loc main_v7) = shapeCast S2x2048x2048 ((dats 0 c).arrAt 7 cfg0.N) shapeCasts_S4096x2048_S2x2048x2048
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  classical
  exact Pipeline.θ_run_region_pf_tail (fun p => (cfgs p).toPCfg) (fun p => (cfgs p).toPCfg_adm) dats () cellOf_inj 0 winFacts₀0
    (Pipeline.OwnSemFacts.none spec0) (Pipeline.PreFacts.none _) emb₁ defs₀ Variants.none m ρ main
    (fun _ => Pipeline.chain [StableHlo.seq hostOps1]) hbody block_pos0 arr_whole0 stage_whole0 howed
    (G := fun _ => iprop(emp)) (u₀ := initOf (Pipeline.cells cfgs cellOf_inj) (Pipeline.launchToks cfgs cellOf_inj))
    (hu₀ := (by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro))
    (V := V m) (hmain := hmain m Variants.none)
    (hsplit := (fun c => arrays_entry m c (dats 0 c) (hq c) (hA c)))
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => restAfter m c ((dats 0 c).arrAt 7 cfg0.N))
    (hX := (fun c => by
      iintro ⟨HU, -, -, -, Hp, -⟩; imodintro
      isplitl [Hp]; · iexists _; iexact Hp
      iexact HU))
    (hin := (fun c => (show _ ⊢ Pipeline.ΦA spec0 c by
      unfold Pipeline.ΦA; iintro ⟨Hp, -, Hr⟩
      isplitl [Hr] <;> iassumption).trans (hin c)))
    (hout := (fun c => (hout c).trans (by
      rw [Pipeline.ownSems0_none]; unfold Pipeline.ΦA
      iintro ⟨Hr, Hp⟩
      isplitl [Hp]; · iexact Hp
      isplitr; · iempintro
      iexact Hr)))
    (htail := (fun c Q' => tail_reshape m c (dats 0 c) Q'))
    (QY := fun c s => s.mem ((c.tc : Thread nD τ).loc main_v7) = shapeCast S2x2048x2048 ((dats 0 c).arrAt 7 cfg0.N) shapeCasts_S4096x2048_S2x2048x2048
      ∧ s.mem ((c.tc : Thread nD τ).loc main_arg0) = V m c main_arg0
      ∧ s.mem ((c.tc : Thread nD τ).loc main_arg1) = V m c main_arg1
      ∧ s.mem ((c.tc : Thread nD τ).loc main_arg2) = V m c main_arg2
      ∧ s.mem ((c.tc : Thread nD τ).loc main_arg3) = V m c main_arg3
      ∧ s.mem ((c.tc : Thread nD τ).loc main_arg4) = V m c main_arg4)
    (hY := (fun c s' => by
      unfold restAfter
      iintro ⟨-, ⟨H0, H1, H2, H3, H4, Hv0, H7⟩, HSI⟩
      icombine HSI H0 gives %h0
      icombine HSI H1 gives %h1
      icombine HSI H2 gives %h2
      icombine HSI H3 gives %h3
      icombine HSI H4 gives %h4
      icombine HSI H7 gives %h7
      imodintro
      isplitr
      · ipureintro
        exact ⟨Buf.eq_of_forall_mem_univ h7, Buf.eq_of_forall_mem_univ h0, Buf.eq_of_forall_mem_univ h1, Buf.eq_of_forall_mem_univ h2,
          Buf.eq_of_forall_mem_univ h3, Buf.eq_of_forall_mem_univ h4⟩
      · iexact HSI))
    (hQ := (fun s h c => ⟨(h c).1, (h c).2.2.1, (h c).2.2.2.1.trans (V_main_arg0 m c), (h c).2.2.2.2.1.trans (V_main_arg1 m c),
      (h c).2.2.2.2.2.1.trans (V_main_arg2 m c), (h c).2.2.2.2.2.2.1.trans (V_main_arg3 m c), (h c).2.2.2.2.2.2.2.trans (V_main_arg4 m c)⟩))

end Cert.KernelIdeal.Hand

end
-- ==== Proof.KI.Data.lean ====
/-
  The proof data of the pipeline and its body obligation.

  What the accumulator holds after point `n` (`accAt`) is defined by recursion on the point: a first step (n % 16 = 0)
  starts it afresh from the point's blocks; a middle or last step updates what the point before left. The output buffer
  matters only after a last step (n % 16 = 15), where it holds the accumulator plus the bias row (`outAt`). The region
  invariant before point `n > 0` is the accumulator at `accAt (n - 1)`; before point 0 it is the class invariant (the
  accumulator at anything). Each input window's buffer holds its block; window 7 is idle away from last steps.
-/
import proofs.«164051_j29515015258325_1_alg».proof.Proof.KI.RunLast
import proofs.«164051_j29515015258325_1_alg».proof.Proof.KI.Launch
import Idealize.ShloMosaic.Lib.Ring

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each kind of step leaves: the found pieces read back -/

/-- A first step's accumulator: its pieces read back (the zero store covers the buffer, so the junk beneath is never seen). -/
def accFirst (c : Dev nD) (i : grid0.Coords) (arg2 : Memref sig .tc .vmem S512x2048 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S1x512 .f32) (harg5 : arg5.IsWhole) (arg6 : Memref sig .tc .vmem S1x512 .f32) (harg6 : arg6.IsWhole) (arg7 : Memref sig .tc .vmem S512x2048 .bf16) (harg7 : arg7.IsWhole) (arg8 : Memref sig .tc .vmem S1x2048 .f32) (harg8 : arg8.IsWhole) (arg9 : Memref sig .tc .vmem S512x2048 .f32) (harg9 : arg9.IsWhole) (arg10 : Memref sig .tc .vmem S512x2048 .f32) (harg10 : arg10.IsWhole) (hc0 : condFirst i) (hc1 : ¬condLast i) (x0 : Vec F S512x2048 .bf16) (x1 : Vec F S2048x512 .bf16) (x2 : Vec F S2048x512 .bf16) (x3 : Vec F S1x512 .f32) (x4 : Vec F S1x512 .f32) (x5 : Vec F S512x2048 .bf16) (x6 : Vec F S1x2048 .f32) : Vec F S512x2048 .f32 :=
  accV.read (Elt F) (accV.writes (Elt F) accV.junk (runFirst c i arg2 harg2 arg3 harg3 arg4 harg4 arg5 harg5 arg6 harg6 arg7 harg7 arg8 harg8 arg9 harg9 arg10 harg10 hc0 hc1 x0 x1 x2 x3 x4 x5 x6).1)
theorem accFirst_cover (c : Dev nD) (i : grid0.Coords) (arg2 : Memref sig .tc .vmem S512x2048 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S1x512 .f32) (harg5 : arg5.IsWhole) (arg6 : Memref sig .tc .vmem S1x512 .f32) (harg6 : arg6.IsWhole) (arg7 : Memref sig .tc .vmem S512x2048 .bf16) (harg7 : arg7.IsWhole) (arg8 : Memref sig .tc .vmem S1x2048 .f32) (harg8 : arg8.IsWhole) (arg9 : Memref sig .tc .vmem S512x2048 .f32) (harg9 : arg9.IsWhole) (arg10 : Memref sig .tc .vmem S512x2048 .f32) (harg10 : arg10.IsWhole) (hc0 : condFirst i) (hc1 : ¬condLast i) (x0 : Vec F S512x2048 .bf16) (x1 : Vec F S2048x512 .bf16) (x2 : Vec F S2048x512 .bf16) (x3 : Vec F S1x512 .f32) (x4 : Vec F S1x512 .f32) (x5 : Vec F S512x2048 .bf16) (x6 : Vec F S1x2048 .f32) (y : S512x2048.Idx) :
    ∃ pc ∈ (runFirst c i arg2 harg2 arg3 harg3 arg4 harg4 arg5 harg5 arg6 harg6 arg7 harg7 arg8 harg8 arg9 harg9 arg10 harg10 hc0 hc1 x0 x1 x2 x3 x4 x5 x6).1, y ∈ pc.1.set :=
  View.cover_of_tiledL (runFirst c i arg2 harg2 arg3 harg3 arg4 harg4 arg5 harg5 arg6 harg6 arg7 harg7 arg8 harg8 arg9 harg9 arg10 harg10 hc0 hc1 x0 x1 x2 x3 x4 x5 x6).1 S512x2048.size (by sl_kernel_rfl) y

/-- A middle step's accumulator, over what it held. -/
def accMid (c : Dev nD) (i : grid0.Coords) (arg2 : Memref sig .tc .vmem S512x2048 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S1x512 .f32) (harg5 : arg5.IsWhole) (arg6 : Memref sig .tc .vmem S1x512 .f32) (harg6 : arg6.IsWhole) (arg7 : Memref sig .tc .vmem S512x2048 .bf16) (harg7 : arg7.IsWhole) (arg8 : Memref sig .tc .vmem S1x2048 .f32) (harg8 : arg8.IsWhole) (arg9 : Memref sig .tc .vmem S512x2048 .f32) (harg9 : arg9.IsWhole) (arg10 : Memref sig .tc .vmem S512x2048 .f32) (harg10 : arg10.IsWhole) (hc0 : ¬condFirst i) (hc1 : ¬condLast i) (x0 : Vec F S512x2048 .bf16) (x1 : Vec F S2048x512 .bf16) (x2 : Vec F S2048x512 .bf16) (x3 : Vec F S1x512 .f32) (x4 : Vec F S1x512 .f32) (x5 : Vec F S512x2048 .bf16) (x6 : Vec F S1x2048 .f32) (xs : Vec F S512x2048 .f32) : Vec F S512x2048 .f32 :=
  accV.read (Elt F) (accV.writes (Elt F) accV.junk (runMid c i arg2 harg2 arg3 harg3 arg4 harg4 arg5 harg5 arg6 harg6 arg7 harg7 arg8 harg8 arg9 harg9 arg10 harg10 hc0 hc1 x0 x1 x2 x3 x4 x5 x6 xs).1)
theorem accMid_cover (c : Dev nD) (i : grid0.Coords) (arg2 : Memref sig .tc .vmem S512x2048 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S1x512 .f32) (harg5 : arg5.IsWhole) (arg6 : Memref sig .tc .vmem S1x512 .f32) (harg6 : arg6.IsWhole) (arg7 : Memref sig .tc .vmem S512x2048 .bf16) (harg7 : arg7.IsWhole) (arg8 : Memref sig .tc .vmem S1x2048 .f32) (harg8 : arg8.IsWhole) (arg9 : Memref sig .tc .vmem S512x2048 .f32) (harg9 : arg9.IsWhole) (arg10 : Memref sig .tc .vmem S512x2048 .f32) (harg10 : arg10.IsWhole) (hc0 : ¬condFirst i) (hc1 : ¬condLast i) (x0 : Vec F S512x2048 .bf16) (x1 : Vec F S2048x512 .bf16) (x2 : Vec F S2048x512 .bf16) (x3 : Vec F S1x512 .f32) (x4 : Vec F S1x512 .f32) (x5 : Vec F S512x2048 .bf16) (x6 : Vec F S1x2048 .f32) (xs : Vec F S512x2048 .f32) (y : S512x2048.Idx) :
    ∃ pc ∈ (runMid c i arg2 harg2 arg3 harg3 arg4 harg4 arg5 harg5 arg6 harg6 arg7 harg7 arg8 harg8 arg9 harg9 arg10 harg10 hc0 hc1 x0 x1 x2 x3 x4 x5 x6 xs).1, y ∈ pc.1.set :=
  View.cover_of_tiledL (runMid c i arg2 harg2 arg3 harg3 arg4 harg4 arg5 harg5 arg6 harg6 arg7 harg7 arg8 harg8 arg9 harg9 arg10 harg10 hc0 hc1 x0 x1 x2 x3 x4 x5 x6 xs).1 S512x2048.size (by sl_kernel_rfl) y

/-- A last step's accumulator and output buffer, over what the accumulator held. -/
def accLast (c : Dev nD) (i : grid0.Coords) (arg2 : Memref sig .tc .vmem S512x2048 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S1x512 .f32) (harg5 : arg5.IsWhole) (arg6 : Memref sig .tc .vmem S1x512 .f32) (harg6 : arg6.IsWhole) (arg7 : Memref sig .tc .vmem S512x2048 .bf16) (harg7 : arg7.IsWhole) (arg8 : Memref sig .tc .vmem S1x2048 .f32) (harg8 : arg8.IsWhole) (arg9 : Memref sig .tc .vmem S512x2048 .f32) (harg9 : arg9.IsWhole) (arg10 : Memref sig .tc .vmem S512x2048 .f32) (harg10 : arg10.IsWhole) (hc0 : ¬condFirst i) (hc1 : condLast i) (x0 : Vec F S512x2048 .bf16) (x1 : Vec F S2048x512 .bf16) (x2 : Vec F S2048x512 .bf16) (x3 : Vec F S1x512 .f32) (x4 : Vec F S1x512 .f32) (x5 : Vec F S512x2048 .bf16) (x6 : Vec F S1x2048 .f32) (xs : Vec F S512x2048 .f32) : Vec F S512x2048 .f32 :=
  accV.read (Elt F) (accV.writes (Elt F) accV.junk (runLast c i arg2 harg2 arg3 harg3 arg4 harg4 arg5 harg5 arg6 harg6 arg7 harg7 arg8 harg8 arg9 harg9 arg10 harg10 hc0 hc1 x0 x1 x2 x3 x4 x5 x6 xs).2.1)
theorem accLast_cover (c : Dev nD) (i : grid0.Coords) (arg2 : Memref sig .tc .vmem S512x2048 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S1x512 .f32) (harg5 : arg5.IsWhole) (arg6 : Memref sig .tc .vmem S1x512 .f32) (harg6 : arg6.IsWhole) (arg7 : Memref sig .tc .vmem S512x2048 .bf16) (harg7 : arg7.IsWhole) (arg8 : Memref sig .tc .vmem S1x2048 .f32) (harg8 : arg8.IsWhole) (arg9 : Memref sig .tc .vmem S512x2048 .f32) (harg9 : arg9.IsWhole) (arg10 : Memref sig .tc .vmem S512x2048 .f32) (harg10 : arg10.IsWhole) (hc0 : ¬condFirst i) (hc1 : condLast i) (x0 : Vec F S512x2048 .bf16) (x1 : Vec F S2048x512 .bf16) (x2 : Vec F S2048x512 .bf16) (x3 : Vec F S1x512 .f32) (x4 : Vec F S1x512 .f32) (x5 : Vec F S512x2048 .bf16) (x6 : Vec F S1x2048 .f32) (xs : Vec F S512x2048 .f32) (y : S512x2048.Idx) :
    ∃ pc ∈ (runLast c i arg2 harg2 arg3 harg3 arg4 harg4 arg5 harg5 arg6 harg6 arg7 harg7 arg8 harg8 arg9 harg9 arg10 harg10 hc0 hc1 x0 x1 x2 x3 x4 x5 x6 xs).2.1, y ∈ pc.1.set :=
  View.cover_of_tiledL (runLast c i arg2 harg2 arg3 harg3 arg4 harg4 arg5 harg5 arg6 harg6 arg7 harg7 arg8 harg8 arg9 harg9 arg10 harg10 hc0 hc1 x0 x1 x2 x3 x4 x5 x6 xs).2.1 S512x2048.size (by sl_kernel_rfl) y
def outLast (c : Dev nD) (i : grid0.Coords) (arg2 : Memref sig .tc .vmem S512x2048 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S1x512 .f32) (harg5 : arg5.IsWhole) (arg6 : Memref sig .tc .vmem S1x512 .f32) (harg6 : arg6.IsWhole) (arg7 : Memref sig .tc .vmem S512x2048 .bf16) (harg7 : arg7.IsWhole) (arg8 : Memref sig .tc .vmem S1x2048 .f32) (harg8 : arg8.IsWhole) (arg9 : Memref sig .tc .vmem S512x2048 .f32) (harg9 : arg9.IsWhole) (arg10 : Memref sig .tc .vmem S512x2048 .f32) (harg10 : arg10.IsWhole) (hc0 : ¬condFirst i) (hc1 : condLast i) (x0 : Vec F S512x2048 .bf16) (x1 : Vec F S2048x512 .bf16) (x2 : Vec F S2048x512 .bf16) (x3 : Vec F S1x512 .f32) (x4 : Vec F S1x512 .f32) (x5 : Vec F S512x2048 .bf16) (x6 : Vec F S1x2048 .f32) (xs : Vec F S512x2048 .f32) : Vec F S512x2048 .f32 :=
  outV.read (Elt F) (outV.writes (Elt F) outV.junk (runLast c i arg2 harg2 arg3 harg3 arg4 harg4 arg5 harg5 arg6 harg6 arg7 harg7 arg8 harg8 arg9 harg9 arg10 harg10 hc0 hc1 x0 x1 x2 x3 x4 x5 x6 xs).1)
theorem outLast_cover (c : Dev nD) (i : grid0.Coords) (arg2 : Memref sig .tc .vmem S512x2048 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S1x512 .f32) (harg5 : arg5.IsWhole) (arg6 : Memref sig .tc .vmem S1x512 .f32) (harg6 : arg6.IsWhole) (arg7 : Memref sig .tc .vmem S512x2048 .bf16) (harg7 : arg7.IsWhole) (arg8 : Memref sig .tc .vmem S1x2048 .f32) (harg8 : arg8.IsWhole) (arg9 : Memref sig .tc .vmem S512x2048 .f32) (harg9 : arg9.IsWhole) (arg10 : Memref sig .tc .vmem S512x2048 .f32) (harg10 : arg10.IsWhole) (hc0 : ¬condFirst i) (hc1 : condLast i) (x0 : Vec F S512x2048 .bf16) (x1 : Vec F S2048x512 .bf16) (x2 : Vec F S2048x512 .bf16) (x3 : Vec F S1x512 .f32) (x4 : Vec F S1x512 .f32) (x5 : Vec F S512x2048 .bf16) (x6 : Vec F S1x2048 .f32) (xs : Vec F S512x2048 .f32) (y : S512x2048.Idx) :
    ∃ pc ∈ (runLast c i arg2 harg2 arg3 harg3 arg4 harg4 arg5 harg5 arg6 harg6 arg7 harg7 arg8 harg8 arg9 harg9 arg10 harg10 hc0 hc1 x0 x1 x2 x3 x4 x5 x6 xs).1, y ∈ pc.1.set :=
  View.cover_of_tiledL (runLast c i arg2 harg2 arg3 harg3 arg4 harg4 arg5 harg5 arg6 harg6 arg7 harg7 arg8 harg8 arg9 harg9 arg10 harg10 hc0 hc1 x0 x1 x2 x3 x4 x5 x6 xs).1 S512x2048.size (by sl_kernel_rfl) y

/-! ## The accumulator and the output buffer, point by point -/

/-- The accumulator after point `n`. -/
def accAt (c : Dev nD) : (n : ℕ) → n < cfg0.N → Vec F S512x2048 .f32
  | 0, hn => accFirst c (grid0.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) (ms_4 ⟨0, hn⟩) (hs_4 ⟨0, hn⟩) (ms_5 ⟨0, hn⟩) (hs_5 ⟨0, hn⟩) (ms_6 ⟨0, hn⟩) (hs_6 ⟨0, hn⟩) (ms_7 ⟨0, hn⟩) (hs_7 ⟨0, hn⟩) accM (Memref.isWhole_whole _) ((condFirst_iff ⟨0, hn⟩).mpr (Nat.zero_mod _)) (fun h => by have h' := (condLast_iff ⟨0, hn⟩).mp h; dsimp only at h'; omega) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩)
  | n + 1, hn =>
    if h0 : (n + 1) % 16 = 0 then
      accFirst c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) accM (Memref.isWhole_whole _) ((condFirst_iff ⟨n + 1, hn⟩).mpr h0) (fun h => by have h' := (condLast_iff ⟨n + 1, hn⟩).mp h; dsimp only at h'; omega) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩)
    else if h1 : (n + 1) % 16 = 15 then
      accLast c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) accM (Memref.isWhole_whole _) (fun h => h0 ((condFirst_iff ⟨n + 1, hn⟩).mp h)) ((condLast_iff ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (accAt c n (Nat.lt_of_succ_lt hn))
    else
      accMid c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) accM (Memref.isWhole_whole _) (fun h => h0 ((condFirst_iff ⟨n + 1, hn⟩).mp h)) (fun h => h1 ((condLast_iff ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (accAt c n (Nat.lt_of_succ_lt hn))

/-- The accumulator the point before `t` left (for `t` not the first point). -/
abbrev accPrev (c : Dev nD) (t : Fin cfg0.N) : Vec F S512x2048 .f32 :=
  accAt m c (t.val - 1) (Nat.lt_of_le_of_lt (Nat.sub_le _ _) t.isLt)

theorem accAt_first (c : Dev nD) (t : Fin cfg0.N) (h0 : t.val % 16 = 0) :
    accAt m c t.val t.isLt = accFirst c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) accM (Memref.isWhole_whole _) ((condFirst_iff t).mpr h0) (fun h => absurd ((condLast_iff t).mp h) (by omega)) (iblk m c 0 t) (iblk m c 1 t) (iblk m c 2 t) (iblk m c 3 t) (iblk m c 4 t) (iblk m c 5 t) (iblk m c 6 t) := by
  obtain ⟨n, hn⟩ := t
  cases n with
  | zero => exact rfl
  | succ n => exact (dif_pos h0).trans rfl
theorem accAt_mid (c : Dev nD) (t : Fin cfg0.N) (h0 : ¬t.val % 16 = 0) (h1 : ¬t.val % 16 = 15) :
    accAt m c t.val t.isLt = accMid c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) accM (Memref.isWhole_whole _) (fun h => h0 ((condFirst_iff t).mp h)) (fun h => h1 ((condLast_iff t).mp h)) (iblk m c 0 t) (iblk m c 1 t) (iblk m c 2 t) (iblk m c 3 t) (iblk m c 4 t) (iblk m c 5 t) (iblk m c 6 t) (accPrev m c t) := by
  obtain ⟨n, hn⟩ := t
  cases n with
  | zero => exact absurd (Nat.zero_mod 16) h0
  | succ n => exact (dif_neg h0).trans ((dif_neg h1).trans rfl)
theorem accAt_last (c : Dev nD) (t : Fin cfg0.N) (h0 : ¬t.val % 16 = 0) (h1 : t.val % 16 = 15) :
    accAt m c t.val t.isLt = accLast c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) accM (Memref.isWhole_whole _) (fun h => h0 ((condFirst_iff t).mp h)) ((condLast_iff t).mpr h1) (iblk m c 0 t) (iblk m c 1 t) (iblk m c 2 t) (iblk m c 3 t) (iblk m c 4 t) (iblk m c 5 t) (iblk m c 6 t) (accPrev m c t) := by
  obtain ⟨n, hn⟩ := t
  cases n with
  | zero => exact absurd (Nat.zero_mod 16) h0
  | succ n => exact (dif_neg h0).trans ((dif_pos h1).trans rfl)

/-- The output buffer after point `t`: at a last step the accumulator plus the bias row; elsewhere nothing reads it
    (the window is idle and not written back there). -/
def outAt (c : Dev nD) (t : Fin cfg0.N) : Vec F S512x2048 .f32 :=
  if h1 : t.val % 16 = 15 then
    outLast c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) accM (Memref.isWhole_whole _) (fun h => absurd ((condFirst_iff t).mp h) (by omega)) ((condLast_iff t).mpr h1) (iblk m c 0 t) (iblk m c 1 t) (iblk m c 2 t) (iblk m c 3 t) (iblk m c 4 t) (iblk m c 5 t) (iblk m c 6 t) (accPrev m c t)
  else outV.read (Elt F) outV.junk

theorem outAt_last (c : Dev nD) (t : Fin cfg0.N) (h0 : ¬t.val % 16 = 0) (h1 : t.val % 16 = 15) :
    outAt m c t = outLast c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) accM (Memref.isWhole_whole _) (fun h => h0 ((condFirst_iff t).mp h)) ((condLast_iff t).mpr h1) (iblk m c 0 t) (iblk m c 1 t) (iblk m c 2 t) (iblk m c 3 t) (iblk m c 4 t) (iblk m c 5 t) (iblk m c 6 t) (accPrev m c t) := by
  unfold outAt
  exact (dif_pos h1).trans rfl

/-! ## The region invariant -/

/-- Before point `n`: at `n = 0` the class invariant; afterwards the accumulator at what point `n - 1` left, and the
    generator register at some state. -/
def PhiS (c : Dev nD) : (n : ℕ) → n ≤ cfg0.N → sProp 𝕄
  | 0, _ => Pipeline.ΦA spec0 c
  | n + 1, hn => iprop(iprop(owns (c : Thread nD τ) accM fullShare (accAt m c n hn)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) accM fullShare (accAt m c n hn)) ∗ (∃ r, prngReg c r)) := rfl
theorem PhiS_pos (c : Dev nD) (n : ℕ) (h : n ≤ cfg0.N) (hz : n ≠ 0) :
    PhiS m c n h = iprop(iprop(owns (c : Thread nD τ) accM fullShare (accAt m c (n - 1) (by omega))) ∗ (∃ r, prngReg c r)) := by
  cases n with
  | zero => exact absurd rfl hz
  | succ n => rfl

/-! ## The proof data -/

/-- The pipeline's proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outAt m c t
  Φ t := PhiS m c t.val (Nat.le_of_lt_succ t.isLt)
  q w := shareOf w
  owed _ := 0

theorem A_eq (c : Dev nD) (w : Fin cfg0.W) : (dats m 0 c).A w = V m c (Pipeline.arrRef spec0 w) := by
  dsimp only [dats]
theorem q_eq (c : Dev nD) (w : Fin cfg0.W) : (dats m 0 c).q w = shareOf w := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = outAt m c t := by dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d
theorem before_5 (c : Dev nD) (t : Fin cfg0.N) (d) : (dats m 0 c).before 5 t d = iblk m c 5 t :=
  before_5_of m (dats m 0 c) (A_eq m c 5) (after_5 m c) t d
theorem before_6 (c : Dev nD) (t : Fin cfg0.N) (d) : (dats m 0 c).before 6 t d = iblk m c 6 t :=
  before_6_of m (dats m 0 c) (A_eq m c 6) (after_6 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d))
    ∗ (∃ d, owns (c : Thread nD τ) (ms_6 t) fullShare ((dats m 0 c).before 6 t d))
    ∗ (∃ d, owns (c : Thread nD τ) (ms_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 4800000 in
/-- The body at any point: which kind of step it is decides the run; the invariant hands over the accumulator at what the
    point before left (anything at the very first point) and takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  -- every input window's buffer holds its block when the body is called,
  simp only [before_0, before_1, before_2, before_3, before_4, before_5, before_6]
  -- the core owes nothing before or after,
  rw [show (dats m 0 c).owesAt () t.succ = (dats m 0 c).owesAt () t.castSucc from rfl]
  -- the invariant after the point is the accumulator at this point's contents,
  rw [show (dats m 0 c).Φ t.succ = PhiS m c (t.val + 1) t.isLt from rfl, PhiS_succ]
  -- and every input window is live at every point: its buffer is handed back at its block.
  rw [show (dats m 0 c).leavesExact 0 t = owns (c : Thread nD τ) (ms_0 t) fullShare ((dats m 0 c).after 0 t) from by
    unfold Dat.leavesExact; rw [live_0 t], after_0]
  rw [show (dats m 0 c).leavesExact 1 t = owns (c : Thread nD τ) (ms_1 t) fullShare ((dats m 0 c).after 1 t) from by
    unfold Dat.leavesExact; rw [live_1 t], after_1]
  rw [show (dats m 0 c).leavesExact 2 t = owns (c : Thread nD τ) (ms_2 t) fullShare ((dats m 0 c).after 2 t) from by
    unfold Dat.leavesExact; rw [live_2 t], after_2]
  rw [show (dats m 0 c).leavesExact 3 t = owns (c : Thread nD τ) (ms_3 t) fullShare ((dats m 0 c).after 3 t) from by
    unfold Dat.leavesExact; rw [live_3 t], after_3]
  rw [show (dats m 0 c).leavesExact 4 t = owns (c : Thread nD τ) (ms_4 t) fullShare ((dats m 0 c).after 4 t) from by
    unfold Dat.leavesExact; rw [live_4 t], after_4]
  rw [show (dats m 0 c).leavesExact 5 t = owns (c : Thread nD τ) (ms_5 t) fullShare ((dats m 0 c).after 5 t) from by
    unfold Dat.leavesExact; rw [live_5 t], after_5]
  rw [show (dats m 0 c).leavesExact 6 t = owns (c : Thread nD τ) (ms_6 t) fullShare ((dats m 0 c).after 6 t) from by
    unfold Dat.leavesExact; rw [live_6 t], after_6]
  have hN : t.val < 128 := lt_of_lt_of_eq t.isLt (show cfg0.N = 128 from N_0)
  by_cases h0 : t.val % 16 = 0
  · -- A FIRST step: i = 0. The output window is idle; the accumulator is taken at whatever it holds.
    have h1 : ¬t.val % 16 = 15 := by omega
    have hcF : condFirst (grid0.coords t) := (condFirst_iff t).mpr h0
    have hcL : ¬condLast (grid0.coords t) := fun h => h1 ((condLast_iff t).mp h)
    rw [Dat.leavesExact_idle (dats m 0 c) 7 t (idle_7 t hcL) (noFlush_7 t hcL)]
    rw [accAt_first m c t h0]
    unfold accFirst; (try dsimp only)
    by_cases hz : t.val = 0
    · -- the very first point: the class invariant, the accumulator at some contents
      rw [PhiS_castSucc m c t, PhiS_zero m c _ _ hz, PhiA_eq]
      iintro ⟨⟨⟨%xs, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runFirst c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) accM (Memref.isWhole_whole _) hcF hcL (iblk m c 0 t) (iblk m c 1 t) (iblk m c 2 t) (iblk m c 3 t) (iblk m c 4 t) (iblk m c 5 t) (iblk m c 6 t)).2
        ((dats m 0 c).before 7 t d7) xs Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, ⟨%f, HS⟩⟩
      isplitl [HS Hg]
      · isplitl [HS]
        · unfold owns; iexists _; isplitr
          swap; · iexact HS
          ipureintro
          exact View.read_writes_of_cover _ _ _ _ _ (accFirst_cover c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) accM (Memref.isWhole_whole _) hcF hcL (iblk m c 0 t) (iblk m c 1 t) (iblk m c 2 t) (iblk m c 3 t) (iblk m c 4 t) (iblk m c 5 t) (iblk m c 6 t))
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
    · -- the first step of a later row block: the accumulator still at what the row block before left
      rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runFirst c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) accM (Memref.isWhole_whole _) hcF hcL (iblk m c 0 t) (iblk m c 1 t) (iblk m c 2 t) (iblk m c 3 t) (iblk m c 4 t) (iblk m c 5 t) (iblk m c 6 t)).2
        ((dats m 0 c).before 7 t d7) (accPrev m c t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, ⟨%f, HS⟩⟩
      isplitl [HS Hg]
      · isplitl [HS]
        · unfold owns; iexists _; isplitr
          swap; · iexact HS
          ipureintro
          exact View.read_writes_of_cover _ _ _ _ _ (accFirst_cover c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) accM (Memref.isWhole_whole _) hcF hcL (iblk m c 0 t) (iblk m c 1 t) (iblk m c 2 t) (iblk m c 3 t) (iblk m c 4 t) (iblk m c 5 t) (iblk m c 6 t))
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
  · have hz : t.val ≠ 0 := fun h => h0 (by rw [h])
    by_cases h1 : t.val % 16 = 15
    · -- A LAST step: i = 15. The output window is live: its buffer, taken at anything, ends at the stored block.
      have hcF : ¬condFirst (grid0.coords t) := fun h => h0 ((condFirst_iff t).mp h)
      have hcL : condLast (grid0.coords t) := (condLast_iff t).mpr h1
      rw [show (dats m 0 c).leavesExact 7 t = owns (c : Thread nD τ) (ms_7 t) fullShare ((dats m 0 c).after 7 t) from by
        unfold Dat.leavesExact; rw [live_7 t hcL], after_7]
      rw [outAt_last m c t h0 h1, accAt_last m c t h0 h1]
      unfold accLast outLast; (try dsimp only)
      rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runLast c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) accM (Memref.isWhole_whole _) hcF hcL (iblk m c 0 t) (iblk m c 1 t) (iblk m c 2 t) (iblk m c 3 t) (iblk m c 4 t) (iblk m c 5 t) (iblk m c 6 t) (accPrev m c t)).2.2
        Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS]; · iexact HS
      iintro ⟨H0, H1, H2, H3, H4, H5, H6, ⟨%g, H7⟩, ⟨%f, HS⟩⟩
      isplitl [HS Hg]
      · isplitl [HS]
        · unfold owns; iexists _; isplitr
          swap; · iexact HS
          ipureintro
          exact View.read_writes_of_cover _ _ _ _ _ (accLast_cover c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) accM (Memref.isWhole_whole _) hcF hcL (iblk m c 0 t) (iblk m c 1 t) (iblk m c 2 t) (iblk m c 3 t) (iblk m c 4 t) (iblk m c 5 t) (iblk m c 6 t) (accPrev m c t))
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro
      exact View.read_writes_of_cover _ _ _ _ _ (outLast_cover c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) accM (Memref.isWhole_whole _) hcF hcL (iblk m c 0 t) (iblk m c 1 t) (iblk m c 2 t) (iblk m c 3 t) (iblk m c 4 t) (iblk m c 5 t) (iblk m c 6 t) (accPrev m c t))
    · -- A MIDDLE step: 0 < i < 15. The output window is idle; the accumulator is updated over what it held.
      have hcF : ¬condFirst (grid0.coords t) := fun h => h0 ((condFirst_iff t).mp h)
      have hcL : ¬condLast (grid0.coords t) := fun h => h1 ((condLast_iff t).mp h)
      rw [Dat.leavesExact_idle (dats m 0 c) 7 t (idle_7 t hcL) (noFlush_7 t hcL)]
      rw [accAt_mid m c t h0 h1]
      unfold accMid; (try dsimp only)
      rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runMid c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) accM (Memref.isWhole_whole _) hcF hcL (iblk m c 0 t) (iblk m c 1 t) (iblk m c 2 t) (iblk m c 3 t) (iblk m c 4 t) (iblk m c 5 t) (iblk m c 6 t) (accPrev m c t)).2
        ((dats m 0 c).before 7 t d7) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, ⟨%f, HS⟩⟩
      isplitl [HS Hg]
      · isplitl [HS]
        · unfold owns; iexists _; isplitr
          swap; · iexact HS
          ipureintro
          exact View.read_writes_of_cover _ _ _ _ _ (accMid_cover c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) accM (Memref.isWhole_whole _) hcF hcL (iblk m c 0 t) (iblk m c 1 t) (iblk m c 2 t) (iblk m c 3 t) (iblk m c 4 t) (iblk m c 5 t) (iblk m c 6 t) (accPrev m c t))
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  have hN : cfg0.N = 128 := N_0
  rw [show (dats m 0 c).Φ (Fin.last cfg0.N) = PhiS m c (Fin.last cfg0.N).val (Nat.le_of_lt_succ (Fin.last cfg0.N).isLt) from rfl,
    PhiS_pos m c _ _ (by rw [Fin.val_last]; omega), PhiA_eq]
  iintro ⟨HS, Hg⟩
  isplitl [HS]
  · iexists _; iexact HS
  iexact Hg

end Cert.KernelIdeal.Hand

end
-- ==== Proof.KI.Frame.lean ====
/-
  The kernel program's run and its frame, at any instance `F`: the launch applied to the proof data.
-/
import proofs.«164051_j29515015258325_1_alg».proof.Proof.KI.Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every weakly fair execution of @main terminates; each window's array ends at what the proof data compute, the
    returned tensor at the reshape of the result array, the arguments at their launch contents. -/
theorem run_main :
    θ_run (defs (F := F)) (onTc (τ := τ) (main (F := F))) ⟨m, fun _ => 0, ρ⟩ (fun r => ∀ c : Dev nD,
      (∀ w : Fin 8, r.2.mem ((spec0 w).arr.view.loc (c.tc : Thread nD τ)) = (dats m 0 c).arrAt w cfg0.N)
      ∧ r.2.mem ((c.tc : Thread nD τ).loc main_v7) = shapeCast S2x2048x2048 ((dats m 0 c).arrAt 7 cfg0.N) shapeCasts_S4096x2048_S2x2048x2048
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  run_shared m ρ (dats m) (q_eq m) (A_eq m) (fun _ _ => rfl) (fun c => (body_obligation m c).loose) (hin m) (hout m)

/-- THE FRAME: the program runs to the end, faults nowhere, and leaves its five arguments unchanged. -/
theorem frame :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run (defs (F := F)) _ _).mono (fun _ h c => (h c).2.2) (run_main m ρ)

end Cert.KernelIdeal.Hand

end
-- ==== Proof.BlockSpec.lean ====
/-
  One grid point of the kernel, as functions of the blocks it is handed, over the extended reals.

  At point (m, i) the body holds a block of 512 rows of `x` (512 × 2048), column block `i` of the gate half and of the up
  half of the first weight matrix (each 2048 × 512) with the matching pieces of its bias row (each 1 × 512), and row
  block `i` of the second weight matrix (512 × 2048). For row `r` and hidden column `k` of the block,
  `hidBlk = (g · logistic g) · u` with `g = (∑ j, x[r, j] · wg[j, k]) + bg[0, k]` and `u` likewise from the up half;
  the step adds `∑ k, hidBlk r k · wd[k, d]` to the accumulator at `(r, d)`; the last step's store adds the bias row.
-/
import Idealize.ShloMosaic.PureOps.Ideal
import Idealize.ShloMosaic.Lib.ValueIdx

noncomputable section

namespace Cert.BlockSpec

open Idealize.ShloMosaic Idealize.ShloMosaic.ValueIdx

abbrev BX : Shape := ⟨2, ![512, 2048]⟩
abbrev BW : Shape := ⟨2, ![2048, 512]⟩
abbrev BB : Shape := ⟨2, ![1, 512]⟩
abbrev BD : Shape := ⟨2, ![1, 2048]⟩

variable (xb : BX.Idx → EReal) (wg wu : BW.Idx → EReal) (bg bu : BB.Idx → EReal) (wd : BX.Idx → EReal)

/-- A column of one half of the first projection, on the block: the matrix product plus the bias piece. -/
def projBlk (w : BW.Idx → EReal) (b : BB.Idx → EReal) (r : Fin 512) (k : Fin 512) : EReal :=
  (∑ j : Fin 2048, xb (ix2 r j) * w (ix2 j k)) + b (ix2 (0 : Fin 1) k)

/-- `silu(gate) · up` on the block. -/
def hidBlk (r : Fin 512) (k : Fin 512) : EReal :=
  (projBlk xb wg bg r k * Ideal.logistic (projBlk xb wg bg r k)) * projBlk xb wu bu r k

/-- The block's contribution to the second projection at `(r, d)`. -/
def contrib (r : Fin 512) (d : Fin 2048) : EReal :=
  ∑ k : Fin 512, hidBlk xb wg wu bg bu r k * wd (ix2 k d)

/-- The accumulator after the step, from what it held. -/
def stepBlk (acc : BX.Idx → EReal) : BX.Idx → EReal :=
  fun y => acc y + contrib xb wg wu bg bu wd (y 0) (y 1)

theorem stepBlk_apply (acc : BX.Idx → EReal) (r : Fin 512) (d : Fin 2048) :
    stepBlk xb wg wu bg bu wd acc (ix2 r d) = acc (ix2 r d) + contrib xb wg wu bg bu wd r d := rfl

/-- The output block a last step stores: the accumulator plus the bias row, broadcast down the rows. -/
def biasBlk (acc : BX.Idx → EReal) (bd : BD.Idx → EReal) : BX.Idx → EReal :=
  fun y => acc y + bd (ix2 (0 : Fin 1) (y 1))

theorem biasBlk_apply (acc : BX.Idx → EReal) (bd : BD.Idx → EReal) (r : Fin 512) (d : Fin 2048) :
    biasBlk acc bd (ix2 r d) = acc (ix2 r d) + bd (ix2 (0 : Fin 1) d) := rfl

end Cert.BlockSpec

end
-- ==== Proof.KI.Payload.lean ====
/-
  The body's three stored values at `Ideal`, as the block-level functions of `Cert.BlockSpec`.

  The zero the first step stores is the zero array. The update is the accumulator plus, at `(r, d)`, the sum over the 512
  hidden columns of the block of `silu(gate) · up` times the second weight block: each of the kernel's three
  `tpu.matmul` into a zero accumulator is a plain sum over the contracted axis, a bias piece `[1, 512]` broadcast down
  the rows is its entry at column `k`, `tpu.logistic` is `logistic`, and the change of float format before the last
  product is the identity. The value the last step stores is the accumulator plus the bias row broadcast down the rows.
-/
import proofs.«164051_j29515015258325_1_alg».proof.Proof.Gen.KernelIdeal.Skeleton
import proofs.«164051_j29515015258325_1_alg».proof.Proof.BlockSpec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Payload

open Cert.KernelIdeal Cert.KernelIdeal.Gen Idealize.ShloMosaic Idealize.ShloMosaic.ValueIdx

/-! ## The two products, read at an entry

Each `tpu.matmul` contracts axis 1 of its left operand with axis 0 of its right operand into a zero accumulator:
entry `(p, c)` is the sum over the contracted coordinate `j` of `l[p, j] · r[j, c]`. -/

theorem up_lhs_0 (i : S512x512.Idx) (q : dot_S512x2048_S2048x512_S512x512_1_0_0_1_n_n.contr.Idx) :
    (dot_S512x2048_S2048x512_S512x512_1_0_0_1_n_n.lhsIdx i q 0).val = (i 0).val := by
  unfold DotDims.lhsIdx
  rw [dif_neg (show ¬(0 : Fin S512x2048.rank) ∈ dot_S512x2048_S2048x512_S512x512_1_0_0_1_n_n.lhsBatch by decide), dif_pos (show (0 : Fin S512x2048.rank) ∈ dot_S512x2048_S2048x512_S512x512_1_0_0_1_n_n.lhsNonContracting by decide)]
  rfl
theorem up_lhs_1 (i : S512x512.Idx) (q : dot_S512x2048_S2048x512_S512x512_1_0_0_1_n_n.contr.Idx) :
    (dot_S512x2048_S2048x512_S512x512_1_0_0_1_n_n.lhsIdx i q 1).val = (q ⟨0, by decide⟩).val :=
  dot_S512x2048_S2048x512_S512x512_1_0_0_1_n_n.lhsIdx_val_of_single rfl i q
theorem up_rhs_0 (i : S512x512.Idx) (q : dot_S512x2048_S2048x512_S512x512_1_0_0_1_n_n.contr.Idx) :
    (dot_S512x2048_S2048x512_S512x512_1_0_0_1_n_n.rhsIdx i q 0).val = (q ⟨0, by decide⟩).val :=
  dot_S512x2048_S2048x512_S512x512_1_0_0_1_n_n.rhsIdx_val_of_single rfl i q
theorem up_rhs_1 (i : S512x512.Idx) (q : dot_S512x2048_S2048x512_S512x512_1_0_0_1_n_n.contr.Idx) :
    (dot_S512x2048_S2048x512_S512x512_1_0_0_1_n_n.rhsIdx i q 1).val = (i 1).val := by
  unfold DotDims.rhsIdx
  rw [dif_neg (show ¬(1 : Fin S2048x512.rank) ∈ dot_S512x2048_S2048x512_S512x512_1_0_0_1_n_n.rhsBatch by decide), dif_pos (show (1 : Fin S2048x512.rank) ∈ dot_S512x2048_S2048x512_S512x512_1_0_0_1_n_n.rhsNonContracting by decide)]
  rfl

/-- A `[512, 2048] × [2048, 512]` product into zero: the first projection's two halves. -/
theorem up_at (l : FVec Ideal S512x2048 .bf16) (r : FVec Ideal S2048x512 .bf16) (p : Fin 512) (c : Fin 512) :
    matmul dot_S512x2048_S2048x512_S512x512_1_0_0_1_n_n none l r (constant (F := Ideal) S512x512 .f32 0x00000000#32) (ix2 p c)
      = ∑ j : Fin 2048, l (ix2 p j) * r (ix2 j c) := by
  simp only [matmul]
  rw [Ideal.matmul_constant_zero_apply, ← Equiv.sum_comp (contrEquiv1 dot_S512x2048_S2048x512_S512x512_1_0_0_1_n_n 2048 rfl rfl).symm]
  refine Finset.sum_congr rfl fun j _ => ?_
  have hj := contrEquiv1_symm_val dot_S512x2048_S2048x512_S512x512_1_0_0_1_n_n 2048 rfl rfl j
  have el : dot_S512x2048_S2048x512_S512x512_1_0_0_1_n_n.lhsIdx (ix2 p c) ((contrEquiv1 dot_S512x2048_S2048x512_S512x512_1_0_0_1_n_n 2048 rfl rfl).symm j) = ix2 p j := funext fun a => Fin.ext (by
    match a with
    | ⟨0, _⟩ => exact up_lhs_0 _ _
    | ⟨1, _⟩ => exact (up_lhs_1 _ _).trans hj)
  have er : dot_S512x2048_S2048x512_S512x512_1_0_0_1_n_n.rhsIdx (ix2 p c) ((contrEquiv1 dot_S512x2048_S2048x512_S512x512_1_0_0_1_n_n 2048 rfl rfl).symm j) = ix2 j c := funext fun a => Fin.ext (by
    match a with
    | ⟨0, _⟩ => exact (up_rhs_0 _ _).trans hj
    | ⟨1, _⟩ => exact up_rhs_1 _ _)
  rw [el, er]

theorem down_lhs_0 (i : S512x2048.Idx) (q : dot_S512x512_S512x2048_S512x2048_1_0_0_1_n_n.contr.Idx) :
    (dot_S512x512_S512x2048_S512x2048_1_0_0_1_n_n.lhsIdx i q 0).val = (i 0).val := by
  unfold DotDims.lhsIdx
  rw [dif_neg (show ¬(0 : Fin S512x512.rank) ∈ dot_S512x512_S512x2048_S512x2048_1_0_0_1_n_n.lhsBatch by decide), dif_pos (show (0 : Fin S512x512.rank) ∈ dot_S512x512_S512x2048_S512x2048_1_0_0_1_n_n.lhsNonContracting by decide)]
  rfl
theorem down_lhs_1 (i : S512x2048.Idx) (q : dot_S512x512_S512x2048_S512x2048_1_0_0_1_n_n.contr.Idx) :
    (dot_S512x512_S512x2048_S512x2048_1_0_0_1_n_n.lhsIdx i q 1).val = (q ⟨0, by decide⟩).val :=
  dot_S512x512_S512x2048_S512x2048_1_0_0_1_n_n.lhsIdx_val_of_single rfl i q
theorem down_rhs_0 (i : S512x2048.Idx) (q : dot_S512x512_S512x2048_S512x2048_1_0_0_1_n_n.contr.Idx) :
    (dot_S512x512_S512x2048_S512x2048_1_0_0_1_n_n.rhsIdx i q 0).val = (q ⟨0, by decide⟩).val :=
  dot_S512x512_S512x2048_S512x2048_1_0_0_1_n_n.rhsIdx_val_of_single rfl i q
theorem down_rhs_1 (i : S512x2048.Idx) (q : dot_S512x512_S512x2048_S512x2048_1_0_0_1_n_n.contr.Idx) :
    (dot_S512x512_S512x2048_S512x2048_1_0_0_1_n_n.rhsIdx i q 1).val = (i 1).val := by
  unfold DotDims.rhsIdx
  rw [dif_neg (show ¬(1 : Fin S512x2048.rank) ∈ dot_S512x512_S512x2048_S512x2048_1_0_0_1_n_n.rhsBatch by decide), dif_pos (show (1 : Fin S512x2048.rank) ∈ dot_S512x512_S512x2048_S512x2048_1_0_0_1_n_n.rhsNonContracting by decide)]
  rfl

/-- The `[512, 512] × [512, 2048]` product into zero: the second projection's block. -/
theorem down_at (l : FVec Ideal S512x512 .bf16) (r : FVec Ideal S512x2048 .bf16) (p : Fin 512) (c : Fin 2048) :
    matmul dot_S512x512_S512x2048_S512x2048_1_0_0_1_n_n none l r (constant (F := Ideal) S512x2048 .f32 0x00000000#32) (ix2 p c)
      = ∑ j : Fin 512, l (ix2 p j) * r (ix2 j c) := by
  simp only [matmul]
  rw [Ideal.matmul_constant_zero_apply, ← Equiv.sum_comp (contrEquiv1 dot_S512x512_S512x2048_S512x2048_1_0_0_1_n_n 512 rfl rfl).symm]
  refine Finset.sum_congr rfl fun j _ => ?_
  have hj := contrEquiv1_symm_val dot_S512x512_S512x2048_S512x2048_1_0_0_1_n_n 512 rfl rfl j
  have el : dot_S512x512_S512x2048_S512x2048_1_0_0_1_n_n.lhsIdx (ix2 p c) ((contrEquiv1 dot_S512x512_S512x2048_S512x2048_1_0_0_1_n_n 512 rfl rfl).symm j) = ix2 p j := funext fun a => Fin.ext (by
    match a with
    | ⟨0, _⟩ => exact down_lhs_0 _ _
    | ⟨1, _⟩ => exact (down_lhs_1 _ _).trans hj)
  have er : dot_S512x512_S512x2048_S512x2048_1_0_0_1_n_n.rhsIdx (ix2 p c) ((contrEquiv1 dot_S512x512_S512x2048_S512x2048_1_0_0_1_n_n 512 rfl rfl).symm j) = ix2 j c := funext fun a => Fin.ext (by
    match a with
    | ⟨0, _⟩ => exact (down_rhs_0 _ _).trans hj
    | ⟨1, _⟩ => exact down_rhs_1 _ _)
  rw [el, er]

/-! ## The pieces of the update -/

/-- A product of the row block with a weight block, plus the bias piece broadcast down the rows, is `projBlk`. -/
theorem half_at (xb : FVec Ideal S512x2048 .bf16) (w : FVec Ideal S2048x512 .bf16) (b : FVec Ideal S1x512 .f32)
    (r k : Fin 512) :
    addf (matmul dot_S512x2048_S2048x512_S512x512_1_0_0_1_n_n none xb w (constant (F := Ideal) S512x512 .f32 0x00000000#32))
        (broadcastTo S512x512 b broadcasts_S1x512_S512x512) (ix2 r k)
      = Cert.BlockSpec.projBlk xb w b r k := by
  rw [addf_apply, up_at, broadcastTo_1b_ab_apply]
  rfl

/-- `(g · logistic g) · u`, its format changed (the identity here), is `hidBlk`. -/
theorem hid_at (xb : FVec Ideal S512x2048 .bf16) (wg wu : FVec Ideal S2048x512 .bf16) (bg bu : FVec Ideal S1x512 .f32)
    (r k : Fin 512) :
    truncf .bf16 (mulf (mulf
        (addf (matmul dot_S512x2048_S2048x512_S512x512_1_0_0_1_n_n none xb wg (constant (F := Ideal) S512x512 .f32 0x00000000#32)) (broadcastTo S512x512 bg broadcasts_S1x512_S512x512))
        (logistic (addf (matmul dot_S512x2048_S2048x512_S512x512_1_0_0_1_n_n none xb wg (constant (F := Ideal) S512x512 .f32 0x00000000#32)) (broadcastTo S512x512 bg broadcasts_S1x512_S512x512))))
        (addf (matmul dot_S512x2048_S2048x512_S512x512_1_0_0_1_n_n none xb wu (constant (F := Ideal) S512x512 .f32 0x00000000#32)) (broadcastTo S512x512 bu broadcasts_S1x512_S512x512)))
      bitsLt_bf16_f32 (ix2 r k)
      = Cert.BlockSpec.hidBlk xb wg wu bg bu r k := by
  rw [truncf_apply, mulf_apply, mulf_apply]
  show _ * FloatOps.logistic (addf _ _ (ix2 r k)) * _ = _
  rw [half_at, half_at, Ideal.logistic_def]
  rfl

/-- The value a first step stores into the accumulator: zero everywhere. -/
theorem pay2_eq : (k0_pay2 (F := Ideal) : FVec Ideal S512x2048 .f32) = fun _ => (0 : EReal) := by
  unfold k0_pay2
  dsimp only
  rw [shapeCast_self]
  funext y
  exact Ideal.ofBits_zero_f32

/-- The update: the accumulator plus the block's contribution. -/
theorem pay3_eq (xb : Vec Ideal S512x2048 .bf16) (wg : Vec Ideal S2048x512 .bf16) (bg : Vec Ideal S1x512 .f32)
    (wu : Vec Ideal S2048x512 .bf16) (bu : Vec Ideal S1x512 .f32) (acc : Vec Ideal S512x2048 .f32) (wd : Vec Ideal S512x2048 .bf16) :
    k0_pay3 (F := Ideal) xb wg bg wu bu acc wd = Cert.BlockSpec.stepBlk xb wg wu bg bu wd acc := by
  funext y
  obtain ⟨r, d, rfl⟩ : ∃ (r : Fin 512) (d : Fin 2048), y = ix2 r d := ⟨y 0, y 1, eq_ix2 y⟩
  unfold k0_pay3
  simp only [shapeCast_self]
  rw [addf_apply, down_at, Cert.BlockSpec.stepBlk_apply]
  refine congrArg (acc (ix2 r d) + ·) (Finset.sum_congr rfl fun k _ => ?_)
  rw [hid_at]

/-- The output block of a last step: the accumulator plus the bias row. -/
theorem pay1_eq (acc : Vec Ideal S512x2048 .f32) (bd : Vec Ideal S1x2048 .f32) :
    k0_pay1 (F := Ideal) acc bd = Cert.BlockSpec.biasBlk acc bd := by
  funext y
  obtain ⟨r, d, rfl⟩ : ∃ (r : Fin 512) (d : Fin 2048), y = ix2 r d := ⟨y 0, y 1, eq_ix2 y⟩
  unfold k0_pay1
  rw [shapeCast_self, addf_apply, broadcastTo_1b_ab_apply, Cert.BlockSpec.biasBlk_apply]

end Cert.KernelIdeal.Payload

end
-- ==== Proof.KI.Steps.lean ====
/-
  The accumulator and the output buffer at `Ideal`, one step at a time, as the block-level functions.

  What a run's stores leave in a buffer is the list of pieces read back; each store here covers the whole 512 × 2048
  buffer, so the buffer is the last stored value: the update `k0_pay3` of the point's blocks over what the accumulator
  held — over the zero just stored, at a first step — and at a last step the output buffer is `k0_pay1` of the updated
  accumulator and the bias block. At `Ideal` those values are `stepBlk` and `biasBlk`.
-/
import proofs.«164051_j29515015258325_1_alg».proof.Proof.KI.Data
import proofs.«164051_j29515015258325_1_alg».proof.Proof.KI.Payload

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The pieces a run found, as the stored values

Every store of the body writes a whole 512 × 2048 buffer at offset zero, so what a buffer holds after a run is the value
its last store wrote; a load of a whole buffer reads back the block the buffer was handed over at, and a load of a buffer
just stored reads back the stored value. -/

namespace Steps

section Pieces

variable {F : FTy → Type} [FloatOps F]

/-- The offset of every load and store of the body. -/
theorem hz : (![0, 0] : Fin 2 → Nat) = fun _ => 0 := funext fun a => by fin_cases a <;> rfl

/-- A middle step leaves the update of what the accumulator held. -/
theorem accMid_eq (c : Dev nD) (i : grid0.Coords) (arg2 : Memref sig .tc .vmem S512x2048 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S1x512 .f32) (harg5 : arg5.IsWhole) (arg6 : Memref sig .tc .vmem S1x512 .f32) (harg6 : arg6.IsWhole) (arg7 : Memref sig .tc .vmem S512x2048 .bf16) (harg7 : arg7.IsWhole) (arg8 : Memref sig .tc .vmem S1x2048 .f32) (harg8 : arg8.IsWhole) (arg9 : Memref sig .tc .vmem S512x2048 .f32) (harg9 : arg9.IsWhole) (arg10 : Memref sig .tc .vmem S512x2048 .f32) (harg10 : arg10.IsWhole) (hc0 : ¬condFirst i) (hc1 : ¬condLast i) (x0 : Vec F S512x2048 .bf16) (x1 : Vec F S2048x512 .bf16) (x2 : Vec F S2048x512 .bf16) (x3 : Vec F S1x512 .f32) (x4 : Vec F S1x512 .f32) (x5 : Vec F S512x2048 .bf16) (x6 : Vec F S1x2048 .f32) (xs : Vec F S512x2048 .f32) :
    accMid c i arg2 harg2 arg3 harg3 arg4 harg4 arg5 harg5 arg6 harg6 arg7 harg7 arg8 harg8 arg9 harg9 arg10 harg10 hc0 hc1 x0 x1 x2 x3 x4 x5 x6 xs = k0_pay3 x0 x1 x3 x2 x4 xs x5 := by
  unfold accMid
  rw [View.read_writes_eq_canon _ _ _ (accMid_cover c i arg2 harg2 arg3 harg3 arg4 harg4 arg5 harg5 arg6 harg6 arg7 harg7 arg8 harg8 arg9 harg9 arg10 harg10 hc0 hc1 x0 x1 x2 x3 x4 x5 x6 xs)]
  unfold runMid
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, View.readCov_unit_zero (S := S512x2048) _ hz, View.ld_unit_zero (S := S512x2048) hz, View.ld_unit_zero (S := S2048x512) hz, View.ld_unit_zero (S := S1x512) hz, View.ld_unit_zero (S := S1x2048) hz]

/-- So does a last step, in the accumulator. -/
theorem accLast_eq (c : Dev nD) (i : grid0.Coords) (arg2 : Memref sig .tc .vmem S512x2048 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S1x512 .f32) (harg5 : arg5.IsWhole) (arg6 : Memref sig .tc .vmem S1x512 .f32) (harg6 : arg6.IsWhole) (arg7 : Memref sig .tc .vmem S512x2048 .bf16) (harg7 : arg7.IsWhole) (arg8 : Memref sig .tc .vmem S1x2048 .f32) (harg8 : arg8.IsWhole) (arg9 : Memref sig .tc .vmem S512x2048 .f32) (harg9 : arg9.IsWhole) (arg10 : Memref sig .tc .vmem S512x2048 .f32) (harg10 : arg10.IsWhole) (hc0 : ¬condFirst i) (hc1 : condLast i) (x0 : Vec F S512x2048 .bf16) (x1 : Vec F S2048x512 .bf16) (x2 : Vec F S2048x512 .bf16) (x3 : Vec F S1x512 .f32) (x4 : Vec F S1x512 .f32) (x5 : Vec F S512x2048 .bf16) (x6 : Vec F S1x2048 .f32) (xs : Vec F S512x2048 .f32) :
    accLast c i arg2 harg2 arg3 harg3 arg4 harg4 arg5 harg5 arg6 harg6 arg7 harg7 arg8 harg8 arg9 harg9 arg10 harg10 hc0 hc1 x0 x1 x2 x3 x4 x5 x6 xs = k0_pay3 x0 x1 x3 x2 x4 xs x5 := by
  unfold accLast
  rw [View.read_writes_eq_canon _ _ _ (accLast_cover c i arg2 harg2 arg3 harg3 arg4 harg4 arg5 harg5 arg6 harg6 arg7 harg7 arg8 harg8 arg9 harg9 arg10 harg10 hc0 hc1 x0 x1 x2 x3 x4 x5 x6 xs)]
  unfold runLast
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, View.readCov_unit_zero (S := S512x2048) _ hz, View.ld_unit_zero (S := S512x2048) hz, View.ld_unit_zero (S := S2048x512) hz, View.ld_unit_zero (S := S1x512) hz, View.ld_unit_zero (S := S1x2048) hz]

/-- A first step stores the zero array, reads it back and leaves its update. -/
theorem accFirst_eq (c : Dev nD) (i : grid0.Coords) (arg2 : Memref sig .tc .vmem S512x2048 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S1x512 .f32) (harg5 : arg5.IsWhole) (arg6 : Memref sig .tc .vmem S1x512 .f32) (harg6 : arg6.IsWhole) (arg7 : Memref sig .tc .vmem S512x2048 .bf16) (harg7 : arg7.IsWhole) (arg8 : Memref sig .tc .vmem S1x2048 .f32) (harg8 : arg8.IsWhole) (arg9 : Memref sig .tc .vmem S512x2048 .f32) (harg9 : arg9.IsWhole) (arg10 : Memref sig .tc .vmem S512x2048 .f32) (harg10 : arg10.IsWhole) (hc0 : condFirst i) (hc1 : ¬condLast i) (x0 : Vec F S512x2048 .bf16) (x1 : Vec F S2048x512 .bf16) (x2 : Vec F S2048x512 .bf16) (x3 : Vec F S1x512 .f32) (x4 : Vec F S1x512 .f32) (x5 : Vec F S512x2048 .bf16) (x6 : Vec F S1x2048 .f32) :
    accFirst c i arg2 harg2 arg3 harg3 arg4 harg4 arg5 harg5 arg6 harg6 arg7 harg7 arg8 harg8 arg9 harg9 arg10 harg10 hc0 hc1 x0 x1 x2 x3 x4 x5 x6 = k0_pay3 x0 x1 x3 x2 x4 (k0_pay2 (F := F)) x5 := by
  unfold accFirst
  rw [View.read_writes_eq_canon _ _ _ (accFirst_cover c i arg2 harg2 arg3 harg3 arg4 harg4 arg5 harg5 arg6 harg6 arg7 harg7 arg8 harg8 arg9 harg9 arg10 harg10 hc0 hc1 x0 x1 x2 x3 x4 x5 x6)]
  unfold runFirst
  dsimp only
  sl_unfold_words
  rw [View.canon_cons_unit_zero (S := S512x2048) hz, View.readCov_unit_zero (S := S512x2048) _ hz]
  simp only [View.readAt_eq_ld, harg2.read_unread, harg3.read_unread, harg4.read_unread, harg5.read_unread, harg6.read_unread, harg7.read_unread, harg8.read_unread, harg9.read_unread, harg10.read_unread, View.readCov_unit_zero (S := S512x2048) _ hz, View.ld_unit_zero (S := S512x2048) hz, View.ld_unit_zero (S := S2048x512) hz, View.ld_unit_zero (S := S1x512) hz, View.ld_unit_zero (S := S1x2048) hz]

/-- A last step's output buffer: the updated accumulator, read back, with the bias block. -/
theorem outLast_eq (c : Dev nD) (i : grid0.Coords) (arg2 : Memref sig .tc .vmem S512x2048 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S1x512 .f32) (harg5 : arg5.IsWhole) (arg6 : Memref sig .tc .vmem S1x512 .f32) (harg6 : arg6.IsWhole) (arg7 : Memref sig .tc .vmem S512x2048 .bf16) (harg7 : arg7.IsWhole) (arg8 : Memref sig .tc .vmem S1x2048 .f32) (harg8 : arg8.IsWhole) (arg9 : Memref sig .tc .vmem S512x2048 .f32) (harg9 : arg9.IsWhole) (arg10 : Memref sig .tc .vmem S512x2048 .f32) (harg10 : arg10.IsWhole) (hc0 : ¬condFirst i) (hc1 : condLast i) (x0 : Vec F S512x2048 .bf16) (x1 : Vec F S2048x512 .bf16) (x2 : Vec F S2048x512 .bf16) (x3 : Vec F S1x512 .f32) (x4 : Vec F S1x512 .f32) (x5 : Vec F S512x2048 .bf16) (x6 : Vec F S1x2048 .f32) (xs : Vec F S512x2048 .f32) :
    outLast c i arg2 harg2 arg3 harg3 arg4 harg4 arg5 harg5 arg6 harg6 arg7 harg7 arg8 harg8 arg9 harg9 arg10 harg10 hc0 hc1 x0 x1 x2 x3 x4 x5 x6 xs = k0_pay1 (k0_pay3 x0 x1 x3 x2 x4 xs x5) x6 := by
  unfold outLast
  rw [View.read_writes_eq_canon _ _ _ (outLast_cover c i arg2 harg2 arg3 harg3 arg4 harg4 arg5 harg5 arg6 harg6 arg7 harg7 arg8 harg8 arg9 harg9 arg10 harg10 hc0 hc1 x0 x1 x2 x3 x4 x5 x6 xs)]
  unfold runLast
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, View.readCov_unit_zero (S := S512x2048) _ hz, View.ld_unit_zero (S := S512x2048) hz, View.ld_unit_zero (S := S2048x512) hz, View.ld_unit_zero (S := S1x512) hz, View.ld_unit_zero (S := S1x2048) hz]

end Pieces

end Steps

variable (m : (ℓ : Loc nD τ sig) → Buf (Elt Ideal) ℓ)

/-- After a first step the accumulator is the block's contribution over zero. -/
theorem accAt_first_eq (c : Dev nD) (t : Fin cfg0.N) (h0 : t.val % 16 = 0) :
    accAt (F := Ideal) m c t.val t.isLt
      = Cert.BlockSpec.stepBlk (iblk m c 0 t) (iblk m c 1 t) (iblk m c 2 t) (iblk m c 3 t) (iblk m c 4 t) (iblk m c 5 t) (fun _ => (0 : EReal)) := by
  have hnl : ¬condLast (grid0.coords t) := fun h => absurd ((condLast_iff t).mp h) (by omega)
  rw [accAt_first m c t h0,
    Steps.accFirst_eq (F := Ideal) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) accM (Memref.isWhole_whole _) ((condFirst_iff t).mpr h0) hnl (iblk m c 0 t) (iblk m c 1 t) (iblk m c 2 t) (iblk m c 3 t) (iblk m c 4 t) (iblk m c 5 t) (iblk m c 6 t),
    Cert.KernelIdeal.Payload.pay3_eq, Cert.KernelIdeal.Payload.pay2_eq]

/-- After any other step it is the block's contribution over what the point before left. -/
theorem accAt_next_eq (c : Dev nD) (t : Fin cfg0.N) (h0 : ¬t.val % 16 = 0) :
    accAt (F := Ideal) m c t.val t.isLt
      = Cert.BlockSpec.stepBlk (iblk m c 0 t) (iblk m c 1 t) (iblk m c 2 t) (iblk m c 3 t) (iblk m c 4 t) (iblk m c 5 t) (accPrev (F := Ideal) m c t) := by
  have hnf : ¬condFirst (grid0.coords t) := fun h => h0 ((condFirst_iff t).mp h)
  by_cases h1 : t.val % 16 = 15
  · rw [accAt_last m c t h0 h1,
      Steps.accLast_eq (F := Ideal) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) accM (Memref.isWhole_whole _) hnf ((condLast_iff t).mpr h1) (iblk m c 0 t) (iblk m c 1 t) (iblk m c 2 t) (iblk m c 3 t) (iblk m c 4 t) (iblk m c 5 t) (iblk m c 6 t) (accPrev m c t),
      Cert.KernelIdeal.Payload.pay3_eq]
  · rw [accAt_mid m c t h0 h1,
      Steps.accMid_eq (F := Ideal) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) accM (Memref.isWhole_whole _) hnf (fun h => h1 ((condLast_iff t).mp h)) (iblk m c 0 t) (iblk m c 1 t) (iblk m c 2 t) (iblk m c 3 t) (iblk m c 4 t) (iblk m c 5 t) (iblk m c 6 t) (accPrev m c t),
      Cert.KernelIdeal.Payload.pay3_eq]

/-- After a last step the output buffer is the accumulator plus the bias row. -/
theorem outAt_last_eq (c : Dev nD) (t : Fin cfg0.N) (h1 : t.val % 16 = 15) :
    outAt (F := Ideal) m c t = Cert.BlockSpec.biasBlk (accAt (F := Ideal) m c t.val t.isLt) (iblk m c 6 t) := by
  have h0 : ¬t.val % 16 = 0 := by omega
  have hnf : ¬condFirst (grid0.coords t) := fun h => h0 ((condFirst_iff t).mp h)
  rw [outAt_last m c t h0 h1,
    Steps.outLast_eq (F := Ideal) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) accM (Memref.isWhole_whole _) hnf ((condLast_iff t).mpr h1) (iblk m c 0 t) (iblk m c 1 t) (iblk m c 2 t) (iblk m c 3 t) (iblk m c 4 t) (iblk m c 5 t) (iblk m c 6 t) (accPrev m c t),
    accAt_last m c t h0 h1,
    Steps.accLast_eq (F := Ideal) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) accM (Memref.isWhole_whole _) hnf ((condLast_iff t).mpr h1) (iblk m c 0 t) (iblk m c 1 t) (iblk m c 2 t) (iblk m c 3 t) (iblk m c 4 t) (iblk m c 5 t) (iblk m c 6 t) (accPrev m c t),
    Cert.KernelIdeal.Payload.pay1_eq]

end Cert.KernelIdeal.Hand

end
-- ==== Proof.Spec.lean ====
/-
  The function both programs compute, over the extended reals.

  For a row `(p, s)` of `x` (2 × 2048 rows of length 2048) the first projection is
  `proj p s k = (∑ j, x[p, s, j] · w₁[j, k]) + b₁[k]` for the 16384 columns `k`; its low half is the gate, its high
  half the up branch, and `hidden p s k = (gate · logistic gate) · up` for `k < 8192`, `logistic g = 1 / (1 + e^(-g))`.
  The result is `G[p, s, d] = (∑ k < 8192, hidden p s k · w₂[k, d]) + b₂[d]`.

  The kernel forms the sum over `k` sixteen columns-blocks of 512 at a time; the reference forms it at once. The two
  agree because a finite sum over `Fin 8192` is the sum over its sixteen consecutive blocks of 512
  (`sum_blocks`): addition on the extended reals is commutative and associative, so no finiteness is needed.
-/
import Idealize.ShloMosaic.PureOps.Ideal
import Idealize.ShloMosaic.Lib.ValueIdx

noncomputable section

namespace Cert.Spec

open Idealize.ShloMosaic Idealize.ShloMosaic.ValueIdx

abbrev SX : Shape := ⟨3, ![2, 2048, 2048]⟩
abbrev SW1 : Shape := ⟨2, ![2048, 16384]⟩
abbrev SB1 : Shape := ⟨1, ![16384]⟩
abbrev SW2 : Shape := ⟨2, ![8192, 2048]⟩
abbrev SB2 : Shape := ⟨1, ![2048]⟩

/-- Column `k` of the gate half and of the up half of the first projection. -/
def lo (k : Fin 8192) : Fin 16384 := ⟨k.val, by omega⟩
def hi (k : Fin 8192) : Fin 16384 := ⟨8192 + k.val, by omega⟩

variable (x : FVec Ideal SX .f32) (w1 : FVec Ideal SW1 .f32) (b1 : FVec Ideal SB1 .f32)
  (w2 : FVec Ideal SW2 .f32) (b2 : FVec Ideal SB2 .f32)

/-- The first projection with its bias, at row `(p, s)` and column `k`. -/
def proj (p : Fin 2) (s : Fin 2048) (k : Fin 16384) : EReal :=
  (∑ j : Fin 2048, x (ix3 p s j) * w1 (ix2 j k)) + b1 (ix1 k)

/-- `silu(gate) · up`. -/
def hidden (p : Fin 2) (s : Fin 2048) (k : Fin 8192) : EReal :=
  (proj x w1 b1 p s (lo k) * Ideal.logistic (proj x w1 b1 p s (lo k))) * proj x w1 b1 p s (hi k)

/-- The result at `(p, s, d)`. -/
def out (p : Fin 2) (s : Fin 2048) (d : Fin 2048) : EReal :=
  (∑ k : Fin 8192, hidden x w1 b1 p s k * w2 (ix2 k d)) + b2 (ix1 d)

/-- The whole result array. -/
def G : FVec Ideal SX .f32 := fun i => out x w1 b1 w2 b2 (i 0) (i 1) (i 2)

theorem G_apply (p : Fin 2) (s : Fin 2048) (d : Fin 2048) :
    G x w1 b1 w2 b2 (ix3 p s d) = out x w1 b1 w2 b2 p s d := rfl

/-- Entry `512 · i + k` of a family over `Fin 8192`. -/
def blk (i : Fin 16) (k : Fin 512) : Fin 8192 := ⟨512 * i.val + k.val, by omega⟩

/-- A sum over `Fin 8192` is the sum over its sixteen consecutive blocks of 512. -/
theorem sum_blocks (f : Fin 8192 → EReal) : (∑ i : Fin 16, ∑ k : Fin 512, f (blk i k)) = ∑ K : Fin 8192, f K := by
  -- the double sum is the sum over the pairs, and the pairs are the 8192 entries through `(i, k) ↦ k + 512 · i`
  rw [← Fintype.sum_prod_type' (f := fun (i : Fin 16) (k : Fin 512) => f (blk i k))]
  refine Fintype.sum_equiv (finProdFinEquiv (m := 16) (n := 512)) _ f ?_
  rintro ⟨i, k⟩
  refine congrArg f (Fin.ext ?_)
  show 512 * i.val + k.val = k.val + 512 * i.val
  omega

end Cert.Spec

end
-- ==== Proof.KI.Arrays.lean ====
/-
  The arrays the region finds, read at an index, as the five arguments.

  The six host lines before the region only recast the arguments. x [2, 2048, 2048] is read as 4096 rows of length 2048:
  row 2048·p + s is x[p, s, ·], the two having the same row-major position. The two bias vectors get a leading unit
  axis, so entry (0, k) of the recast is entry k of the vector. The three changes of float format are the identity
  over the extended reals, so the weight matrices are found as they were passed.
-/
import proofs.«164051_j29515015258325_1_alg».proof.Proof.KI.Common
import proofs.«164051_j29515015258325_1_alg».proof.Proof.Spec
import Idealize.ShloMosaic.Lib.Pipeline.Value
import Idealize.ShloMosaic.Lib.ValueLayout
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

/-- The five arguments' launch contents on core `c`, as arrays of extended reals. -/
abbrev argX (c : Dev nD) : FVec Ideal Cert.Spec.SX .f32 := m ((c.tc : Thread nD τ).loc main_arg0)
abbrev argW1 (c : Dev nD) : FVec Ideal Cert.Spec.SW1 .f32 := m ((c.tc : Thread nD τ).loc main_arg1)
abbrev argB1 (c : Dev nD) : FVec Ideal Cert.Spec.SB1 .f32 := m ((c.tc : Thread nD τ).loc main_arg2)
abbrev argW2 (c : Dev nD) : FVec Ideal Cert.Spec.SW2 .f32 := m ((c.tc : Thread nD τ).loc main_arg3)
abbrev argB2 (c : Dev nD) : FVec Ideal Cert.Spec.SB2 .f32 := m ((c.tc : Thread nD τ).loc main_arg4)

/-! ## What the host lines leave in each array the region reads -/

/-- The x array: the argument recast to 4096 × 2048 (the change of format after it is the identity). -/
theorem found_x (c : Dev nD) : (V m c main_v1 : S4096x2048.Idx → EReal)
    = shapeCast S4096x2048 (argX m c) shapeCasts_S2x2048x2048_S4096x2048 := by
  show StableHlo.after hostOps0 (fun b => m (c, b)) (Proc.devRef .tc main_v1) = _
  after_results
  rfl

/-- The first weight matrix, as passed. -/
theorem found_w1 (c : Dev nD) : (V m c main_v2 : S2048x16384.Idx → EReal) = argW1 m c := by
  show StableHlo.after hostOps0 (fun b => m (c, b)) (Proc.devRef .tc main_v2) = _
  after_results
  rfl

/-- The second weight matrix, as passed. -/
theorem found_w2 (c : Dev nD) : (V m c main_v3 : S8192x2048.Idx → EReal) = argW2 m c := by
  show StableHlo.after hostOps0 (fun b => m (c, b)) (Proc.devRef .tc main_v3) = _
  after_results
  rfl

/-- The first bias, as one row. -/
theorem found_b1 (c : Dev nD) : (V m c main_v4 : S1x16384.Idx → EReal)
    = shapeCast S1x16384 (argB1 m c) shapeCasts_S16384_S1x16384 := by
  show StableHlo.after hostOps0 (fun b => m (c, b)) (Proc.devRef .tc main_v4) = _
  after_results
  rfl

/-- The second bias, as one row. -/
theorem found_b2 (c : Dev nD) : (V m c main_v5 : S1x2048.Idx → EReal)
    = shapeCast S1x2048 (argB2 m c) shapeCasts_S2048_S1x2048 := by
  show StableHlo.after hostOps0 (fun b => m (c, b)) (Proc.devRef .tc main_v5) = _
  after_results
  rfl

/-! ## The same at an index -/

/-- Row `2048·p + s` of the x array is `x[p, s, ·]`: both sit at row-major position `(2048·p + s)·2048 + j`. -/
theorem found_x_apply (c : Dev nD) (p : Fin 2) (s : Fin 2048) (j : Fin 2048) (k : S4096x2048.Idx)
    (hk0 : (k 0).val = 2048 * p.val + s.val) (hk1 : (k 1).val = j.val) :
    (V m c main_v1 : S4096x2048.Idx → EReal) k = argX m c (ix3 p s j) := by
  rw [found_x]
  refine shapeCast_apply _ _ k (ix3 p s j) ?_
  rw [Shape.rowMajor_val_three, Shape.rowMajor_val_two]
  show (p.val * 2048 + s.val) * 2048 + j.val = (k 0).val * 2048 + (k 1).val
  rw [hk0, hk1]
  omega

/-- Entry `(0, k)` of the first bias row is entry `k` of the vector. -/
theorem found_b1_apply (c : Dev nD) (k : Fin 16384) :
    (V m c main_v4 : S1x16384.Idx → EReal) (ix2 (0 : Fin 1) k) = argB1 m c (ix1 k) := by
  rw [found_b1]
  exact shapeCast_a_1a_apply _ _ 0 k

/-- Entry `(0, d)` of the second bias row is entry `d` of the vector. -/
theorem found_b2_apply (c : Dev nD) (d : Fin 2048) :
    (V m c main_v5 : S1x2048.Idx → EReal) (ix2 (0 : Fin 1) d) = argB2 m c (ix1 d) := by
  rw [found_b2]
  exact shapeCast_a_1a_apply _ _ 0 d

end Cert.KernelIdeal.Hand

end
-- ==== Proof.KI.Blocks.lean ====
/-
  The blocks a grid point is handed, read at an index, and what the point's step adds.

  Point `t` is (row block `t / 16`, hidden block `i = t % 16`). A block's coordinate in its array is its block index
  times the block size plus the coordinate inside the block. So the x block holds rows 512·(t / 16) .. of the x array; the gate
  and up weight blocks hold columns 512·i .. and 8192 + 512·i .. of the first weight matrix, and the two bias pieces the
  same columns of its bias; the second weight block holds rows 512·i .. of the second matrix; the last bias block is the
  whole second bias. Hence, for a row `r` of the block with 512·(t / 16) + r = 2048·p + s, the block's first projection is
  `Spec.proj p s` at the columns `lo (blk i k)` and `hi (blk i k)`, its hidden value `Spec.hidden p s (blk i k)`, and the
  step adds `∑ k < 512, hidden p s (blk i k) · w₂[blk i k, d]` at `(r, d)`.
-/
import proofs.«164051_j29515015258325_1_alg».proof.Proof.KI.Arrays
import proofs.«164051_j29515015258325_1_alg».proof.Proof.BlockSpec

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

open Cert.Spec (lo hi blk)

/-! ## The block-level functions over blocks that are pieces of whole arrays -/

section Abstract

variable (x : FVec Ideal Cert.Spec.SX .f32) (w1 : FVec Ideal Cert.Spec.SW1 .f32) (b1 : FVec Ideal Cert.Spec.SB1 .f32)
  (w2 : FVec Ideal Cert.Spec.SW2 .f32)
variable (xb : Cert.BlockSpec.BX.Idx → EReal) (wg wu : Cert.BlockSpec.BW.Idx → EReal) (bg bu : Cert.BlockSpec.BB.Idx → EReal)
  (wd : Cert.BlockSpec.BX.Idx → EReal)

/-- A column of the block's first projection is the column `K` of the whole one, when the block's row `r` is row `(p, s)` of x
    and the weight block's and the bias piece's column `k` is column `K` of the weights and of the bias. -/
theorem projBlk_eq_proj (w : Cert.BlockSpec.BW.Idx → EReal) (b : Cert.BlockSpec.BB.Idx → EReal)
    (p : Fin 2) (s : Fin 2048) (r k : Fin 512) (K : Fin 16384)
    (hx : ∀ j : Fin 2048, xb (ix2 r j) = x (ix3 p s j))
    (hw : ∀ j : Fin 2048, w (ix2 j k) = w1 (ix2 j K))
    (hb : b (ix2 (0 : Fin 1) k) = b1 (ix1 K)) :
    Cert.BlockSpec.projBlk xb w b r k = Cert.Spec.proj x w1 b1 p s K := by
  unfold Cert.BlockSpec.projBlk Cert.Spec.proj
  rw [hb]
  refine congrArg (· + b1 (ix1 K)) (Finset.sum_congr rfl fun j _ => ?_)
  rw [hx j, hw j]

/-- The block's hidden value at column `k` of hidden block `i` is the whole one at column `512·i + k`. -/
theorem hidBlk_eq_hidden (p : Fin 2) (s : Fin 2048) (r k : Fin 512) (i : Fin 16)
    (hx : ∀ j : Fin 2048, xb (ix2 r j) = x (ix3 p s j))
    (hwg : ∀ j : Fin 2048, wg (ix2 j k) = w1 (ix2 j (lo (blk i k))))
    (hwu : ∀ j : Fin 2048, wu (ix2 j k) = w1 (ix2 j (hi (blk i k))))
    (hbg : bg (ix2 (0 : Fin 1) k) = b1 (ix1 (lo (blk i k))))
    (hbu : bu (ix2 (0 : Fin 1) k) = b1 (ix1 (hi (blk i k)))) :
    Cert.BlockSpec.hidBlk xb wg wu bg bu r k = Cert.Spec.hidden x w1 b1 p s (blk i k) := by
  unfold Cert.BlockSpec.hidBlk Cert.Spec.hidden
  rw [projBlk_eq_proj x w1 b1 xb wg bg p s r k (lo (blk i k)) hx hwg hbg,
    projBlk_eq_proj x w1 b1 xb wu bu p s r k (hi (blk i k)) hx hwu hbu]

/-- What the step adds at `(r, d)`: the terms of hidden block `i` of the second projection's sum. -/
theorem contrib_eq_terms (p : Fin 2) (s : Fin 2048) (r : Fin 512) (d : Fin 2048) (i : Fin 16)
    (hx : ∀ j : Fin 2048, xb (ix2 r j) = x (ix3 p s j))
    (hwg : ∀ (j : Fin 2048) (k : Fin 512), wg (ix2 j k) = w1 (ix2 j (lo (blk i k))))
    (hwu : ∀ (j : Fin 2048) (k : Fin 512), wu (ix2 j k) = w1 (ix2 j (hi (blk i k))))
    (hbg : ∀ k : Fin 512, bg (ix2 (0 : Fin 1) k) = b1 (ix1 (lo (blk i k))))
    (hbu : ∀ k : Fin 512, bu (ix2 (0 : Fin 1) k) = b1 (ix1 (hi (blk i k))))
    (hwd : ∀ k : Fin 512, wd (ix2 k d) = w2 (ix2 (blk i k) d)) :
    Cert.BlockSpec.contrib xb wg wu bg bu wd r d
      = ∑ k : Fin 512, Cert.Spec.hidden x w1 b1 p s (blk i k) * w2 (ix2 (blk i k) d) := by
  unfold Cert.BlockSpec.contrib
  refine Finset.sum_congr rfl fun k _ => ?_
  rw [hidBlk_eq_hidden x w1 b1 xb wg wu bg bu p s r k i hx (fun j => hwg j k) (fun j => hwu j k) (hbg k) (hbu k), hwd k]

end Abstract

/-! ## The windows' block indices, decided once over the 128 points -/

theorem index_x : ∀ t : Fin cfg0.N, win0_0.index t (0 : Fin 2) = t.val / 16 ∧ win0_0.index t (1 : Fin 2) = 0 :=
  (by decide +kernel : ∀ t : Fin grid0.N, win0_0.index t (0 : Fin 2) = t.val / 16 ∧ win0_0.index t (1 : Fin 2) = 0)
theorem index_wg : ∀ t : Fin cfg0.N, win0_1.index t (0 : Fin 2) = 0 ∧ win0_1.index t (1 : Fin 2) = t.val % 16 :=
  (by decide +kernel : ∀ t : Fin grid0.N, win0_1.index t (0 : Fin 2) = 0 ∧ win0_1.index t (1 : Fin 2) = t.val % 16)
theorem index_wu : ∀ t : Fin cfg0.N, win0_2.index t (0 : Fin 2) = 0 ∧ win0_2.index t (1 : Fin 2) = 16 + t.val % 16 :=
  (by decide +kernel : ∀ t : Fin grid0.N, win0_2.index t (0 : Fin 2) = 0 ∧ win0_2.index t (1 : Fin 2) = 16 + t.val % 16)
theorem index_bg : ∀ t : Fin cfg0.N, win0_3.index t (0 : Fin 2) = 0 ∧ win0_3.index t (1 : Fin 2) = t.val % 16 :=
  (by decide +kernel : ∀ t : Fin grid0.N, win0_3.index t (0 : Fin 2) = 0 ∧ win0_3.index t (1 : Fin 2) = t.val % 16)
theorem index_bu : ∀ t : Fin cfg0.N, win0_4.index t (0 : Fin 2) = 0 ∧ win0_4.index t (1 : Fin 2) = 16 + t.val % 16 :=
  (by decide +kernel : ∀ t : Fin grid0.N, win0_4.index t (0 : Fin 2) = 0 ∧ win0_4.index t (1 : Fin 2) = 16 + t.val % 16)
theorem index_wd : ∀ t : Fin cfg0.N, win0_5.index t (0 : Fin 2) = t.val % 16 ∧ win0_5.index t (1 : Fin 2) = 0 :=
  (by decide +kernel : ∀ t : Fin grid0.N, win0_5.index t (0 : Fin 2) = t.val % 16 ∧ win0_5.index t (1 : Fin 2) = 0)
theorem index_bd : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)

/-! ## Each block of point `t`, read at an index, as an entry of an argument -/

/-- Row `r` of the x block is `x[p, s, ·]` when 512·(t / 16) + r = 2048·p + s. -/
theorem xblock_at (c : Dev nD) (t : Fin cfg0.N) (p : Fin 2) (s : Fin 2048) (r : Fin 512)
    (hrow : 512 * (t.val / 16) + r.val = 2048 * p.val + s.val) (j : Fin 2048) :
    (iblk m c 0 t : Cert.BlockSpec.BX.Idx → EReal) (ix2 r j) = argX m c (ix3 p s j) := by
  have hx := index_x t
  unfold iblk
  rw [View.read_apply]
  show V m c main_v1 _ = _
  refine found_x_apply m c p s j _ ?_ ?_
  · show win0_0.index t 0 * 512 + 1 * r.val = _
    rw [hx.1]; omega
  · show win0_0.index t 1 * 2048 + 1 * j.val = _
    rw [hx.2]; omega

/-- Column `k` of the gate weight block is column `512·i + k` of the first weight matrix. -/
theorem gateW_at (c : Dev nD) (t : Fin cfg0.N) (i : Fin 16) (hti : i.val = t.val % 16) (j : Fin 2048) (k : Fin 512) :
    (iblk m c 1 t : Cert.BlockSpec.BW.Idx → EReal) (ix2 j k) = argW1 m c (ix2 j (lo (blk i k))) := by
  have hx := index_wg t
  unfold iblk
  rw [View.read_apply]
  show V m c main_v2 _ = _
  rw [found_w1]
  refine congrArg (argW1 m c) (funext fun a => Fin.ext ?_)
  match a with
  | ⟨0, _⟩ => show win0_1.index t 0 * 2048 + 1 * j.val = j.val; rw [hx.1]; omega
  | ⟨1, _⟩ => show win0_1.index t 1 * 512 + 1 * k.val = 512 * i.val + k.val; rw [hx.2, hti]; omega

/-- Column `k` of the up weight block is column `8192 + 512·i + k`. -/
theorem upW_at (c : Dev nD) (t : Fin cfg0.N) (i : Fin 16) (hti : i.val = t.val % 16) (j : Fin 2048) (k : Fin 512) :
    (iblk m c 2 t : Cert.BlockSpec.BW.Idx → EReal) (ix2 j k) = argW1 m c (ix2 j (hi (blk i k))) := by
  have hx := index_wu t
  unfold iblk
  rw [View.read_apply]
  show V m c main_v2 _ = _
  rw [found_w1]
  refine congrArg (argW1 m c) (funext fun a => Fin.ext ?_)
  match a with
  | ⟨0, _⟩ => show win0_2.index t 0 * 2048 + 1 * j.val = j.val; rw [hx.1]; omega
  | ⟨1, _⟩ => show win0_2.index t 1 * 512 + 1 * k.val = 8192 + (512 * i.val + k.val); rw [hx.2, hti]; omega

/-- Entry `k` of the gate bias piece is entry `512·i + k` of the first bias. -/
theorem gateB_at (c : Dev nD) (t : Fin cfg0.N) (i : Fin 16) (hti : i.val = t.val % 16) (k : Fin 512) :
    (iblk m c 3 t : Cert.BlockSpec.BB.Idx → EReal) (ix2 (0 : Fin 1) k) = argB1 m c (ix1 (lo (blk i k))) := by
  have hx := index_bg t
  unfold iblk
  rw [View.read_apply]
  show V m c main_v4 _ = _
  rw [← found_b1_apply]
  refine congrArg (V m c main_v4 : S1x16384.Idx → EReal) (funext fun a => Fin.ext ?_)
  match a with
  | ⟨0, _⟩ => show win0_3.index t 0 * 1 + 1 * 0 = 0; rw [hx.1]
  | ⟨1, _⟩ => show win0_3.index t 1 * 512 + 1 * k.val = 512 * i.val + k.val; rw [hx.2, hti]; omega

/-- Entry `k` of the up bias piece is entry `8192 + 512·i + k`. -/
theorem upB_at (c : Dev nD) (t : Fin cfg0.N) (i : Fin 16) (hti : i.val = t.val % 16) (k : Fin 512) :
    (iblk m c 4 t : Cert.BlockSpec.BB.Idx → EReal) (ix2 (0 : Fin 1) k) = argB1 m c (ix1 (hi (blk i k))) := by
  have hx := index_bu t
  unfold iblk
  rw [View.read_apply]
  show V m c main_v4 _ = _
  rw [← found_b1_apply]
  refine congrArg (V m c main_v4 : S1x16384.Idx → EReal) (funext fun a => Fin.ext ?_)
  match a with
  | ⟨0, _⟩ => show win0_4.index t 0 * 1 + 1 * 0 = 0; rw [hx.1]
  | ⟨1, _⟩ => show win0_4.index t 1 * 512 + 1 * k.val = 8192 + (512 * i.val + k.val); rw [hx.2, hti]; omega

/-- Row `k` of the second weight block is row `512·i + k` of the second matrix. -/
theorem downW_at (c : Dev nD) (t : Fin cfg0.N) (i : Fin 16) (hti : i.val = t.val % 16) (k : Fin 512) (d : Fin 2048) :
    (iblk m c 5 t : Cert.BlockSpec.BX.Idx → EReal) (ix2 k d) = argW2 m c (ix2 (blk i k) d) := by
  have hx := index_wd t
  unfold iblk
  rw [View.read_apply]
  show V m c main_v3 _ = _
  rw [found_w2]
  refine congrArg (argW2 m c) (funext fun a => Fin.ext ?_)
  match a with
  | ⟨0, _⟩ => show win0_5.index t 0 * 512 + 1 * k.val = 512 * i.val + k.val; rw [hx.1, hti]; omega
  | ⟨1, _⟩ => show win0_5.index t 1 * 2048 + 1 * d.val = d.val; rw [hx.2]; omega

/-- The last bias block is the second bias. -/
theorem downB_at (c : Dev nD) (t : Fin cfg0.N) (d : Fin 2048) :
    (iblk m c 6 t : Cert.BlockSpec.BD.Idx → EReal) (ix2 (0 : Fin 1) d) = argB2 m c (ix1 d) := by
  have hx := index_bd t
  unfold iblk
  rw [View.read_apply]
  show V m c main_v5 _ = _
  rw [← found_b2_apply]
  refine congrArg (V m c main_v5 : S1x2048.Idx → EReal) (funext fun a => Fin.ext ?_)
  match a with
  | ⟨0, _⟩ => show win0_6.index t 0 * 1 + 1 * 0 = 0; rw [hx.1]
  | ⟨1, _⟩ => show win0_6.index t 1 * 2048 + 1 * d.val = d.val; rw [hx.2]; omega

/-! ## What point `t`'s step adds -/

/-- At `(r, d)`, with 512·(t / 16) + r = 2048·p + s and `i = t % 16`: the terms of hidden block `i`. -/
theorem contrib_at (c : Dev nD) (t : Fin cfg0.N) (i : Fin 16) (hti : i.val = t.val % 16) (p : Fin 2) (s : Fin 2048) (r : Fin 512)
    (hrow : 512 * (t.val / 16) + r.val = 2048 * p.val + s.val) (d : Fin 2048) :
    Cert.BlockSpec.contrib (iblk m c 0 t) (iblk m c 1 t) (iblk m c 2 t) (iblk m c 3 t) (iblk m c 4 t) (iblk m c 5 t) r d
      = ∑ k : Fin 512, Cert.Spec.hidden (argX m c) (argW1 m c) (argB1 m c) p s (blk i k) * argW2 m c (ix2 (blk i k) d) :=
  contrib_eq_terms (argX m c) (argW1 m c) (argB1 m c) (argW2 m c) (iblk m c 0 t) (iblk m c 1 t) (iblk m c 2 t) (iblk m c 3 t)
    (iblk m c 4 t) (iblk m c 5 t) p s r d i (xblock_at m c t p s r hrow) (gateW_at m c t i hti) (upW_at m c t i hti)
    (gateB_at m c t i hti) (upB_at m c t i hti) (fun k => downW_at m c t i hti k d)

end Cert.KernelIdeal.Hand

end
-- ==== Proof.KI.Sum.lean ====
/-
  The accumulator through the sixteen steps of a row block, and the output block the last step stores.

  Fix a row `(p, s)` of x and a column `d`, and write `f K = hidden p s K · w₂[K, d]` for `K < 8192`. Hidden block `n`
  contributes `∑ k < 512, f (512·n + k)`. At point `t` of row block `t / 16`, for the block's row `r` with
  512·(t / 16) + r = 2048·p + s, the accumulator holds at `(r, d)` the zero it was reset to plus the contributions of the
  hidden blocks `0 .. t % 16`: a first step adds block 0 to the zero, every later step adds its own block to what the
  step before left. After the sixteenth step that is the sum over all of `Fin 8192`, sixteen consecutive blocks of 512
  (`Spec.sum_blocks`), and the output block stored there adds the second bias: `Spec.out p s d`.
-/
import proofs.«164051_j29515015258325_1_alg».proof.Proof.KI.Blocks
import proofs.«164051_j29515015258325_1_alg».proof.Proof.KI.Steps

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

open Cert.Spec (blk)

/-- What hidden block `n` contributes to the second projection's sum at row `(p, s)` and column `d`; nothing past the
    sixteenth block. -/
def blockTerms (c : Dev nD) (p : Fin 2) (s d : Fin 2048) (n : ℕ) : EReal :=
  if h : n < 16 then
    ∑ k : Fin 512, Cert.Spec.hidden (argX m c) (argW1 m c) (argB1 m c) p s (blk ⟨n, h⟩ k) * argW2 m c (ix2 (blk ⟨n, h⟩ k) d)
  else 0

theorem blockTerms_of_lt (c : Dev nD) (p : Fin 2) (s d : Fin 2048) (n : ℕ) (h : n < 16) :
    blockTerms m c p s d n
      = ∑ k : Fin 512, Cert.Spec.hidden (argX m c) (argW1 m c) (argB1 m c) p s (blk ⟨n, h⟩ k) * argW2 m c (ix2 (blk ⟨n, h⟩ k) d) :=
  dif_pos h

/-- After a first step: the zero plus block 0. -/
theorem accAt_first_apply (c : Dev nD) (t : Fin cfg0.N) (h0 : t.val % 16 = 0) (p : Fin 2) (s : Fin 2048) (r : Fin 512) (d : Fin 2048)
    (hrow : 512 * (t.val / 16) + r.val = 2048 * p.val + s.val) :
    (accAt (F := Ideal) m c t.val t.isLt : Cert.BlockSpec.BX.Idx → EReal) (ix2 r d)
      = 0 + ∑ n ∈ Finset.range (t.val % 16 + 1), blockTerms m c p s d n := by
  rw [accAt_first_eq m c t h0, Cert.BlockSpec.stepBlk_apply, contrib_at m c t ⟨0, by omega⟩ h0.symm p s r hrow d, h0,
    Nat.zero_add, Finset.sum_range_one, blockTerms_of_lt m c p s d 0 (by omega)]

/-- After any other step: what the step before left plus this step's block. -/
theorem accAt_next_apply (c : Dev nD) (t : Fin cfg0.N) (h0 : ¬t.val % 16 = 0) (p : Fin 2) (s : Fin 2048) (r : Fin 512) (d : Fin 2048)
    (hrow : 512 * (t.val / 16) + r.val = 2048 * p.val + s.val)
    (n' : ℕ) (hn' : n' < cfg0.N) (e : n' = t.val - 1)
    (ih : (accAt (F := Ideal) m c n' hn' : Cert.BlockSpec.BX.Idx → EReal) (ix2 r d)
      = 0 + ∑ n ∈ Finset.range (t.val % 16), blockTerms m c p s d n) :
    (accAt (F := Ideal) m c t.val t.isLt : Cert.BlockSpec.BX.Idx → EReal) (ix2 r d)
      = 0 + ∑ n ∈ Finset.range (t.val % 16 + 1), blockTerms m c p s d n := by
  subst e
  rw [accAt_next_eq m c t h0, Cert.BlockSpec.stepBlk_apply]
  show (accAt (F := Ideal) m c (t.val - 1) _ : Cert.BlockSpec.BX.Idx → EReal) (ix2 r d) + _ = _
  rw [ih, contrib_at m c t ⟨t.val % 16, Nat.mod_lt _ (by decide)⟩ rfl p s r hrow d, Finset.sum_range_succ, add_assoc,
    blockTerms_of_lt m c p s d (t.val % 16) (Nat.mod_lt _ (by decide))]

/-- THE ACCUMULATOR after point `n`, at `(r, d)`: the zero plus the hidden blocks `0 .. n % 16`. By induction on the point. -/
theorem accAt_apply (c : Dev nD) : ∀ (n : ℕ) (hn : n < cfg0.N) (p : Fin 2) (s : Fin 2048) (r : Fin 512) (d : Fin 2048),
    512 * (n / 16) + r.val = 2048 * p.val + s.val →
    (accAt (F := Ideal) m c n hn : Cert.BlockSpec.BX.Idx → EReal) (ix2 r d)
      = 0 + ∑ n' ∈ Finset.range (n % 16 + 1), blockTerms m c p s d n'
  | 0, hn, p, s, r, d, hrow => accAt_first_apply m c ⟨0, hn⟩ rfl p s r d hrow
  | n + 1, hn, p, s, r, d, hrow => by
    by_cases h0 : (n + 1) % 16 = 0
    · exact accAt_first_apply m c ⟨n + 1, hn⟩ h0 p s r d hrow
    · have hdiv : 512 * (n / 16) + r.val = 2048 * p.val + s.val := by
        have : n / 16 = (n + 1) / 16 := by omega
        rw [this]; exact hrow
      have ih := accAt_apply c n (Nat.lt_of_succ_lt hn) p s r d hdiv
      have hmod : n % 16 + 1 = (n + 1) % 16 := by omega
      rw [hmod] at ih
      exact accAt_next_apply m c ⟨n + 1, hn⟩ h0 p s r d hrow n (Nat.lt_of_succ_lt hn) rfl ih

/-- THE OUTPUT BLOCK a last step stores, at `(r, d)`: the whole sum over the 8192 hidden columns plus the second bias. -/
theorem outAt_apply (c : Dev nD) (t : Fin cfg0.N) (h1 : t.val % 16 = 15) (p : Fin 2) (s : Fin 2048) (r : Fin 512) (d : Fin 2048)
    (hrow : 512 * (t.val / 16) + r.val = 2048 * p.val + s.val) :
    (outAt (F := Ideal) m c t : Cert.BlockSpec.BX.Idx → EReal) (ix2 r d)
      = Cert.Spec.out (argX m c) (argW1 m c) (argB1 m c) (argW2 m c) (argB2 m c) p s d := by
  rw [outAt_last_eq m c t h1, Cert.BlockSpec.biasBlk_apply, accAt_apply m c t.val t.isLt p s r d hrow, downB_at m c t d, h1]
  unfold Cert.Spec.out
  refine congrArg (· + argB2 m c (ix1 d)) ?_
  show (0 : EReal) + ∑ n ∈ Finset.range 16, blockTerms m c p s d n = _
  rw [zero_add, ← Fin.sum_univ_eq_sum_range (fun n => blockTerms m c p s d n) 16,
    ← Cert.Spec.sum_blocks fun K => Cert.Spec.hidden (argX m c) (argW1 m c) (argB1 m c) p s K * argW2 m c (ix2 K d)]
  exact Finset.sum_congr rfl fun i _ => blockTerms_of_lt m c p s d i.val i.isLt

end Cert.KernelIdeal.Hand

end
-- ==== Proof.KI.Value.lean ====
/-
  The kernel program's result at `Ideal` is the specification `Cert.Spec.G` of its five arguments.

  The arrays the region finds are the arguments recast (`found_x` … `found_b2`): the x block at point (m, i) is rows
  512·m .. 512·m + 511 of x read as 4096 × 2048 (row 2048·p + s is `x[p, s, ·]`), the gate and up weight blocks are
  columns 512·i .. and 8192 + 512·i .. of the first weight matrix with the matching pieces of its bias, the second weight
  block rows 512·i .. of the second matrix; the change of float format is the identity. So step i adds
  `∑ k < 512, hidden p s (512·i + k) · w₂[512·i + k, d]` (`contrib_at`), after step i the accumulator holds the sum over
  the first i + 1 blocks (`accAt_apply`), and after the last step the sixteen blocks make the whole sum over 8192
  (`Spec.sum_blocks`), to which the stored output block adds the second bias (`outAt_apply`).

  Here: the output block written back at the last step of row block m is rows 512·m .. of the result read as 4096 rows
  (`flushed_out`); every row lies in the block of the last step of its row block, so the eight write-backs cover the array
  (`cover_out`); and the final reshape reads row 2048·p + s back as (p, s), undoing the recast.
-/
import proofs.«164051_j29515015258325_1_alg».proof.Proof.KI.Frame
import proofs.«164051_j29515015258325_1_alg».proof.Proof.KI.Steps
import proofs.«164051_j29515015258325_1_alg».proof.Proof.KI.Sum
import proofs.«164051_j29515015258325_1_alg».proof.Proof.Spec
import Idealize.ShloMosaic.Lib.Pipeline.Value
import Idealize.ShloMosaic.Lib.ValueLayout
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

/-- The result read as 4096 rows of length 2048: row `2048·p + s` is `G[p, s, ·]`. -/
def resultRows (c : Dev nD) : S4096x2048.Idx → EReal :=
  shapeCast S4096x2048 (Cert.Spec.G (argX m c) (argW1 m c) (argB1 m c) (argW2 m c) (argB2 m c)) shapeCasts_S2x2048x2048_S4096x2048

theorem resultRows_apply (c : Dev nD) (p : Fin 2) (s d : Fin 2048) (k : S4096x2048.Idx)
    (hk0 : (k 0).val = 2048 * p.val + s.val) (hk1 : (k 1).val = d.val) :
    resultRows m c k = Cert.Spec.out (argX m c) (argW1 m c) (argB1 m c) (argW2 m c) (argB2 m c) p s d := by
  unfold resultRows
  refine (shapeCast_apply _ _ k (ix3 p s d) ?_).trans (Cert.Spec.G_apply _ _ _ _ _ p s d)
  rw [Shape.rowMajor_val_three, Shape.rowMajor_val_two]
  show (p.val * 2048 + s.val) * 2048 + d.val = (k 0).val * 2048 + (k 1).val
  rw [hk0, hk1]
  omega

/-- The output window's block index: the row block, column block 0. -/
theorem index_out : ∀ t : Fin cfg0.N, win0_7.index t (0 : Fin 2) = t.val / 16 ∧ win0_7.index t (1 : Fin 2) = 0 :=
  (by decide +kernel : ∀ t : Fin grid0.N, win0_7.index t (0 : Fin 2) = t.val / 16 ∧ win0_7.index t (1 : Fin 2) = 0)

/-- WHAT A LAST STEP WRITES BACK is its block of the result rows: entry `(r, d)` of the stored block is `out p s d` for the
    row `2048·p + s = 512·(t / 16) + r` the block's row `r` is. -/
theorem flushed_out (c : Dev nD) (t : Fin cfg0.N) (hf : (cfg0.win 7).flush t = true) :
    (dats m 0 c).flushed 7 t = ((cfg0.win 7).blk t).view.read (Elt Ideal) (resultRows m c) := by
  have h1 : t.val % 16 = 15 := (flush0_7 t).mp hf
  have hx := index_out t
  have ht : t.val < 128 := Nat.lt_of_lt_of_eq t.isLt N_0
  show (cfg0.win 7).cut (grid0.coords t) ((dats m 0 c).after 7 t) = _
  rw [after_7]
  funext y
  obtain ⟨r, d, rfl⟩ : ∃ (r : Fin 512) (d : Fin 2048), y = ix2 r d := ⟨y 0, y 1, eq_ix2 y⟩
  rw [View.read_apply]
  show (outAt (F := Ideal) m c t : S512x2048.Idx → EReal) (ix2 r d) = resultRows m c (((cfg0.win 7).blk t).view.emb (ix2 r d))
  have hrow : 512 * (t.val / 16) + r.val
      = 2048 * ((512 * (t.val / 16) + r.val) / 2048) + (512 * (t.val / 16) + r.val) % 2048 := (Nat.div_add_mod _ _).symm
  rw [outAt_apply m c t h1 ⟨(512 * (t.val / 16) + r.val) / 2048, by omega⟩
    ⟨(512 * (t.val / 16) + r.val) % 2048, Nat.mod_lt _ (by decide)⟩ r d hrow]
  refine (resultRows_apply m c _ _ d _ ?_ ?_).symm
  · show win0_7.index t 0 * 512 + 1 * r.val
      = 2048 * ((512 * (t.val / 16) + r.val) / 2048) + (512 * (t.val / 16) + r.val) % 2048
    rw [hx.1]; omega
  · show win0_7.index t 1 * 2048 + 1 * d.val = d.val
    rw [hx.2]; omega

/-- Every row of the result lies in the block the last step of its row block writes back. -/
theorem cover_out (i : S4096x2048.Idx) :
    ∃ t : Fin cfg0.N, (cfg0.win 7).flush t = true ∧ i ∈ ((cfg0.win 7).blk t).view.set := by
  have hN : cfg0.N = 128 := N_0
  have hi0 : (i 0).val < 4096 := idx2_lt0 i
  have hi1 : (i 1).val < 2048 := idx2_lt1 i
  obtain ⟨t, htv⟩ : ∃ t : Fin cfg0.N, t.val = 16 * ((i 0).val / 512) + 15 := ⟨⟨_, by rw [hN]; omega⟩, rfl⟩
  have hx := index_out t
  refine ⟨t, (flush0_7 t).mpr (by omega), ?_⟩
  show i ∈ ((View.whole main_v6).slice (win0_7.rect t)).set
  rw [View.set_slice_whole, Rect.mem_set_unit]
  intro a
  match a with
  | ⟨0, _⟩ =>
    show win0_7.index t 0 * 512 ≤ (i 0).val ∧ (i 0).val < win0_7.index t 0 * 512 + 512
    rw [hx.1]; omega
  | ⟨1, _⟩ =>
    show win0_7.index t 1 * 2048 ≤ (i 1).val ∧ (i 1).val < win0_7.index t 1 * 2048 + 2048
    rw [hx.2]; omega

/-- So the result array ends holding the result rows, -/
theorem result_rows (c : Dev nD) : (dats m 0 c).arrAt 7 cfg0.N = resultRows m c :=
  (dats m 0 c).arrAt_eq_of_cover 7 (resultRows m c) (flushed_out m c) cover_out

/-- and the final reshape of it is `G`: the recast to 4096 rows and back is the identity. -/
theorem result_eq_G (c : Dev nD) :
    shapeCast S2x2048x2048 ((dats m 0 c).arrAt 7 cfg0.N) shapeCasts_S4096x2048_S2x2048x2048
      = Cert.Spec.G (argX m c) (argW1 m c) (argB1 m c) (argW2 m c) (argB2 m c) := by
  rw [result_rows]
  exact shapeCast_shapeCast _ _ _

/-- Every weakly fair execution of the idealized kernel program terminates with its result at `G` of the arguments'
    launch contents, the arguments unchanged. -/
theorem run_G (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v7) = Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run (defs (F := Ideal)) _ _).mono (fun _ h c => ⟨(h c).2.1.trans (result_eq_G m c), (h c).2.2⟩) (run_main m ρ)

end Cert.KernelIdeal.Hand

end
-- ==== Proof.RefValue.lean ====
/-
  The reference's run read back as the specification: at `Ideal` its result array is `Cert.Spec.G` of its five
  argument arrays. Stage by stage: the first `dot_general` with its broadcast bias is `Spec.proj`; the two slices of the
  last axis are its low and high halves; jax's expansion of `silu` — negate, exponential, one plus, one over, times the
  argument — is `g · logistic g` on every extended real; the second `dot_general` with its broadcast bias is `Spec.out`.
-/
import proofs.«164051_j29515015258325_1_alg».proof.Proof.Gen.ReferenceIdeal.Run
import proofs.«164051_j29515015258325_1_alg».proof.Proof.Gen.ReferenceIdeal.Read
import proofs.«164051_j29515015258325_1_alg».proof.Proof.Spec
import Idealize.ShloMosaic.PureOps.Ideal.Laws
import Idealize.ShloMosaic.Lib.ValueIdx
import Idealize.ShloMosaic.Lib.IdealHost
import Idealize.ShloMosaic.Lib.Pipeline.Value

noncomputable section

namespace Cert.ReferenceIdeal.RefValue

open Cert.ReferenceIdeal Cert.ReferenceIdeal.Gen Idealize.ShloMosaic Idealize.ShloMosaic.TcCoe Idealize.SL.Sem
open Idealize.ShloMosaic.ValueIdx Cert.ReferenceIdeal.Read

section Stages

variable (x : FVec Ideal S2x2048x2048 .f32) (w1 : FVec Ideal S2048x16384 .f32) (b1 : FVec Ideal S16384 .f32)
  (w2 : FVec Ideal S8192x2048 .f32) (b2 : FVec Ideal S2048 .f32)

/-! ## The first projection -/

/-- Entry `(p, s, k)` of the first product reads row `(p, s)` of `x` along `j` … -/
theorem proj_row (p : Fin 2) (s : Fin 2048) (k : Fin 16384) (j : Fin 2048) :
    lidx_main_v0 (ix3 p s k) j = ix3 p s j :=
  funext fun a => Fin.ext (by match a with | ⟨0, _⟩ => rfl | ⟨1, _⟩ => rfl | ⟨2, _⟩ => rfl)

/-- … against column `k` of `w₁`. -/
theorem proj_col (p : Fin 2) (s : Fin 2048) (k : Fin 16384) (j : Fin 2048) :
    ridx_main_v0 (ix3 p s k) j = ix2 j k :=
  funext fun a => Fin.ext (by match a with | ⟨0, _⟩ => rfl | ⟨1, _⟩ => rfl)

/-- The first bias, broadcast over the rows, is read at the column. -/
theorem bias1_at (p : Fin 2) (s : Fin 2048) (k : Fin 16384) :
    idx_main_v1 (idx_main_v2 (ix3 p s k)) = ix1 k :=
  funext fun a => Fin.ext (by match a with | ⟨0, _⟩ => rfl)

/-- The first product plus its bias is `Spec.proj`. -/
theorem proj_at (p : Fin 2) (s : Fin 2048) (k : Fin 16384) :
    val_main_v3 (F := Ideal) x w1 b1 (ix3 p s k) = Cert.Spec.proj x w1 b1 p s k := by
  rw [val_main_v3_apply, val_main_v0_apply, val_main_v2_apply, val_main_v1_apply, bias1_at]
  simp only [proj_row, proj_col]
  rfl

/-! ## Its two halves -/

/-- The slice at offset 0 of the last axis reads column `k` … -/
theorem gate_col (p : Fin 2) (s : Fin 2048) (k : Fin 8192) :
    idx_main_v4 (ix3 p s k) = ix3 p s (Cert.Spec.lo k) :=
  funext fun a => Fin.ext (by match a with | ⟨0, _⟩ => rfl | ⟨1, _⟩ => rfl | ⟨2, _⟩ => rfl)

/-- … and the slice at offset 8192 column `8192 + k`. -/
theorem up_col (p : Fin 2) (s : Fin 2048) (k : Fin 8192) :
    idx_main_v5 (ix3 p s k) = ix3 p s (Cert.Spec.hi k) :=
  funext fun a => Fin.ext (by match a with | ⟨0, _⟩ => rfl | ⟨1, _⟩ => rfl | ⟨2, _⟩ => rfl)

/-- The gate is the low half of the projection. -/
theorem gate_at (p : Fin 2) (s : Fin 2048) (k : Fin 8192) :
    val_main_v4 (F := Ideal) x w1 b1 (ix3 p s k) = Cert.Spec.proj x w1 b1 p s (Cert.Spec.lo k) := by
  rw [val_main_v4_apply, gate_col, proj_at]

/-- The up branch is its high half. -/
theorem up_at (p : Fin 2) (s : Fin 2048) (k : Fin 8192) :
    val_main_v5 (F := Ideal) x w1 b1 (ix3 p s k) = Cert.Spec.proj x w1 b1 p s (Cert.Spec.hi k) := by
  rw [val_main_v5_apply, up_col, proj_at]

/-! ## silu, spelt out, is the argument times its logistic -/

/-- Negate, exponential, one plus, one over, times the argument: `g · (1 / (1 + e^(-g)))`, and the quotient is the
    logistic by definition, at the infinities too. -/
theorem silu_at (p : Fin 2) (s : Fin 2048) (k : Fin 8192) :
    val_main_v6 (F := Ideal) x w1 b1 (ix3 p s k)
      = Cert.Spec.proj x w1 b1 p s (Cert.Spec.lo k) * Ideal.logistic (Cert.Spec.proj x w1 b1 p s (Cert.Spec.lo k)) := by
  rw [val_main_v6_apply, val_main_call0_v5_apply, val_main_call0_v4_apply, val_main_call0_cst_0_apply,
    val_main_call0_v3_apply, val_main_call0_v2_apply, val_main_call0_cst_apply, val_main_call0_v1_apply,
    val_main_call0_v0_apply, gate_at]
  simp only [Ideal.ofBits_def, Ideal.ofBits_one_f32, Ideal.mulf_def, Ideal.hostDivf_def, Ideal.addf_def,
    Ideal.hostUnary_exp_def, Ideal.hostNegf_def, Ideal.negf_def]
  rfl

/-- The second product's left operand is `Spec.hidden`. -/
theorem hidden_at (p : Fin 2) (s : Fin 2048) (k : Fin 8192) :
    val_main_v7 (F := Ideal) x w1 b1 (ix3 p s k) = Cert.Spec.hidden x w1 b1 p s k := by
  rw [val_main_v7_apply, silu_at, up_at]
  rfl

/-! ## The second projection -/

/-- Entry `(p, s, d)` of the second product reads row `(p, s)` of the hidden array along `k` … -/
theorem out_row (p : Fin 2) (s : Fin 2048) (d : Fin 2048) (k : Fin 8192) :
    lidx_main_v8 (ix3 p s d) k = ix3 p s k :=
  funext fun a => Fin.ext (by match a with | ⟨0, _⟩ => rfl | ⟨1, _⟩ => rfl | ⟨2, _⟩ => rfl)

/-- … against column `d` of `w₂`. -/
theorem out_col (p : Fin 2) (s : Fin 2048) (d : Fin 2048) (k : Fin 8192) :
    ridx_main_v8 (ix3 p s d) k = ix2 k d :=
  funext fun a => Fin.ext (by match a with | ⟨0, _⟩ => rfl | ⟨1, _⟩ => rfl)

/-- The second bias, broadcast over the rows, is read at the column. -/
theorem bias2_at (p : Fin 2) (s : Fin 2048) (d : Fin 2048) :
    idx_main_v9 (idx_main_v10 (ix3 p s d)) = ix1 d :=
  funext fun a => Fin.ext (by match a with | ⟨0, _⟩ => rfl)

/-- The last stage at `(p, s, d)` is `Spec.out`. -/
theorem out_at (p : Fin 2) (s : Fin 2048) (d : Fin 2048) :
    val_main_v11 (F := Ideal) x w1 b1 w2 b2 (ix3 p s d) = Cert.Spec.out x w1 b1 w2 b2 p s d := by
  rw [val_main_v11_apply, val_main_v8_apply, val_main_v10_apply, val_main_v9_apply, bias2_at]
  simp only [out_row, out_col, hidden_at]
  rfl

/-- The reference's result array is the specification's. -/
theorem result_eq : val_main_v11 (F := Ideal) x w1 b1 w2 b2 = Cert.Spec.G x w1 b1 w2 b2 := by
  funext i
  obtain ⟨p, s, d, rfl⟩ : ∃ (p : Fin 2) (s : Fin 2048) (d : Fin 2048), i = ix3 p s d := ⟨i 0, i 1, i 2, eq_ix3 i⟩
  rw [out_at, Cert.Spec.G_apply]

end Stages

/-- Every weakly fair execution of the reference terminates with its result at `G` of the arguments' launch
    contents, the arguments unchanged. -/
theorem run_G (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v11) = Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run (defs (F := Ideal)) _ _).mono
    (fun _ h c => ⟨(h c).1.trans ((val_main_v11_eq (F := Ideal) _ _ _ _ _).trans (result_eq _ _ _ _ _)), (h c).2⟩)
    (Cert.ReferenceIdeal.Value.run (F := Ideal) m ρ)

end Cert.ReferenceIdeal.RefValue

end
-- ==== Proof.lean ====
/-
  The certificate's claims assembled.

  Both programs compute, over the extended reals, `G[p, s, d] = (∑ k < 8192, hidden p s k · w₂[k, d]) + b₂[d]` with
  `hidden = silu(gate) · up` of the first projection's two halves (`Cert.Spec`). The reference forms each sum at once; the
  kernel runs a grid of 8 row blocks × 16 hidden-column blocks, adding one block's contribution to an accumulator at each
  step and writing the output block, with the bias, at the sixteenth. A finite sum over 8192 is the sum over its sixteen
  blocks of 512, and addition on the extended reals is commutative and associative, so the two agree on every input — the
  precondition is not used by the value claim.

  The three frames: the kernel program at the word level and at `Ideal` by the same hand frame (the region's launch with two
  input arrays each shared by two windows, the body run case by case), the reference's by its run with the result dropped.
  `preserves` has no conjunct: the ideal pass rewrote nothing.
-/
import proofs.«164051_j29515015258325_1_alg».proof.Defs
import proofs.«164051_j29515015258325_1_alg».proof.Proof.Gen.Kernel
import proofs.«164051_j29515015258325_1_alg».proof.Proof.Gen.KernelIdeal
import proofs.«164051_j29515015258325_1_alg».proof.Proof.Gen.ReferenceIdeal
import proofs.«164051_j29515015258325_1_alg».proof.Proof.Gen.Pre_finite_inputs
import proofs.«164051_j29515015258325_1_alg».proof.Proof.KB.Frame
import proofs.«164051_j29515015258325_1_alg».proof.Proof.KI.Frame
import proofs.«164051_j29515015258325_1_alg».proof.Proof.KI.Value
import proofs.«164051_j29515015258325_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs to the end, faults nowhere and leaves its arguments unchanged. -/
theorem frame_kernel : Cert.frame_Kernel (hKernel := Cert.Kernel.Gen.facts) (hPre_finite_inputs := Cert.Pre_finite_inputs.Gen.facts) :=
  fun m ρ _ => Cert.Kernel.Hand.frame m ρ

/-- So does it read at `Ideal`. -/
theorem frame_kernelIdeal : Cert.frame_KernelIdeal (hKernelIdeal := Cert.KernelIdeal.Gen.facts) (hPre_finite_inputs := Cert.Pre_finite_inputs.Gen.facts) :=
  fun m ρ _ => Cert.KernelIdeal.Hand.frame m ρ

/-- The reference's frame is its run with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories agreeing on the arguments both idealized programs end at `G` of those arguments. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    Cert.KernelIdeal.Hand.run_G m ρ, ?_⟩
  refine (θ_run Cert.ReferenceIdeal.defs _ _).mono (fun _ h c => ⟨(h c).1.trans ?_, (h c).2⟩) (Cert.ReferenceIdeal.RefValue.run_G m' ρ')
  rw [(hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
